-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S65536 : Shape := ⟨1, ![65536]⟩
abbrev S2048x64 : Shape := ⟨2, ![2048, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2048x128 : Shape := ⟨2, ![2048, 128]⟩
abbrev S128 : Shape := ⟨1, ![128]⟩
abbrev S128x64 : Shape := ⟨2, ![128, 64]⟩
abbrev S64x1 : Shape := ⟨2, ![64, 1]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg22 : FVec F S128x64 .f32) (main_arg23 : FVec F S64 .f32) (main_arg24 : FVec F S64x1 .f32) (main_arg25 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg22
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg23
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg24
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg25
  fn_part7 (F := F) main_v118 main_v119

def fn_part5 {F : FTy → Type} [FloatOps F] (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S2048x128 .f32 := Host.absf main_arg20
  let main_cst_36 : FVec F S_ .f32 := constant S_ .f32 0x7F800000#32
  let main_v95 : FVec F S2048x128 .f32 := broadcastInDim S2048x128 ![] bcast_S_S2048x128 main_cst_36
  let main_v96 : IVec S2048x128 1 := cmpf .olt main_v94 main_v95
  let main_c_37 : IVec S_ 1 := constantI S_ 1 1#1
  let main_v97 : IVec S_ 1 := (fun x v => Host.reduce IntOp.andi x v reducesTo_S2048x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S128 .f32) (main_arg16 : FVec F S128x64 .f32) (main_arg17 : FVec F S64 .f32) (main_arg18 : FVec F S64x1 .f32) (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x1 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S32x1 .f32) (main_arg13 : FVec F S1 .f32) (main_arg14 : FVec F S2048x128 .f32) (main_arg15 : FVec F S128 .f32) (main_arg16 : FVec F S128x64 .f32) (main_arg17 : FVec F S64 .f32) (main_arg18 : FVec F S64x1 .f32) (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S2048x128 .f32 := Host.absf main_arg14
  let main_cst_24 : FVec F S_ .f32 := constant S_ .f32 0x7F800000#32
  let main_v65 : FVec F S2048x128 .f32 := broadcastInDim S2048x128 ![] bcast_S_S2048x128 main_cst_24
  let main_v66 : IVec S2048x128 1 := cmpf .olt main_v64 main_v65
  let main_c_25 : IVec S_ 1 := constantI S_ 1 1#1
  let main_v67 : IVec S_ 1 := (fun x v => Host.reduce IntOp.andi x v reducesTo_S2048x128_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S2048x64 .f32) (main_arg9 : FVec F S64 .f32) (main_arg10 : FVec F S64x32 .f32) (main_arg11 : FVec F S32 .f32) (main_arg12 : FVec F S32x1 .f32) (main_arg13 : FVec F S1 .f32) (main_arg14 : FVec F S2048x128 .f32) (main_arg15 : FVec F S128 .f32) (main_arg16 : FVec F S128x64 .f32) (main_arg17 : FVec F S64 .f32) (main_arg18 : FVec F S64x1 .f32) (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S2048x64 .f32 := Host.absf main_arg8
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S32 .f32) (main_arg6 : FVec F S32x1 .f32) (main_arg7 : FVec F S1 .f32) (main_arg8 : FVec F S2048x64 .f32) (main_arg9 : FVec F S64 .f32) (main_arg10 : FVec F S64x32 .f32) (main_arg11 : FVec F S32 .f32) (main_arg12 : FVec F S32x1 .f32) (main_arg13 : FVec F S1 .f32) (main_arg14 : FVec F S2048x128 .f32) (main_arg15 : FVec F S128 .f32) (main_arg16 : FVec F S128x64 .f32) (main_arg17 : FVec F S64 .f32) (main_arg18 : FVec F S64x1 .f32) (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x2048 .f32) (main_arg1 : IVec S65536 32) (main_arg2 : FVec F S2048x64 .f32) (main_arg3 : FVec F S64 .f32) (main_arg4 : FVec F S64x32 .f32) (main_arg5 : FVec F S32 .f32) (main_arg6 : FVec F S32x1 .f32) (main_arg7 : FVec F S1 .f32) (main_arg8 : FVec F S2048x64 .f32) (main_arg9 : FVec F S64 .f32) (main_arg10 : FVec F S64x32 .f32) (main_arg11 : FVec F S32 .f32) (main_arg12 : FVec F S32x1 .f32) (main_arg13 : FVec F S1 .f32) (main_arg14 : FVec F S2048x128 .f32) (main_arg15 : FVec F S128 .f32) (main_arg16 : FVec F S128x64 .f32) (main_arg17 : FVec F S64 .f32) (main_arg18 : FVec F S64x1 .f32) (main_arg19 : FVec F S1 .f32) (main_arg20 : FVec F S2048x128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x2048 : Shape := ⟨2, ![65536, 2048]⟩
abbrev S65536 : Shape := ⟨1, ![65536]⟩
abbrev S2048x64 : Shape := ⟨2, ![2048, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2048x128 : Shape := ⟨2, ![2048, 128]⟩
abbrev S128 : Shape := ⟨1, ![128]⟩
abbrev S128x64 : Shape := ⟨2, ![128, 64]⟩
abbrev S64x1 : Shape := ⟨2, ![64, 1]⟩
abbrev S2048x384 : Shape := ⟨2, ![2048, 384]⟩
abbrev S384 : Shape := ⟨1, ![384]⟩
abbrev S_ : Shape := ⟨0, ![]⟩
abbrev S384x192 : Shape := ⟨2, ![384, 192]⟩
abbrev S2 : Shape := ⟨1, ![2]⟩
abbrev S192 : Shape := ⟨1, ![192]⟩
abbrev S192x4 : Shape := ⟨2, ![192, 4]⟩
abbrev S4 : Shape := ⟨1, ![4]⟩
abbrev S65536x1 : Shape := ⟨2, ![65536, 1]⟩
abbrev S2048x2048 : Shape := ⟨2, ![2048, 2048]⟩
abbrev S2048x1 : Shape := ⟨2, ![2048, 1]⟩
abbrev S1x384 : Shape := ⟨2, ![1, 384]⟩
abbrev S2048x192 : Shape := ⟨2, ![2048, 192]⟩
abbrev S1x192 : Shape := ⟨2, ![1, 192]⟩
abbrev S2048x4 : Shape := ⟨2, ![2048, 4]⟩
abbrev S1x4 : Shape := ⟨2, ![1, 4]⟩
abbrev S2048 : Shape := ⟨1, ![2048]⟩

abbrev nBuf : Space → Nat
  | .hbm => 114
  | .vmem => 14
  | .smem => 0
  | _ => 0

abbrev bufTy : (tb : Table) → Fin (tcTables nBuf tb) → BufTy
  | .hbm, ⟨0, _⟩ => ⟨S65536x2048, .f32⟩
  | .hbm, ⟨1, _⟩ => ⟨S65536, .i32⟩
  | .hbm, ⟨2, _⟩ => ⟨S2048x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S2048x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S2048x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S64x1, .f32⟩
  | .hbm, ⟨19, _⟩ => ⟨S1, .f32⟩
  | .hbm, ⟨20, _⟩ => ⟨S2048x128, .f32⟩
  | .hbm, ⟨21, _⟩ => ⟨S128, .f32⟩
  | .hbm, ⟨22, _⟩ => ⟨S128x64, .f32⟩
  | .hbm, ⟨23, _⟩ => ⟨S64, .f32⟩
  | .hbm, ⟨24, _⟩ => ⟨S64x1, .f32⟩
  | .hbm, ⟨25, _⟩ => ⟨S1, .f32⟩
  | .hbm, ⟨26, _⟩ => ⟨S2048x384, .f32⟩
  | .hbm, ⟨27, _⟩ => ⟨S2048x384, .bf16⟩
  | .hbm, ⟨28, _⟩ => ⟨S384, .f32⟩
  | .hbm, ⟨29, _⟩ => ⟨S_, .bf16⟩
  | .hbm, ⟨30, _⟩ => ⟨S384x192, .bf16⟩
  | .hbm, ⟨31, _⟩ => ⟨S64x32, .bf16⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S384x192, .bf16⟩
  | .hbm, ⟨38, _⟩ => ⟨S64x32, .bf16⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S384x192, .bf16⟩
  | .hbm, ⟨45, _⟩ => ⟨S128x64, .bf16⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S384x192, .bf16⟩
  | .hbm, ⟨52, _⟩ => ⟨S128x64, .bf16⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S384x192, .bf16⟩
  | .hbm, ⟨59, _⟩ => ⟨S192, .f32⟩
  | .hbm, ⟨60, _⟩ => ⟨S_, .bf16⟩
  | .hbm, ⟨61, _⟩ => ⟨S192x4, .bf16⟩
  | .hbm, ⟨62, _⟩ => ⟨S32x1, .bf16⟩
  | .hbm, ⟨63, _⟩ => ⟨S32, .bf16⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S192x4, .bf16⟩
  | .hbm, ⟨70, _⟩ => ⟨S32x1, .bf16⟩
  | .hbm, ⟨71, _⟩ => ⟨S32, .bf16⟩
  | .hbm, ⟨72, _⟩ => ⟨S_, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S2, .i32⟩
  | .hbm, ⟨77, _⟩ => ⟨S192x4, .bf16⟩
  | .hbm, ⟨78, _⟩ => ⟨S64x1, .bf16⟩
  | .hbm, ⟨79, _⟩ => ⟨S64, .bf16⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S2, .i32⟩
  | .hbm, ⟨85, _⟩ => ⟨S192x4, .bf16⟩
  | .hbm, ⟨86, _⟩ => ⟨S64x1, .bf16⟩
  | .hbm, ⟨87, _⟩ => ⟨S64, .bf16⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S2, .i32⟩
  | .hbm, ⟨93, _⟩ => ⟨S192x4, .bf16⟩
  | .hbm, ⟨94, _⟩ => ⟨S4, .f32⟩
  | .hbm, ⟨95, _⟩ => ⟨S_, .i32⟩
  | .hbm, ⟨96, _⟩ => ⟨S65536, .i32⟩
  | .hbm, ⟨97, _⟩ => ⟨S65536, .i1⟩
  | .hbm, ⟨98, _⟩ => ⟨S_, .i32⟩
  | .hbm, ⟨99, _⟩ => ⟨S65536, .i32⟩
  | .hbm, ⟨100, _⟩ => ⟨S65536, .i1⟩
  | .hbm, ⟨101, _⟩ => ⟨S65536, .i1⟩
  | .hbm, ⟨102, _⟩ => ⟨S65536, .f32⟩
  | .hbm, ⟨103, _⟩ => ⟨S65536x1, .f32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S65536, .i32⟩
  | .hbm, ⟨108, _⟩ => ⟨S65536, .i32⟩
  | .hbm, ⟨109, _⟩ => ⟨S_, .i32⟩
  | .hbm, ⟨110, _⟩ => ⟨S65536, .i32⟩
  | .hbm, ⟨111, _⟩ => ⟨S65536, .i32⟩
  | .hbm, ⟨112, _⟩ => ⟨S65536x1, .i32⟩
  | .hbm, ⟨113, _⟩ => ⟨S65536x1, .f32⟩
  | .local _ .vmem, ⟨0, _⟩ => ⟨S2048x2048, .f32⟩
  | .local _ .vmem, ⟨1, _⟩ => ⟨S2048x2048, .f32⟩
  | .local _ .vmem, ⟨2, _⟩ => ⟨S2048x1, .i32⟩
  | .local _ .vmem, ⟨3, _⟩ => ⟨S2048x1, .i32⟩
  | .local _ .vmem, ⟨4, _⟩ => ⟨S2048x1, .f32⟩
  | .local _ .vmem, ⟨5, _⟩ => ⟨S2048x1, .f32⟩
  | .local _ .vmem, ⟨6, _⟩ => ⟨S2048x384, .bf16⟩
  | .local _ .vmem, ⟨7, _⟩ => ⟨S384, .f32⟩
  | .local _ .vmem, ⟨8, _⟩ => ⟨S384x192, .bf16⟩
  | .local _ .vmem, ⟨9, _⟩ => ⟨S192, .f32⟩
  | .local _ .vmem, ⟨10, _⟩ => ⟨S192x4, .bf16⟩
  | .local _ .vmem, ⟨11, _⟩ => ⟨S4, .f32⟩
  | .local _ .vmem, ⟨12, _⟩ => ⟨S2048x1, .f32⟩
  | .local _ .vmem, ⟨13, _⟩ => ⟨S2048x1, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_c_6 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_8 : Ref sig .tc := ⟨.hbm, 64, rfl⟩
abbrev main_v28 : Ref sig .tc := ⟨.hbm, 65, rfl⟩
abbrev main_c_9 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_10 : Ref sig .tc := ⟨.hbm, 72, rfl⟩
abbrev main_v34 : Ref sig .tc := ⟨.hbm, 73, rfl⟩
abbrev main_c_11 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_12 : Ref sig .tc := ⟨.hbm, 80, rfl⟩
abbrev main_v40 : Ref sig .tc := ⟨.hbm, 81, rfl⟩
abbrev main_c_13 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_14 : Ref sig .tc := ⟨.hbm, 88, rfl⟩
abbrev main_v46 : Ref sig .tc := ⟨.hbm, 89, rfl⟩
abbrev main_c_15 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_16 : Ref sig .tc := ⟨.hbm, 95, rfl⟩
abbrev main_v51 : Ref sig .tc := ⟨.hbm, 96, rfl⟩
abbrev main_v52 : Ref sig .tc := ⟨.hbm, 97, rfl⟩
abbrev main_c_17 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_18 : Ref sig .tc := ⟨.hbm, 104, rfl⟩
abbrev main_c_19 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x4 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S2048x64_S2048x64_S2048x128_S2048x128_S2048x384_d1 : Shape.Concatenates [S2048x64, S2048x64, S2048x128, S2048x128] S2048x384 1
  bitsLt_bf16_f32 : FTy.bits .bf16 < FTy.bits .f32
  concatenates_S64_S64_S128_S128_S384_d0 : Shape.Concatenates [S64, S64, S128, S128] S384 0
  bcast_S_S384x192 : S_.BroadcastsInDim S384x192 (![] : Fin 0 → Fin S384x192.rank)
  bcast_S_S1 : S_.BroadcastsInDim S1 (![] : Fin 0 → Fin S1.rank)
  concatenates_S1_S1_S2_d0 : Shape.Concatenates [S1, S1] S2 0
  concatenates_S32_S32_S64_S64_S192_d0 : Shape.Concatenates [S32, S32, S64, S64] S192 0
  bcast_S_S192x4 : S_.BroadcastsInDim S192x4 (![] : Fin 0 → Fin S192x4.rank)
  shapeCasts_S32x1_S32 : S32x1.ShapeCasts S32
  shapeCasts_S64x1_S64 : S64x1.ShapeCasts S64
  concatenates_S1_S1_S1_S1_S4_d0 : Shape.Concatenates [S1, S1, S1, S1] S4 0
  bcast_S_S65536 : S_.BroadcastsInDim S65536 (![] : Fin 0 → Fin S65536.rank)
  shapeCasts_S65536_S65536x1 : S65536.ShapeCasts S65536x1
  inb_S2048x2048_S2048x2048_0_0 : ∀ a, (![0, 0] : Fin 2 → Nat) a + S2048x2048.size a ≤ S2048x2048.size a
  h_S2048x2048 : 0 < S2048x2048.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S2048x384 : S1x384.Broadcasts S2048x384
  inb_S384x192_S384x192_0_0 : ∀ a, (![0, 0] : Fin 2 → Nat) a + S384x192.size a ≤ S384x192.size a
  h_S384x192 : 0 < S384x192.numel
  shapeCasts_S384x192_S384x192 : S384x192.ShapeCasts S384x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S2048x192 : S1x192.Broadcasts S2048x192
  inb_S192x4_S192x4_0_0 : ∀ a, (![0, 0] : Fin 2 → Nat) a + S192x4.size a ≤ S192x4.size a
  h_S192x4 : 0 < S192x4.numel
  shapeCasts_S192x4_S192x4 : S192x4.ShapeCasts S192x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S2048x4 : S1x4.Broadcasts S2048x4
  iota_S2048x4_d1_w32 : S2048x4.Iotas .tc 32 [1]
  broadcasts_S2048x1_S2048x4 : S2048x1.Broadcasts S2048x4
  natLt_1_32 : 1 < 32
  reduces_S2048x4_S2048 : S2048x4.Reduces [1] S2048
  shapeCasts_S2048_S2048x1 : S2048.ShapeCasts S2048x1
  scatter_S384x192_S2_S64x32_01_n_01_0_wf : ScatterDims.WF S384x192 S2 S64x32 [0, 1] [] [0, 1] 0
  scatter_S384x192_S2_S128x64_01_n_01_0_wf : ScatterDims.WF S384x192 S2 S128x64 [0, 1] [] [0, 1] 0
  scatter_S192x4_S2_S32_0_1_01_0_wf : ScatterDims.WF S192x4 S2 S32 [0] [1] [0, 1] 0
  scatter_S192x4_S2_S64_0_1_01_0_wf : ScatterDims.WF S192x4 S2 S64 [0] [1] [0, 1] 0
  dot_S2048x2048_S2048x384_S2048x384_1_0_0_1_n_n_wf : DotDims.WF S2048x2048 S2048x384 S2048x384 [1] [0] [0] [1] [] []
  dot_S2048x384_S384x192_S2048x192_1_0_0_1_n_n_wf : DotDims.WF S2048x384 S384x192 S2048x192 [1] [0] [0] [1] [] []
  dot_S2048x192_S192x4_S2048x4_1_0_0_1_n_n_wf : DotDims.WF S2048x192 S192x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S65536x2048.size a
  hwx0_0 : ∀ i : grid0.Coords, EltTy.bits .f32 = 32 ∨ (Rect.block (s := S65536x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x384.size a ≤ S2048x384.size a
  hwx0_3 : ∀ i : grid0.Coords, EltTy.bits .bf16 = 32 ∨ (Rect.block (s := S2048x384) S2048x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x192.size a ≤ S384x192.size a
  hwx0_5 : ∀ i : grid0.Coords, EltTy.bits .bf16 = 32 ∨ (Rect.block (s := S384x192) S384x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x4.size a ≤ S192x4.size a
  hwx0_7 : ∀ i : grid0.Coords, EltTy.bits .bf16 = 32 ∨ (Rect.block (s := S192x4) S192x4.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4.size a ≤ S4.size a
  hwx0_8 : ∀ i : grid0.Coords, EltTy.bits .f32 = 32 ∨ (Rect.block (s := S4) S4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S65536x1.size a
  hwx0_9 : ∀ i : grid0.Coords, EltTy.bits .f32 = 32 ∨ (Rect.block (s := S65536x1) S2048x1.size (cc0_transform_9 i) (hinb0_9 i)).WholeWords (EltTy.packing .f32)

variable [Facts₀]

def scatter_S384x192_S2_S64x32_01_n_01_0 : ScatterDims S384x192 S2 S64x32 where
  updateWindowDims := [0, 1]
  insertedWindowDims := []
  scatterDimsToOperandDims := [0, 1]
  indexVectorDim := 0
  wf := scatter_S384x192_S2_S64x32_01_n_01_0_wf
def scatter_S384x192_S2_S128x64_01_n_01_0 : ScatterDims S384x192 S2 S128x64 where
  updateWindowDims := [0, 1]
  insertedWindowDims := []
  scatterDimsToOperandDims := [0, 1]
  indexVectorDim := 0
  wf := scatter_S384x192_S2_S128x64_01_n_01_0_wf
def scatter_S192x4_S2_S32_0_1_01_0 : ScatterDims S192x4 S2 S32 where
  updateWindowDims := [0]
  insertedWindowDims := [1]
  scatterDimsToOperandDims := [0, 1]
  indexVectorDim := 0
  wf := scatter_S192x4_S2_S32_0_1_01_0_wf
def scatter_S192x4_S2_S64_0_1_01_0 : ScatterDims S192x4 S2 S64 where
  updateWindowDims := [0]
  insertedWindowDims := [1]
  scatterDimsToOperandDims := [0, 1]
  indexVectorDim := 0
  wf := scatter_S192x4_S2_S64_0_1_01_0_wf
def dot_S2048x2048_S2048x384_S2048x384_1_0_0_1_n_n : DotDims S2048x2048 S2048x384 S2048x384 where
  lhsContracting := [1]
  rhsContracting := [0]
  lhsNonContracting := [0]
  rhsNonContracting := [1]
  lhsBatch := []
  rhsBatch := []
  wf := dot_S2048x2048_S2048x384_S2048x384_1_0_0_1_n_n_wf
def dot_S2048x384_S384x192_S2048x192_1_0_0_1_n_n : DotDims S2048x384 S384x192 S2048x192 where
  lhsContracting := [1]
  rhsContracting := [0]
  lhsNonContracting := [0]
  rhsNonContracting := [1]
  lhsBatch := []
  rhsBatch := []
  wf := dot_S2048x384_S384x192_S2048x192_1_0_0_1_n_n_wf
def dot_S2048x192_S192x4_S2048x4_1_0_0_1_n_n : DotDims S2048x192 S192x4 S2048x4 where
  lhsContracting := [1]
  rhsContracting := [0]
  lhsNonContracting := [0]
  rhsNonContracting := [1]
  lhsBatch := []
  rhsBatch := []
  wf := dot_S2048x192_S192x4_S2048x4_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S384x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S192x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x2048 : Shape := ⟨2, ![65536, 2048]⟩
abbrev S65536 : Shape := ⟨1, ![65536]⟩
abbrev S2048x64 : Shape := ⟨2, ![2048, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S2048x128 : Shape := ⟨2, ![2048, 128]⟩
abbrev S128 : Shape := ⟨1, ![128]⟩
abbrev S128x64 : Shape := ⟨2, ![128, 64]⟩
abbrev S64x1 : Shape := ⟨2, ![64, 1]⟩
abbrev S65536x64 : Shape := ⟨2, ![65536, 64]⟩
abbrev S1x64 : Shape := ⟨2, ![1, 64]⟩
abbrev S_ : Shape := ⟨0, ![]⟩
abbrev S65536x32 : Shape := ⟨2, ![65536, 32]⟩
abbrev S1x32 : Shape := ⟨2, ![1, 32]⟩
abbrev S65536x1 : Shape := ⟨2, ![65536, 1]⟩
abbrev S1x1 : Shape := ⟨2, ![1, 1]⟩
abbrev S65536x128 : Shape := ⟨2, ![65536, 128]⟩
abbrev S1x128 : Shape := ⟨2, ![1, 128]⟩
abbrev S65536x4 : Shape := ⟨2, ![65536, 4]⟩
abbrev S65536x1x1 : Shape := ⟨3, ![65536, 1, 1]⟩
abbrev S1x1x1 : Shape := ⟨3, ![1, 1, 1]⟩

abbrev nBuf : Space → Nat
  | .hbm => 141
  | .vmem => 0
  | .smem => 0
  | _ => 0

abbrev hbmTy0_0 (i : Nat) : BufTy := match i % 128 with
  | 0 => ⟨S65536x2048, .f32⟩
  | 1 => ⟨S65536, .i32⟩
  | 2 => ⟨S2048x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S2048x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S2048x128, .f32⟩
  | 15 => ⟨S128, .f32⟩
  | 16 => ⟨S128x64, .f32⟩
  | 17 => ⟨S64, .f32⟩
  | 18 => ⟨S64x1, .f32⟩
  | 19 => ⟨S1, .f32⟩
  | 20 => ⟨S2048x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S65536x64, .f32⟩
  | 27 => ⟨S1x64, .f32⟩
  | 28 => ⟨S65536x64, .f32⟩
  | 29 => ⟨S65536x64, .f32⟩
  | 30 => ⟨S_, .f32⟩
  | 31 => ⟨S65536x64, .f32⟩
  | 32 => ⟨S65536x64, .f32⟩
  | 33 => ⟨S65536x32, .f32⟩
  | 34 => ⟨S1x32, .f32⟩
  | 35 => ⟨S65536x32, .f32⟩
  | 36 => ⟨S65536x32, .f32⟩
  | 37 => ⟨S_, .f32⟩
  | 38 => ⟨S65536x32, .f32⟩
  | 39 => ⟨S65536x32, .f32⟩
  | 40 => ⟨S65536x1, .f32⟩
  | 41 => ⟨S1x1, .f32⟩
  | 42 => ⟨S65536x1, .f32⟩
  | 43 => ⟨S65536x1, .f32⟩
  | 44 => ⟨S65536x64, .f32⟩
  | 45 => ⟨S1x64, .f32⟩
  | 46 => ⟨S65536x64, .f32⟩
  | 47 => ⟨S65536x64, .f32⟩
  | 48 => ⟨S_, .f32⟩
  | 49 => ⟨S65536x64, .f32⟩
  | 50 => ⟨S65536x64, .f32⟩
  | 51 => ⟨S65536x32, .f32⟩
  | 52 => ⟨S1x32, .f32⟩
  | 53 => ⟨S65536x32, .f32⟩
  | 54 => ⟨S65536x32, .f32⟩
  | 55 => ⟨S_, .f32⟩
  | 56 => ⟨S65536x32, .f32⟩
  | 57 => ⟨S65536x32, .f32⟩
  | 58 => ⟨S65536x1, .f32⟩
  | 59 => ⟨S1x1, .f32⟩
  | 60 => ⟨S65536x1, .f32⟩
  | 61 => ⟨S65536x1, .f32⟩
  | 62 => ⟨S65536x128, .f32⟩
  | 63 => ⟨S1x128, .f32⟩
  | 64 => ⟨S65536x128, .f32⟩
  | 65 => ⟨S65536x128, .f32⟩
  | 66 => ⟨S_, .f32⟩
  | 67 => ⟨S65536x128, .f32⟩
  | 68 => ⟨S65536x128, .f32⟩
  | 69 => ⟨S65536x64, .f32⟩
  | 70 => ⟨S1x64, .f32⟩
  | 71 => ⟨S65536x64, .f32⟩
  | 72 => ⟨S65536x64, .f32⟩
  | 73 => ⟨S_, .f32⟩
  | 74 => ⟨S65536x64, .f32⟩
  | 75 => ⟨S65536x64, .f32⟩
  | 76 => ⟨S65536x1, .f32⟩
  | 77 => ⟨S1x1, .f32⟩
  | 78 => ⟨S65536x1, .f32⟩
  | 79 => ⟨S65536x1, .f32⟩
  | 80 => ⟨S65536x128, .f32⟩
  | 81 => ⟨S1x128, .f32⟩
  | 82 => ⟨S65536x128, .f32⟩
  | 83 => ⟨S65536x128, .f32⟩
  | 84 => ⟨S_, .f32⟩
  | 85 => ⟨S65536x128, .f32⟩
  | 86 => ⟨S65536x128, .f32⟩
  | 87 => ⟨S65536x64, .f32⟩
  | 88 => ⟨S1x64, .f32⟩
  | 89 => ⟨S65536x64, .f32⟩
  | 90 => ⟨S65536x64, .f32⟩
  | 91 => ⟨S_, .f32⟩
  | 92 => ⟨S65536x64, .f32⟩
  | 93 => ⟨S65536x64, .f32⟩
  | 94 => ⟨S65536x1, .f32⟩
  | 95 => ⟨S1x1, .f32⟩
  | 96 => ⟨S65536x1, .f32⟩
  | 97 => ⟨S65536x1, .f32⟩
  | 98 => ⟨S65536x4, .f32⟩
  | 99 => ⟨S_, .i32⟩
  | 100 => ⟨S_, .i32⟩
  | 101 => ⟨S_, .i32⟩
  | 102 => ⟨S65536, .i32⟩
  | 103 => ⟨S65536, .i32⟩
  | 104 => ⟨S_, .i32⟩
  | 105 => ⟨S65536, .i32⟩
  | 106 => ⟨S65536, .i32⟩
  | 107 => ⟨S65536x1, .i32⟩
  | 108 => ⟨S_, .i32⟩
  | 109 => ⟨S65536x1, .i32⟩
  | 110 => ⟨S65536x1, .i1⟩
  | 111 => ⟨S_, .i32⟩
  | 112 => ⟨S65536x1, .i32⟩
  | 113 => ⟨S65536x1, .i32⟩
  | 114 => ⟨S65536x1, .i32⟩
  | 115 => ⟨S65536x1x1, .i32⟩
  | 116 => ⟨S1, .i32⟩
  | 117 => ⟨S_, .i32⟩
  | 118 => ⟨S65536x1x1, .i32⟩
  | 119 => ⟨S65536x1x1, .i1⟩
  | 120 => ⟨S1x1x1, .i32⟩
  | 121 => ⟨S65536x1x1, .i32⟩
  | 122 => ⟨S65536x1x1, .i1⟩
  | 123 => ⟨S65536x1x1, .i1⟩
  | 124 => ⟨S_, .i1⟩
  | 125 => ⟨S65536x1, .i1⟩
  | 126 => ⟨S65536x1, .f32⟩
  | 127 => ⟨S_, .f32⟩
  | _ => ⟨S65536x2048, .f32⟩

abbrev hbmTy0_1 (i : Nat) : BufTy := match i % 128 with
  | 0 => ⟨S65536x1, .f32⟩
  | 1 => ⟨S65536x1, .f32⟩
  | 2 => ⟨S_, .i32⟩
  | 3 => ⟨S65536, .i32⟩
  | 4 => ⟨S65536, .i1⟩
  | 5 => ⟨S_, .i32⟩
  | 6 => ⟨S65536, .i32⟩
  | 7 => ⟨S65536, .i1⟩
  | 8 => ⟨S65536, .i1⟩
  | 9 => ⟨S65536x1, .i1⟩
  | 10 => ⟨S_, .f32⟩
  | 11 => ⟨S65536x1, .f32⟩
  | 12 => ⟨S65536x1, .f32⟩
  | _ => ⟨S65536x2048, .f32⟩

abbrev hbmTy (i : Nat) : BufTy := match i / 128 with
  | 0 => hbmTy0_0 i
  | 1 => hbmTy0_1 i
  | _ => ⟨S65536x2048, .f32⟩

abbrev bufTy : (tb : Table) → Fin (tcTables nBuf tb) → BufTy
  | .hbm, ⟨i, _⟩ => hbmTy i
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_call0_cst : Ref sig .tc := ⟨.hbm, 30, rfl⟩
abbrev main_call0_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call2_cst : Ref sig .tc := ⟨.hbm, 48, rfl⟩
abbrev main_call2_v0 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call3_cst : Ref sig .tc := ⟨.hbm, 55, rfl⟩
abbrev main_call3_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call4_cst : Ref sig .tc := ⟨.hbm, 66, rfl⟩
abbrev main_call4_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call5_cst : Ref sig .tc := ⟨.hbm, 73, rfl⟩
abbrev main_call5_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_call6_cst : Ref sig .tc := ⟨.hbm, 84, rfl⟩
abbrev main_call6_v0 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call7_cst : Ref sig .tc := ⟨.hbm, 91, rfl⟩
abbrev main_call7_v0 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_c : Ref sig .tc := ⟨.hbm, 99, rfl⟩
abbrev main_c_0 : Ref sig .tc := ⟨.hbm, 100, rfl⟩
abbrev main_call8_v0 : Ref sig .tc := ⟨.hbm, 101, rfl⟩
abbrev main_call8_v1 : Ref sig .tc := ⟨.hbm, 102, rfl⟩
abbrev main_call8_v2 : Ref sig .tc := ⟨.hbm, 103, rfl⟩
abbrev main_call8_v3 : Ref sig .tc := ⟨.hbm, 104, rfl⟩
abbrev main_call8_v4 : Ref sig .tc := ⟨.hbm, 105, rfl⟩
abbrev main_v57 : Ref sig .tc := ⟨.hbm, 106, rfl⟩
abbrev main_v58 : Ref sig .tc := ⟨.hbm, 107, rfl⟩
abbrev main_call9_c : Ref sig .tc := ⟨.hbm, 108, rfl⟩
abbrev main_call9_v0 : Ref sig .tc := ⟨.hbm, 109, rfl⟩
abbrev main_call9_v1 : Ref sig .tc := ⟨.hbm, 110, rfl⟩
abbrev main_call9_c_0 : Ref sig .tc := ⟨.hbm, 111, rfl⟩
abbrev main_call9_v2 : Ref sig .tc := ⟨.hbm, 112, rfl⟩
abbrev main_call9_v3 : Ref sig .tc := ⟨.hbm, 113, rfl⟩
abbrev main_call9_v4 : Ref sig .tc := ⟨.hbm, 114, rfl⟩
abbrev main_call9_v5 : Ref sig .tc := ⟨.hbm, 115, rfl⟩
abbrev main_call9_c_1 : Ref sig .tc := ⟨.hbm, 116, rfl⟩
abbrev main_call9_c_2 : Ref sig .tc := ⟨.hbm, 117, rfl⟩
abbrev main_call9_v6 : Ref sig .tc := ⟨.hbm, 118, rfl⟩
abbrev main_call9_v7 : Ref sig .tc := ⟨.hbm, 119, rfl⟩
abbrev main_call9_v8 : Ref sig .tc := ⟨.hbm, 120, rfl⟩
abbrev main_call9_v9 : Ref sig .tc := ⟨.hbm, 121, rfl⟩
abbrev main_call9_v10 : Ref sig .tc := ⟨.hbm, 122, rfl⟩
abbrev main_call9_v11 : Ref sig .tc := ⟨.hbm, 123, rfl⟩
abbrev main_call9_c_3 : Ref sig .tc := ⟨.hbm, 124, rfl⟩
abbrev main_call9_v12 : Ref sig .tc := ⟨.hbm, 125, rfl⟩
abbrev main_call9_v13 : Ref sig .tc := ⟨.hbm, 126, rfl⟩
abbrev main_call9_cst : Ref sig .tc := ⟨.hbm, 127, rfl⟩
abbrev main_call9_v14 : Ref sig .tc := ⟨.hbm, 128, rfl⟩
abbrev main_v59 : Ref sig .tc := ⟨.hbm, 129, rfl⟩
abbrev main_c_1 : Ref sig .tc := ⟨.hbm, 130, rfl⟩
abbrev main_v60 : Ref sig .tc := ⟨.hbm, 131, rfl⟩
abbrev main_v61 : Ref sig .tc := ⟨.hbm, 132, rfl⟩
abbrev main_c_2 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst : Ref sig .tc := ⟨.hbm, 138, rfl⟩
abbrev main_v66 : Ref sig .tc := ⟨.hbm, 139, rfl⟩
abbrev main_v67 : Ref sig .tc := ⟨.hbm, 140, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  concatenates_S65536x1_S65536x1_S65536x1_S65536x1_S65536x4_d1 : Shape.Concatenates [S65536x1, S65536x1, S65536x1, S65536x1] S65536x4 1
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  dot_S65536x2048_S2048x64_S65536x64_1_0_0_1_n_n_wf : DotDims.WF S65536x2048 S2048x64 S65536x64 [1] [0] [0] [1] [] []
  dot_S65536x64_S64x32_S65536x32_1_0_0_1_n_n_wf : DotDims.WF S65536x64 S64x32 S65536x32 [1] [0] [0] [1] [] []
  dot_S65536x32_S32x1_S65536x1_1_0_0_1_n_n_wf : DotDims.WF S65536x32 S32x1 S65536x1 [1] [0] [0] [1] [] []
  dot_S65536x2048_S2048x128_S65536x128_1_0_0_1_n_n_wf : DotDims.WF S65536x2048 S2048x128 S65536x128 [1] [0] [0] [1] [] []
  dot_S65536x128_S128x64_S65536x64_1_0_0_1_n_n_wf : DotDims.WF S65536x128 S128x64 S65536x64 [1] [0] [0] [1] [] []
  dot_S65536x64_S64x1_S65536x1_1_0_0_1_n_n_wf : DotDims.WF S65536x64 S64x1 S65536x1 [1] [0] [0] [1] [] []
  gather_S65536x4_S65536x1x1_S65536x1_n_1_0_0_1_2_11_wf : GatherDims.WF S65536x4 S65536x1x1 S65536x1 [] [1] [0] [1] [0] 2 ![1, 1]

variable [Facts₀]

def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf
def dot_S65536x2048_S2048x128_S65536x128_1_0_0_1_n_n : DotDims S65536x2048 S2048x128 S65536x128 where
  lhsContracting := [1]
  rhsContracting := [0]
  lhsNonContracting := [0]
  rhsNonContracting := [1]
  lhsBatch := []
  rhsBatch := []
  wf := dot_S65536x2048_S2048x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def gather_S65536x4_S65536x1x1_S65536x1_n_1_0_0_1_2_11 : GatherDims S65536x4 S65536x1x1 S65536x1 where
  offsetDims := []
  collapsedSliceDims := [1]
  operandBatchingDims := [0]
  startIndicesBatchingDims := [0]
  startIndexMap := [1]
  indexVectorDim := 2
  sliceSizes := ![1, 1]
  wf := gather_S65536x4_S65536x1x1_S65536x1_n_1_0_0_1_2_11_wf

class Facts : Prop extends Facts₀ where

variable [Facts]
-- ==== Proof.FrameK.lean ====
/- The frame of the kernel program `Kernel`: its host prefix up to the one grid region, the contents of
   every array when the region is entered, each window's block at a grid point, what the body leaves in the
   output window's buffer as a function of the nine input blocks, the body's triple, the pipeline's proof
   data, and the run: every fair execution terminates and leaves the 26 argument arrays as launched. -/
import proofs.«426415_j40561671143598_2_alg».proof.Proof.Gen.Kernel.Launch
import proofs.«426415_j40561671143598_2_alg».proof.Proof.Gen.Kernel.Skeleton
import proofs.«426415_j40561671143598_2_alg».proof.Proof.Gen.Kernel.Points
import Idealize.ShloMosaic.Lib.Pipeline.FrameBody
import Idealize.ShloMosaic.Lib.Ring
import Idealize.ShloMosaic.Lib.Tactic

-- membership in a rectangle of the long extents is looked at structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host prefix, up to the region -/

/-- Core `c`'s TensorCore buffers when the region is entered: the launch contents run through the three
    stretches of host operations that precede it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region is the three host stretches in order, then the region. -/
theorem hmain (𝒱₀ : Variants) : Pipeline.HMain (Ix := Unit) (Name := ℕ) (U := UR sig nD τ) (Lvl := ℕ) cfgs 0 defs₀ 𝒱₀ m (main (F := F)) (V m) := by
  exact Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) := by
  exact StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) := by
  exact StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) := by
  exact StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) := by
  exact StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) := by
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) := by
  exact StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) := by
  exact StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) := by
  exact StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) := by
  exact StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) := by
  exact StableHlo.after_of_forall_not_mem (b := Proc.devRef .tc main_arg9) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) := by
  exact StableHlo.after_of_forall_not_mem (b := Proc.devRef .tc main_arg10) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) := by
  exact StableHlo.after_of_forall_not_mem (b := Proc.devRef .tc main_arg11) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) := by
  exact StableHlo.after_of_forall_not_mem (b := Proc.devRef .tc main_arg12) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) := by
  exact StableHlo.after_of_forall_not_mem (b := Proc.devRef .tc main_arg13) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) := by
  exact StableHlo.after_of_forall_not_mem (b := Proc.devRef .tc main_arg14) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) := by
  exact StableHlo.after_of_forall_not_mem (b := Proc.devRef .tc main_arg15) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) := by
  exact StableHlo.after_of_forall_not_mem (b := Proc.devRef .tc main_arg16) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) := by
  exact StableHlo.after_of_forall_not_mem (b := Proc.devRef .tc main_arg17) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) := by
  exact StableHlo.after_of_forall_not_mem (b := Proc.devRef .tc main_arg18) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) := by
  exact StableHlo.after_of_forall_not_mem (b := Proc.devRef .tc main_arg19) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) := by
  exact StableHlo.after_of_forall_not_mem (b := Proc.devRef .tc main_arg20) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 21: the region finds it as launched. -/
theorem V_main_arg21 (c : Dev nD) : V m c main_arg21 = m ((c : Thread nD τ).loc main_arg21) := by
  exact StableHlo.after_of_forall_not_mem (b := Proc.devRef .tc main_arg21) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 22: the region finds it as launched. -/
theorem V_main_arg22 (c : Dev nD) : V m c main_arg22 = m ((c : Thread nD τ).loc main_arg22) := by
  exact StableHlo.after_of_forall_not_mem (b := Proc.devRef .tc main_arg22) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 23: the region finds it as launched. -/
theorem V_main_arg23 (c : Dev nD) : V m c main_arg23 = m ((c : Thread nD τ).loc main_arg23) := by
  exact StableHlo.after_of_forall_not_mem (b := Proc.devRef .tc main_arg23) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 24: the region finds it as launched. -/
theorem V_main_arg24 (c : Dev nD) : V m c main_arg24 = m ((c : Thread nD τ).loc main_arg24) := by
  exact StableHlo.after_of_forall_not_mem (b := Proc.devRef .tc main_arg24) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 25: the region finds it as launched. -/
theorem V_main_arg25 (c : Dev nD) : V m c main_arg25 = m ((c : Thread nD τ).loc main_arg25) := by
  exact StableHlo.after_of_forall_not_mem (b := Proc.devRef .tc main_arg25) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is
    not fetched its block index has not moved, so the buffer still holds the same block). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is
    not fetched its block index has not moved, so the buffer still holds the same block). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is
    not fetched its block index has not moved, so the buffer still holds the same block). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  exact (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is
    not fetched its block index has not moved, so the buffer still holds the same block). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  exact (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is
    not fetched its block index has not moved, so the buffer still holds the same block). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  exact (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is
    not fetched its block index has not moved, so the buffer still holds the same block). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  exact (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is
    not fetched its block index has not moved, so the buffer still holds the same block). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t := by
  exact (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (when it is
    not fetched its block index has not moved, so the buffer still holds the same block). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t := by
  exact (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (when it is
    not fetched its block index has not moved, so the buffer still holds the same block). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t := by
  exact (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays
    at what the data computes and every other unscoped buffer as the region found it ends with every argument
    array as launched: argument 0 is the array of input window 0, which the region only reads; the other 25
    are staged by no window; and no host operation writes any of the 26. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  exact (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩) h

/-! ## The body's accesses: every load and the store go through the whole buffer -/

abbrev r0_0 : Rect S2048x2048 := Rect.unit (s := S2048x2048) ![0, 0] S2048x2048.size inb_S2048x2048_S2048x2048_0_0
abbrev r0_1 : Rect S2048x1 := Rect.unit (s := S2048x1) ![0, 0] S2048x1.size inb_S2048x1_S2048x1_0_0
abbrev r0_2 : Rect S2048x1 := Rect.unit (s := S2048x1) ![0, 0] S2048x1.size inb_S2048x1_S2048x1_0_0
abbrev r0_3 : Rect S2048x384 := Rect.unit (s := S2048x384) ![0, 0] S2048x384.size inb_S2048x384_S2048x384_0_0
abbrev r0_4 : Rect S384 := Rect.unit (s := S384) ![0] S384.size inb_S384_S384_0
abbrev r0_5 : Rect S384x192 := Rect.unit (s := S384x192) ![0, 0] S384x192.size inb_S384x192_S384x192_0_0
abbrev r0_6 : Rect S192 := Rect.unit (s := S192) ![0] S192.size inb_S192_S192_0
abbrev r0_7 : Rect S192x4 := Rect.unit (s := S192x4) ![0, 0] S192x4.size inb_S192x4_S192x4_0_0
abbrev r0_8 : Rect S4 := Rect.unit (s := S4) ![0] S4.size inb_S4_S4_0
abbrev r0_9 : Rect S2048x1 := Rect.unit (s := S2048x1) ![0, 0] S2048x1.size inb_S2048x1_S2048x1_0_0

/-! ## What the body leaves in the output window's buffer -/

/-- The output window's buffer after the body, from the nine input blocks: one store of the whole buffer, of the
    selected and masked expert output computed from what the nine loads read. -/
def out0_9 (x0 : Vec F S2048x2048 .f32) (x1 : Vec F S2048x1 .i32) (x2 : Vec F S2048x1 .f32) (x3 : Vec F S2048x384 .bf16) (x4 : Vec F S384 .f32) (x5 : Vec F S384x192 .bf16) (x6 : Vec F S192 .f32) (x7 : Vec F S192x4 .bf16) (x8 : Vec F S4 .f32) : Vec F S2048x1 .f32 :=
  View.canon [⟨r0_9, k0_pay1 (k0_pay2 (View.ld x2 r0_2)) (k0_pay3 (View.ld x0 r0_0) (View.ld x3 r0_3) (View.ld x4 r0_4) (View.ld x5 r0_5) (View.ld x6 r0_6) (View.ld x7 r0_7) (View.ld x8 r0_8)) (k0_pay4 (View.ld x1 r0_1))⟩]

/-- The one store is of the whole buffer, so it covers it. -/
theorem cover0_9 (p0 : Vec F S2048x1 .f32) (y : S2048x1.Idx) :
    ∃ pc ∈ ([⟨r0_9, p0⟩] : List (View.Piece (Elt F) S2048x1 .f32)), y ∈ pc.1.set := by
  exact View.cover_of_tiled [⟨r0_9, p0⟩] S2048x1.size (by rfl) y

/-! ## The body's triple -/

set_option maxHeartbeats 4000000 in
/-- The kernel body on whole staging memrefs, the nine inputs' at read contents `xW` and the output's at
    anything, runs to the continuation holding the inputs' as they were and the output's at `out0_9` of them. -/
theorem sound_kernel (c : Dev nD) (E : Set ℕ) (i : grid0.Coords) (arg1 : Memref sig .tc .vmem S2048x2048 .f32) (harg1 : arg1.IsWhole) (arg2 : Memref sig .tc .vmem S2048x1 .i32) (harg2 : arg2.IsWhole) (arg3 : Memref sig .tc .vmem S2048x1 .f32) (harg3 : arg3.IsWhole) (arg4 : Memref sig .tc .vmem S2048x384 .bf16) (harg4 : arg4.IsWhole) (arg5 : Memref sig .tc .vmem S384 .f32) (harg5 : arg5.IsWhole) (arg6 : Memref sig .tc .vmem S384x192 .bf16) (harg6 : arg6.IsWhole) (arg7 : Memref sig .tc .vmem S192 .f32) (harg7 : arg7.IsWhole) (arg8 : Memref sig .tc .vmem S192x4 .bf16) (harg8 : arg8.IsWhole) (arg9 : Memref sig .tc .vmem S4 .f32) (harg9 : arg9.IsWhole) (arg10 : Memref sig .tc .vmem S2048x1 .f32) (harg10 : arg10.IsWhole)
    (x0 : Vec F S2048x2048 .f32) (x1 : Vec F S2048x1 .i32) (x2 : Vec F S2048x1 .f32) (x3 : Vec F S2048x384 .bf16) (x4 : Vec F S384 .f32) (x5 : Vec F S384x192 .bf16) (x6 : Vec F S192 .f32) (x7 : Vec F S192x4 .bf16) (x8 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the one pipeline on core `c`: the arrays as the region finds them; after the body at
    point `t` each input's buffer at its block and the output's at `out0_9` of the input blocks; the invariant
    the scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (by projection; the fold over the host prefix is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and every final state has every array of the pipeline at what the proof data computes and every other
    unscoped buffer as the region found it. -/
theorem run_main : θ_run defs (onTc (τ := τ) (main (F := F))) (s₀ m ρ) (Pipeline.FramePost cfgs (dats m) 0 (V m)) := by
  exact Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its 26 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.Kernel.Hand

end
-- ==== Proof.FrameKI.lean ====
/- The frame of the kernel program `KernelIdeal`: its host prefix up to the one grid region, the contents of
   every array when the region is entered, each window's block at a grid point, what the body leaves in the
   output window's buffer as a function of the nine input blocks, the body's triple, the pipeline's proof
   data, and the run: every fair execution terminates and leaves the 26 argument arrays as launched. -/
import proofs.«426415_j40561671143598_2_alg».proof.Proof.Gen.KernelIdeal.Launch
import proofs.«426415_j40561671143598_2_alg».proof.Proof.Gen.KernelIdeal.Skeleton
import proofs.«426415_j40561671143598_2_alg».proof.Proof.Gen.KernelIdeal.Points
import Idealize.ShloMosaic.Lib.Pipeline.FrameBody
import Idealize.ShloMosaic.Lib.Ring
import Idealize.ShloMosaic.Lib.Tactic

-- membership in a rectangle of the long extents is looked at structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host prefix, up to the region -/

/-- Core `c`'s TensorCore buffers when the region is entered: the launch contents run through the three
    stretches of host operations that precede it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region is the three host stretches in order, then the region. -/
theorem hmain (𝒱₀ : Variants) : Pipeline.HMain (Ix := Unit) (Name := ℕ) (U := UR sig nD τ) (Lvl := ℕ) cfgs 0 defs₀ 𝒱₀ m (main (F := F)) (V m) := by
  exact Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) := by
  exact StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) := by
  exact StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) := by
  exact StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) := by
  exact StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) := by
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) := by
  exact StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) := by
  exact StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) := by
  exact StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) := by
  exact StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) := by
  exact StableHlo.after_of_forall_not_mem (b := Proc.devRef .tc main_arg9) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) := by
  exact StableHlo.after_of_forall_not_mem (b := Proc.devRef .tc main_arg10) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) := by
  exact StableHlo.after_of_forall_not_mem (b := Proc.devRef .tc main_arg11) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) := by
  exact StableHlo.after_of_forall_not_mem (b := Proc.devRef .tc main_arg12) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) := by
  exact StableHlo.after_of_forall_not_mem (b := Proc.devRef .tc main_arg13) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) := by
  exact StableHlo.after_of_forall_not_mem (b := Proc.devRef .tc main_arg14) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) := by
  exact StableHlo.after_of_forall_not_mem (b := Proc.devRef .tc main_arg15) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) := by
  exact StableHlo.after_of_forall_not_mem (b := Proc.devRef .tc main_arg16) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) := by
  exact StableHlo.after_of_forall_not_mem (b := Proc.devRef .tc main_arg17) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) := by
  exact StableHlo.after_of_forall_not_mem (b := Proc.devRef .tc main_arg18) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) := by
  exact StableHlo.after_of_forall_not_mem (b := Proc.devRef .tc main_arg19) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 20: the region finds it as launched. -/
theorem V_main_arg20 (c : Dev nD) : V m c main_arg20 = m ((c : Thread nD τ).loc main_arg20) := by
  exact StableHlo.after_of_forall_not_mem (b := Proc.devRef .tc main_arg20) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 21: the region finds it as launched. -/
theorem V_main_arg21 (c : Dev nD) : V m c main_arg21 = m ((c : Thread nD τ).loc main_arg21) := by
  exact StableHlo.after_of_forall_not_mem (b := Proc.devRef .tc main_arg21) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 22: the region finds it as launched. -/
theorem V_main_arg22 (c : Dev nD) : V m c main_arg22 = m ((c : Thread nD τ).loc main_arg22) := by
  exact StableHlo.after_of_forall_not_mem (b := Proc.devRef .tc main_arg22) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 23: the region finds it as launched. -/
theorem V_main_arg23 (c : Dev nD) : V m c main_arg23 = m ((c : Thread nD τ).loc main_arg23) := by
  exact StableHlo.after_of_forall_not_mem (b := Proc.devRef .tc main_arg23) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 24: the region finds it as launched. -/
theorem V_main_arg24 (c : Dev nD) : V m c main_arg24 = m ((c : Thread nD τ).loc main_arg24) := by
  exact StableHlo.after_of_forall_not_mem (b := Proc.devRef .tc main_arg24) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 25: the region finds it as launched. -/
theorem V_main_arg25 (c : Dev nD) : V m c main_arg25 = m ((c : Thread nD τ).loc main_arg25) := by
  exact StableHlo.after_of_forall_not_mem (b := Proc.devRef .tc main_arg25) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (when it is
    not fetched its block index has not moved, so the buffer still holds the same block). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (when it is
    not fetched its block index has not moved, so the buffer still holds the same block). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (when it is
    not fetched its block index has not moved, so the buffer still holds the same block). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  exact (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (when it is
    not fetched its block index has not moved, so the buffer still holds the same block). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  exact (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (when it is
    not fetched its block index has not moved, so the buffer still holds the same block). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t := by
  exact (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (when it is
    not fetched its block index has not moved, so the buffer still holds the same block). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t := by
  exact (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (when it is
    not fetched its block index has not moved, so the buffer still holds the same block). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t := by
  exact (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (when it is
    not fetched its block index has not moved, so the buffer still holds the same block). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t := by
  exact (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (when it is
    not fetched its block index has not moved, so the buffer still holds the same block). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t := by
  exact (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays
    at what the data computes and every other unscoped buffer as the region found it ends with every argument
    array as launched: argument 0 is the array of input window 0, which the region only reads; the other 25
    are staged by no window; and no host operation writes any of the 26. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  exact (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩) h

/-! ## The body's accesses: every load and the store go through the whole buffer -/

abbrev r0_0 : Rect S2048x2048 := Rect.unit (s := S2048x2048) ![0, 0] S2048x2048.size inb_S2048x2048_S2048x2048_0_0
abbrev r0_1 : Rect S2048x1 := Rect.unit (s := S2048x1) ![0, 0] S2048x1.size inb_S2048x1_S2048x1_0_0
abbrev r0_2 : Rect S2048x1 := Rect.unit (s := S2048x1) ![0, 0] S2048x1.size inb_S2048x1_S2048x1_0_0
abbrev r0_3 : Rect S2048x384 := Rect.unit (s := S2048x384) ![0, 0] S2048x384.size inb_S2048x384_S2048x384_0_0
abbrev r0_4 : Rect S384 := Rect.unit (s := S384) ![0] S384.size inb_S384_S384_0
abbrev r0_5 : Rect S384x192 := Rect.unit (s := S384x192) ![0, 0] S384x192.size inb_S384x192_S384x192_0_0
abbrev r0_6 : Rect S192 := Rect.unit (s := S192) ![0] S192.size inb_S192_S192_0
abbrev r0_7 : Rect S192x4 := Rect.unit (s := S192x4) ![0, 0] S192x4.size inb_S192x4_S192x4_0_0
abbrev r0_8 : Rect S4 := Rect.unit (s := S4) ![0] S4.size inb_S4_S4_0
abbrev r0_9 : Rect S2048x1 := Rect.unit (s := S2048x1) ![0, 0] S2048x1.size inb_S2048x1_S2048x1_0_0

/-! ## What the body leaves in the output window's buffer -/

/-- The output window's buffer after the body, from the nine input blocks: one store of the whole buffer, of the
    selected and masked expert output computed from what the nine loads read. -/
def out0_9 (x0 : Vec F S2048x2048 .f32) (x1 : Vec F S2048x1 .i32) (x2 : Vec F S2048x1 .f32) (x3 : Vec F S2048x384 .bf16) (x4 : Vec F S384 .f32) (x5 : Vec F S384x192 .bf16) (x6 : Vec F S192 .f32) (x7 : Vec F S192x4 .bf16) (x8 : Vec F S4 .f32) : Vec F S2048x1 .f32 :=
  View.canon [⟨r0_9, k0_pay1 (k0_pay2 (View.ld x2 r0_2)) (k0_pay3 (View.ld x0 r0_0) (View.ld x3 r0_3) (View.ld x4 r0_4) (View.ld x5 r0_5) (View.ld x6 r0_6) (View.ld x7 r0_7) (View.ld x8 r0_8)) (k0_pay4 (View.ld x1 r0_1))⟩]

/-- The one store is of the whole buffer, so it covers it. -/
theorem cover0_9 (p0 : Vec F S2048x1 .f32) (y : S2048x1.Idx) :
    ∃ pc ∈ ([⟨r0_9, p0⟩] : List (View.Piece (Elt F) S2048x1 .f32)), y ∈ pc.1.set := by
  exact View.cover_of_tiled [⟨r0_9, p0⟩] S2048x1.size (by rfl) y

/-! ## The body's triple -/

set_option maxHeartbeats 4000000 in
/-- The kernel body on whole staging memrefs, the nine inputs' at read contents `xW` and the output's at
    anything, runs to the continuation holding the inputs' as they were and the output's at `out0_9` of them. -/
theorem sound_kernel (c : Dev nD) (E : Set ℕ) (i : grid0.Coords) (arg1 : Memref sig .tc .vmem S2048x2048 .f32) (harg1 : arg1.IsWhole) (arg2 : Memref sig .tc .vmem S2048x1 .i32) (harg2 : arg2.IsWhole) (arg3 : Memref sig .tc .vmem S2048x1 .f32) (harg3 : arg3.IsWhole) (arg4 : Memref sig .tc .vmem S2048x384 .bf16) (harg4 : arg4.IsWhole) (arg5 : Memref sig .tc .vmem S384 .f32) (harg5 : arg5.IsWhole) (arg6 : Memref sig .tc .vmem S384x192 .bf16) (harg6 : arg6.IsWhole) (arg7 : Memref sig .tc .vmem S192 .f32) (harg7 : arg7.IsWhole) (arg8 : Memref sig .tc .vmem S192x4 .bf16) (harg8 : arg8.IsWhole) (arg9 : Memref sig .tc .vmem S4 .f32) (harg9 : arg9.IsWhole) (arg10 : Memref sig .tc .vmem S2048x1 .f32) (harg10 : arg10.IsWhole)
    (x0 : Vec F S2048x2048 .f32) (x1 : Vec F S2048x1 .i32) (x2 : Vec F S2048x1 .f32) (x3 : Vec F S2048x384 .bf16) (x4 : Vec F S384 .f32) (x5 : Vec F S384x192 .bf16) (x6 : Vec F S192 .f32) (x7 : Vec F S192x4 .bf16) (x8 : Vec F S4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of the one pipeline on core `c`: the arrays as the region finds them; after the body at
    point `t` each input's buffer at its block and the output's at `out0_9` of the input blocks; the invariant
    the scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

/-- The proof data's arrays are the region-entry contents (by projection; the fold over the host prefix is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' memrefs hold their blocks, so the body's triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates,
    and every final state has every array of the pipeline at what the proof data computes and every other
    unscoped buffer as the region found it. -/
theorem run_main : θ_run defs (onTc (τ := τ) (main (F := F))) (s₀ m ρ) (Pipeline.FramePost cfgs (dats m) 0 (V m)) := by
  exact Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, and its 26 argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.KernelIdeal.Hand

end
-- ==== Proof.Spec.lean ====
/-
  What the two programs compute, written once as plain mathematics over the extended reals.

  Four small three-layer decoders ("experts") act on one row `x` of 2048 features:
      expert x = relu (relu (x · W1 + b1) · W2 + b2) · W3 + b3,        relu t = max t 0,
  with hidden widths 64/32, 64/32, 128/64, 128/64.  A row's label (a signed 32-bit word) picks one of them: the result
  is the picked expert's output when the label lies in 0 … 3 and zero otherwise.

  The fused form stacks the four experts into one network: first-layer weights side by side (width 384 = 64+64+128+128),
  a block-diagonal second layer (384 × 192) and a block-diagonal third layer (192 × 4) whose off-diagonal entries are zero,
  biases concatenated.  Entry `e` of the fused network's output is expert `e`'s output, because a product with a zero
  entry vanishes on the extended reals whatever the other factor is.  The fused program then multiplies the four outputs
  by the one-hot of the clipped label, sums them, and multiplies by the validity flag.
-/
import Idealize.ShloMosaic.Lib.ValueIdx

noncomputable section

open scoped BigOperators

namespace Cert.Decoders

open Idealize.ShloMosaic Idealize.ShloMosaic.ValueIdx

/-! ## One row through the layers -/

/-- One dense layer on one row: `(h · W) j + b j`. -/
def dense {n k : ℕ} (h : Fin n → EReal) (W : Fin n → Fin k → EReal) (b : Fin k → EReal) (j : Fin k) : EReal :=
  (∑ i : Fin n, h i * W i j) + b j

/-- The rectifier. -/
def relu (t : EReal) : EReal := max t 0

/-- One expert on one row: two rectified dense layers and a last dense layer with a single output. -/
def expert {h h2 : ℕ} (x : Fin 2048 → EReal) (W1 : Fin 2048 → Fin h → EReal) (b1 : Fin h → EReal)
    (W2 : Fin h → Fin h2 → EReal) (b2 : Fin h2 → EReal) (W3 : Fin h2 → EReal) (b3 : EReal) : EReal :=
  (∑ j : Fin h2, relu (dense (fun k => relu (dense x W1 b1 k)) W2 b2 j) * W3 j) + b3

/-- The fused network on one row: three dense layers of widths 384, 192 and 4, the first two rectified. -/
def fused (x : Fin 2048 → EReal) (W1 : Fin 2048 → Fin 384 → EReal) (b1 : Fin 384 → EReal)
    (W2 : Fin 384 → Fin 192 → EReal) (b2 : Fin 192 → EReal) (W3 : Fin 192 → Fin 4 → EReal) (b3 : Fin 4 → EReal)
    (e : Fin 4) : EReal :=
  dense (fun j => relu (dense (fun k => relu (dense x W1 b1 k)) W2 b2 j)) W3 b3 e

/-! ## The fused weights from the experts' -/

/-- Four vectors of lengths 64, 64, 128, 128 laid end to end. -/
def cat384 {α : Type} (f0 f1 : Fin 64 → α) (f2 f3 : Fin 128 → α) (k : Fin 384) : α :=
  if h0 : k.val < 64 then f0 ⟨k.val, h0⟩
  else if h1 : k.val < 128 then f1 ⟨k.val - 64, by omega⟩
  else if h2 : k.val < 256 then f2 ⟨k.val - 128, by omega⟩
  else f3 ⟨k.val - 256, by omega⟩

/-- Four vectors of lengths 32, 32, 64, 64 laid end to end. -/
def cat192 {α : Type} (f0 f1 : Fin 32 → α) (f2 f3 : Fin 64 → α) (j : Fin 192) : α :=
  if h0 : j.val < 32 then f0 ⟨j.val, h0⟩
  else if h1 : j.val < 64 then f1 ⟨j.val - 32, by omega⟩
  else if h2 : j.val < 128 then f2 ⟨j.val - 64, by omega⟩
  else f3 ⟨j.val - 128, by omega⟩

/-- The first-layer weights side by side: column `k` of the 2048 × 384 matrix. -/
def W1cat (w0 w1 : Fin 2048 → Fin 64 → EReal) (w2 w3 : Fin 2048 → Fin 128 → EReal) (d : Fin 2048) (k : Fin 384) : EReal :=
  cat384 (w0 d) (w1 d) (w2 d) (w3 d) k

/-- The block-diagonal second layer (384 × 192): block `e` holds expert `e`'s matrix, every other entry is zero. -/
def W2bd (w0 w1 : Fin 64 → Fin 32 → EReal) (w2 w3 : Fin 128 → Fin 64 → EReal) (k : Fin 384) (j : Fin 192) : EReal :=
  if h : k.val < 64 ∧ j.val < 32 then w0 ⟨k.val, h.1⟩ ⟨j.val, h.2⟩
  else if h : (64 ≤ k.val ∧ k.val < 128) ∧ (32 ≤ j.val ∧ j.val < 64) then w1 ⟨k.val - 64, by omega⟩ ⟨j.val - 32, by omega⟩
  else if h : (128 ≤ k.val ∧ k.val < 256) ∧ (64 ≤ j.val ∧ j.val < 128) then w2 ⟨k.val - 128, by omega⟩ ⟨j.val - 64, by omega⟩
  else if h : 256 ≤ k.val ∧ 128 ≤ j.val then w3 ⟨k.val - 256, by omega⟩ ⟨j.val - 128, by omega⟩
  else 0

/-- The block-diagonal third layer (192 × 4): column `e` holds expert `e`'s last-layer weights on its own rows. -/
def W3bd (w0 w1 : Fin 32 → EReal) (w2 w3 : Fin 64 → EReal) (j : Fin 192) (e : Fin 4) : EReal :=
  if h : j.val < 32 ∧ e.val = 0 then w0 ⟨j.val, h.1⟩
  else if h : (32 ≤ j.val ∧ j.val < 64) ∧ e.val = 1 then w1 ⟨j.val - 32, by omega⟩
  else if h : (64 ≤ j.val ∧ j.val < 128) ∧ e.val = 2 then w2 ⟨j.val - 64, by omega⟩
  else if h : 128 ≤ j.val ∧ e.val = 3 then w3 ⟨j.val - 128, by omega⟩
  else 0

/-- The four last-layer biases as a vector of four. -/
def b3cat (c0 c1 c2 c3 : EReal) (e : Fin 4) : EReal :=
  if e.val = 0 then c0 else if e.val = 1 then c1 else if e.val = 2 then c2 else c3

/-! ## Labels -/

/-- The label clipped to 0 … 3 as signed words: `min 3 (max 0 l)`. -/
def clipWord (l : BitVec 32) : BitVec 32 := IntOp.minsi 3#32 (IntOp.maxsi 0#32 l)

/-- The validity bit: `0 ≤ l` and `l ≤ 3`, signed. -/
def validBit (l : BitVec 32) : BitVec 1 := IntOp.andi (IntOp.cmpi .sge l 0#32) (IntOp.cmpi .sle l 3#32)

/-- The clipped label as one of the four slots. -/
def slot (l : BitVec 32) : Fin 4 := ⟨(clipWord l).toNat % 4, Nat.mod_lt _ (by decide)⟩

/-- The result for one row: the picked output when the label is valid, zero otherwise. -/
def result (O : Fin 4 → EReal) (l : BitVec 32) : EReal := if validBit l = 1 then O (slot l) else 0

/-- The fused program's selection for one row: the outputs against the one-hot of the clipped label, summed, times the
    validity flag (one or zero). -/
def selectRow (O : Fin 4 → EReal) (l : BitVec 32) : EReal :=
  (∑ e : Fin 4, O e * (if BitVec.ofNat 32 e.val = clipWord l then (1 : EReal) else 0))
    * (if validBit l = 1 then (1 : EReal) else 0)

/-! ## The whole arrays -/

/-- A rank-2 array of extended reals as a matrix. -/
abbrev mat {a b : ℕ} (A : (⟨2, ![a, b]⟩ : Shape).Idx → EReal) : Fin a → Fin b → EReal := fun p q => A (ix2 p q)
/-- A rank-1 array as a vector. -/
abbrev vec {a : ℕ} (A : (⟨1, ![a]⟩ : Shape).Idx → EReal) : Fin a → EReal := fun p => A (ix1 p)
/-- An `n × 1` array as a vector. -/
abbrev col {a : ℕ} (A : (⟨2, ![a, 1]⟩ : Shape).Idx → EReal) : Fin a → EReal := fun p => A (ix2 p 0)

/-- The four experts' outputs on row `r` of `x`, from the twenty-four weight and bias arrays. -/
def experts (x : Fin 2048 → EReal)
    (a2 : (⟨2, ![2048, 64]⟩ : Shape).Idx → EReal) (a3 : (⟨1, ![64]⟩ : Shape).Idx → EReal) (a4 : (⟨2, ![64, 32]⟩ : Shape).Idx → EReal)
    (a5 : (⟨1, ![32]⟩ : Shape).Idx → EReal) (a6 : (⟨2, ![32, 1]⟩ : Shape).Idx → EReal) (a7 : (⟨1, ![1]⟩ : Shape).Idx → EReal)
    (a8 : (⟨2, ![2048, 64]⟩ : Shape).Idx → EReal) (a9 : (⟨1, ![64]⟩ : Shape).Idx → EReal) (a10 : (⟨2, ![64, 32]⟩ : Shape).Idx → EReal)
    (a11 : (⟨1, ![32]⟩ : Shape).Idx → EReal) (a12 : (⟨2, ![32, 1]⟩ : Shape).Idx → EReal) (a13 : (⟨1, ![1]⟩ : Shape).Idx → EReal)
    (a14 : (⟨2, ![2048, 128]⟩ : Shape).Idx → EReal) (a15 : (⟨1, ![128]⟩ : Shape).Idx → EReal) (a16 : (⟨2, ![128, 64]⟩ : Shape).Idx → EReal)
    (a17 : (⟨1, ![64]⟩ : Shape).Idx → EReal) (a18 : (⟨2, ![64, 1]⟩ : Shape).Idx → EReal) (a19 : (⟨1, ![1]⟩ : Shape).Idx → EReal)
    (a20 : (⟨2, ![2048, 128]⟩ : Shape).Idx → EReal) (a21 : (⟨1, ![128]⟩ : Shape).Idx → EReal) (a22 : (⟨2, ![128, 64]⟩ : Shape).Idx → EReal)
    (a23 : (⟨1, ![64]⟩ : Shape).Idx → EReal) (a24 : (⟨2, ![64, 1]⟩ : Shape).Idx → EReal) (a25 : (⟨1, ![1]⟩ : Shape).Idx → EReal)
    (e : Fin 4) : EReal :=
  if e.val = 0 then expert x (mat a2) (vec a3) (mat a4) (vec a5) (col a6) (a7 (ix1 0))
  else if e.val = 1 then expert x (mat a8) (vec a9) (mat a10) (vec a11) (col a12) (a13 (ix1 0))
  else if e.val = 2 then expert x (mat a14) (vec a15) (mat a16) (vec a17) (col a18) (a19 (ix1 0))
  else expert x (mat a20) (vec a21) (mat a22) (vec a23) (col a24) (a25 (ix1 0))

/-- THE RESULT ARRAY (65536 × 1) as one function of the twenty-six argument arrays: row `r` holds the output of the expert
    its label picks, or zero when the label is outside 0 … 3. -/
def G (a0 : (⟨2, ![65536, 2048]⟩ : Shape).Idx → EReal) (a1 : (⟨1, ![65536]⟩ : Shape).Idx → BitVec 32)
    (a2 : (⟨2, ![2048, 64]⟩ : Shape).Idx → EReal) (a3 : (⟨1, ![64]⟩ : Shape).Idx → EReal) (a4 : (⟨2, ![64, 32]⟩ : Shape).Idx → EReal)
    (a5 : (⟨1, ![32]⟩ : Shape).Idx → EReal) (a6 : (⟨2, ![32, 1]⟩ : Shape).Idx → EReal) (a7 : (⟨1, ![1]⟩ : Shape).Idx → EReal)
    (a8 : (⟨2, ![2048, 64]⟩ : Shape).Idx → EReal) (a9 : (⟨1, ![64]⟩ : Shape).Idx → EReal) (a10 : (⟨2, ![64, 32]⟩ : Shape).Idx → EReal)
    (a11 : (⟨1, ![32]⟩ : Shape).Idx → EReal) (a12 : (⟨2, ![32, 1]⟩ : Shape).Idx → EReal) (a13 : (⟨1, ![1]⟩ : Shape).Idx → EReal)
    (a14 : (⟨2, ![2048, 128]⟩ : Shape).Idx → EReal) (a15 : (⟨1, ![128]⟩ : Shape).Idx → EReal) (a16 : (⟨2, ![128, 64]⟩ : Shape).Idx → EReal)
    (a17 : (⟨1, ![64]⟩ : Shape).Idx → EReal) (a18 : (⟨2, ![64, 1]⟩ : Shape).Idx → EReal) (a19 : (⟨1, ![1]⟩ : Shape).Idx → EReal)
    (a20 : (⟨2, ![2048, 128]⟩ : Shape).Idx → EReal) (a21 : (⟨1, ![128]⟩ : Shape).Idx → EReal) (a22 : (⟨2, ![128, 64]⟩ : Shape).Idx → EReal)
    (a23 : (⟨1, ![64]⟩ : Shape).Idx → EReal) (a24 : (⟨2, ![64, 1]⟩ : Shape).Idx → EReal) (a25 : (⟨1, ![1]⟩ : Shape).Idx → EReal) :
    (⟨2, ![65536, 1]⟩ : Shape).Idx → EReal :=
  fun i => result (experts (fun d => a0 (ix2 (i 0) d)) a2 a3 a4 a5 a6 a7 a8 a9 a10 a11 a12 a13 a14 a15 a16 a17 a18 a19 a20 a21 a22 a23 a24 a25)
    (a1 (ix1 (i 0)))

end Cert.Decoders

end
-- ==== Proof.PayloadAt.lean ====
/-
  The fused network's arithmetic read at one row, over the extended reals.

  The body computes, for a block of 2048 rows at once, three dense layers (a matrix product into a zero accumulator plus a
  bias row repeated down the block), the first two followed by a maximum against zero; compares a lane counter 0 … 3 with
  each row's label to get a one-hot row; multiplies the four outputs by that one-hot, sums the four lanes, and multiplies
  by the row's validity flag.  Read at row `p` every one of these steps touches row `p` only: a matrix product's entry
  (p, k) is the sum over the contraction coordinate of the left operand's row `p` against the right operand's column `k`;
  the repeated bias row reads the bias at `k`; the format changes between the layers are the identity on extended reals.
  So the block at row `p` is the fused network of the specification on row `p` of the input, taken against the one-hot of
  the label, summed, times the flag.
-/
import proofs.«426415_j40561671143598_2_alg».proof.Proof.Gen.KernelIdeal.Skeleton
import proofs.«426415_j40561671143598_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Cert.Decoders Idealize.ShloMosaic Idealize.ShloMosaic.ValueIdx

/-! ## The three matrix products read at one entry -/

/-! ### The 2048 × 2048 by 2048 × 384 product -/

theorem lhs1_0 (i : S2048x384.Idx) (q : dot_S2048x2048_S2048x384_S2048x384_1_0_0_1_n_n.contr.Idx) :
    (dot_S2048x2048_S2048x384_S2048x384_1_0_0_1_n_n.lhsIdx i q 0).val = (i 0).val := by
  unfold DotDims.lhsIdx
  rw [dif_neg (show ¬(0 : Fin S2048x2048.rank) ∈ dot_S2048x2048_S2048x384_S2048x384_1_0_0_1_n_n.lhsBatch by decide), dif_pos (show (0 : Fin S2048x2048.rank) ∈ dot_S2048x2048_S2048x384_S2048x384_1_0_0_1_n_n.lhsNonContracting by decide)]
  rfl
theorem lhs1_1 (i : S2048x384.Idx) (q : dot_S2048x2048_S2048x384_S2048x384_1_0_0_1_n_n.contr.Idx) :
    (dot_S2048x2048_S2048x384_S2048x384_1_0_0_1_n_n.lhsIdx i q 1).val = (q ⟨0, by decide⟩).val :=
  dot_S2048x2048_S2048x384_S2048x384_1_0_0_1_n_n.lhsIdx_val_of_single rfl i q
theorem rhs1_0 (i : S2048x384.Idx) (q : dot_S2048x2048_S2048x384_S2048x384_1_0_0_1_n_n.contr.Idx) :
    (dot_S2048x2048_S2048x384_S2048x384_1_0_0_1_n_n.rhsIdx i q 0).val = (q ⟨0, by decide⟩).val :=
  dot_S2048x2048_S2048x384_S2048x384_1_0_0_1_n_n.rhsIdx_val_of_single rfl i q
theorem rhs1_1 (i : S2048x384.Idx) (q : dot_S2048x2048_S2048x384_S2048x384_1_0_0_1_n_n.contr.Idx) :
    (dot_S2048x2048_S2048x384_S2048x384_1_0_0_1_n_n.rhsIdx i q 1).val = (i 1).val := by
  unfold DotDims.rhsIdx
  rw [dif_neg (show ¬(1 : Fin S2048x384.rank) ∈ dot_S2048x2048_S2048x384_S2048x384_1_0_0_1_n_n.rhsBatch by decide), dif_pos (show (1 : Fin S2048x384.rank) ∈ dot_S2048x2048_S2048x384_S2048x384_1_0_0_1_n_n.rhsNonContracting by decide)]
  rfl

/-- Entry (p, c) of the product into the zero accumulator: row `p` of the left operand against column `c` of the right. -/
theorem mm1_apply (A : FVec Ideal S2048x2048 .bf16) (B : FVec Ideal S2048x384 .bf16) (p : Fin 2048) (c : Fin 384) :
    matmul dot_S2048x2048_S2048x384_S2048x384_1_0_0_1_n_n none A B (constant (F := Ideal) S2048x384 .f32 0x00000000#32) (ix2 p c)
      = ∑ d : Fin 2048, A (ix2 p d) * B (ix2 d c) := by
  simp only [matmul]
  rw [Ideal.matmul_constant_zero_apply, ← Equiv.sum_comp (ValueIdx.contrEquiv1 dot_S2048x2048_S2048x384_S2048x384_1_0_0_1_n_n 2048 rfl rfl).symm]
  refine Finset.sum_congr rfl fun d _ => ?_
  have hd := ValueIdx.contrEquiv1_symm_val dot_S2048x2048_S2048x384_S2048x384_1_0_0_1_n_n 2048 rfl rfl d
  have el : dot_S2048x2048_S2048x384_S2048x384_1_0_0_1_n_n.lhsIdx (ix2 p c) ((ValueIdx.contrEquiv1 dot_S2048x2048_S2048x384_S2048x384_1_0_0_1_n_n 2048 rfl rfl).symm d) = ix2 p d := funext fun a => Fin.ext (by
    match a with
    | ⟨0, _⟩ => exact lhs1_0 _ _
    | ⟨1, _⟩ => exact (lhs1_1 _ _).trans hd)
  have er : dot_S2048x2048_S2048x384_S2048x384_1_0_0_1_n_n.rhsIdx (ix2 p c) ((ValueIdx.contrEquiv1 dot_S2048x2048_S2048x384_S2048x384_1_0_0_1_n_n 2048 rfl rfl).symm d) = ix2 d c := funext fun a => Fin.ext (by
    match a with
    | ⟨0, _⟩ => exact (rhs1_0 _ _).trans hd
    | ⟨1, _⟩ => exact rhs1_1 _ _)
  rw [el, er]

/-! ### The 2048 × 384 by 384 × 192 product -/

theorem lhs2_0 (i : S2048x192.Idx) (q : dot_S2048x384_S384x192_S2048x192_1_0_0_1_n_n.contr.Idx) :
    (dot_S2048x384_S384x192_S2048x192_1_0_0_1_n_n.lhsIdx i q 0).val = (i 0).val := by
  unfold DotDims.lhsIdx
  rw [dif_neg (show ¬(0 : Fin S2048x384.rank) ∈ dot_S2048x384_S384x192_S2048x192_1_0_0_1_n_n.lhsBatch by decide), dif_pos (show (0 : Fin S2048x384.rank) ∈ dot_S2048x384_S384x192_S2048x192_1_0_0_1_n_n.lhsNonContracting by decide)]
  rfl
theorem lhs2_1 (i : S2048x192.Idx) (q : dot_S2048x384_S384x192_S2048x192_1_0_0_1_n_n.contr.Idx) :
    (dot_S2048x384_S384x192_S2048x192_1_0_0_1_n_n.lhsIdx i q 1).val = (q ⟨0, by decide⟩).val :=
  dot_S2048x384_S384x192_S2048x192_1_0_0_1_n_n.lhsIdx_val_of_single rfl i q
theorem rhs2_0 (i : S2048x192.Idx) (q : dot_S2048x384_S384x192_S2048x192_1_0_0_1_n_n.contr.Idx) :
    (dot_S2048x384_S384x192_S2048x192_1_0_0_1_n_n.rhsIdx i q 0).val = (q ⟨0, by decide⟩).val :=
  dot_S2048x384_S384x192_S2048x192_1_0_0_1_n_n.rhsIdx_val_of_single rfl i q
theorem rhs2_1 (i : S2048x192.Idx) (q : dot_S2048x384_S384x192_S2048x192_1_0_0_1_n_n.contr.Idx) :
    (dot_S2048x384_S384x192_S2048x192_1_0_0_1_n_n.rhsIdx i q 1).val = (i 1).val := by
  unfold DotDims.rhsIdx
  rw [dif_neg (show ¬(1 : Fin S384x192.rank) ∈ dot_S2048x384_S384x192_S2048x192_1_0_0_1_n_n.rhsBatch by decide), dif_pos (show (1 : Fin S384x192.rank) ∈ dot_S2048x384_S384x192_S2048x192_1_0_0_1_n_n.rhsNonContracting by decide)]
  rfl

/-- Entry (p, c) of the product into the zero accumulator: row `p` of the left operand against column `c` of the right. -/
theorem mm2_apply (A : FVec Ideal S2048x384 .bf16) (B : FVec Ideal S384x192 .bf16) (p : Fin 2048) (c : Fin 192) :
    matmul dot_S2048x384_S384x192_S2048x192_1_0_0_1_n_n none A B (constant (F := Ideal) S2048x192 .f32 0x00000000#32) (ix2 p c)
      = ∑ d : Fin 384, A (ix2 p d) * B (ix2 d c) := by
  simp only [matmul]
  rw [Ideal.matmul_constant_zero_apply, ← Equiv.sum_comp (ValueIdx.contrEquiv1 dot_S2048x384_S384x192_S2048x192_1_0_0_1_n_n 384 rfl rfl).symm]
  refine Finset.sum_congr rfl fun d _ => ?_
  have hd := ValueIdx.contrEquiv1_symm_val dot_S2048x384_S384x192_S2048x192_1_0_0_1_n_n 384 rfl rfl d
  have el : dot_S2048x384_S384x192_S2048x192_1_0_0_1_n_n.lhsIdx (ix2 p c) ((ValueIdx.contrEquiv1 dot_S2048x384_S384x192_S2048x192_1_0_0_1_n_n 384 rfl rfl).symm d) = ix2 p d := funext fun a => Fin.ext (by
    match a with
    | ⟨0, _⟩ => exact lhs2_0 _ _
    | ⟨1, _⟩ => exact (lhs2_1 _ _).trans hd)
  have er : dot_S2048x384_S384x192_S2048x192_1_0_0_1_n_n.rhsIdx (ix2 p c) ((ValueIdx.contrEquiv1 dot_S2048x384_S384x192_S2048x192_1_0_0_1_n_n 384 rfl rfl).symm d) = ix2 d c := funext fun a => Fin.ext (by
    match a with
    | ⟨0, _⟩ => exact (rhs2_0 _ _).trans hd
    | ⟨1, _⟩ => exact rhs2_1 _ _)
  rw [el, er]

/-! ### The 2048 × 192 by 192 × 4 product -/

theorem lhs3_0 (i : S2048x4.Idx) (q : dot_S2048x192_S192x4_S2048x4_1_0_0_1_n_n.contr.Idx) :
    (dot_S2048x192_S192x4_S2048x4_1_0_0_1_n_n.lhsIdx i q 0).val = (i 0).val := by
  unfold DotDims.lhsIdx
  rw [dif_neg (show ¬(0 : Fin S2048x192.rank) ∈ dot_S2048x192_S192x4_S2048x4_1_0_0_1_n_n.lhsBatch by decide), dif_pos (show (0 : Fin S2048x192.rank) ∈ dot_S2048x192_S192x4_S2048x4_1_0_0_1_n_n.lhsNonContracting by decide)]
  rfl
theorem lhs3_1 (i : S2048x4.Idx) (q : dot_S2048x192_S192x4_S2048x4_1_0_0_1_n_n.contr.Idx) :
    (dot_S2048x192_S192x4_S2048x4_1_0_0_1_n_n.lhsIdx i q 1).val = (q ⟨0, by decide⟩).val :=
  dot_S2048x192_S192x4_S2048x4_1_0_0_1_n_n.lhsIdx_val_of_single rfl i q
theorem rhs3_0 (i : S2048x4.Idx) (q : dot_S2048x192_S192x4_S2048x4_1_0_0_1_n_n.contr.Idx) :
    (dot_S2048x192_S192x4_S2048x4_1_0_0_1_n_n.rhsIdx i q 0).val = (q ⟨0, by decide⟩).val :=
  dot_S2048x192_S192x4_S2048x4_1_0_0_1_n_n.rhsIdx_val_of_single rfl i q
theorem rhs3_1 (i : S2048x4.Idx) (q : dot_S2048x192_S192x4_S2048x4_1_0_0_1_n_n.contr.Idx) :
    (dot_S2048x192_S192x4_S2048x4_1_0_0_1_n_n.rhsIdx i q 1).val = (i 1).val := by
  unfold DotDims.rhsIdx
  rw [dif_neg (show ¬(1 : Fin S192x4.rank) ∈ dot_S2048x192_S192x4_S2048x4_1_0_0_1_n_n.rhsBatch by decide), dif_pos (show (1 : Fin S192x4.rank) ∈ dot_S2048x192_S192x4_S2048x4_1_0_0_1_n_n.rhsNonContracting by decide)]
  rfl

/-- Entry (p, c) of the product into the zero accumulator: row `p` of the left operand against column `c` of the right. -/
theorem mm3_apply (A : FVec Ideal S2048x192 .bf16) (B : FVec Ideal S192x4 .bf16) (p : Fin 2048) (c : Fin 4) :
    matmul dot_S2048x192_S192x4_S2048x4_1_0_0_1_n_n none A B (constant (F := Ideal) S2048x4 .f32 0x00000000#32) (ix2 p c)
      = ∑ d : Fin 192, A (ix2 p d) * B (ix2 d c) := by
  simp only [matmul]
  rw [Ideal.matmul_constant_zero_apply, ← Equiv.sum_comp (ValueIdx.contrEquiv1 dot_S2048x192_S192x4_S2048x4_1_0_0_1_n_n 192 rfl rfl).symm]
  refine Finset.sum_congr rfl fun d _ => ?_
  have hd := ValueIdx.contrEquiv1_symm_val dot_S2048x192_S192x4_S2048x4_1_0_0_1_n_n 192 rfl rfl d
  have el : dot_S2048x192_S192x4_S2048x4_1_0_0_1_n_n.lhsIdx (ix2 p c) ((ValueIdx.contrEquiv1 dot_S2048x192_S192x4_S2048x4_1_0_0_1_n_n 192 rfl rfl).symm d) = ix2 p d := funext fun a => Fin.ext (by
    match a with
    | ⟨0, _⟩ => exact lhs3_0 _ _
    | ⟨1, _⟩ => exact (lhs3_1 _ _).trans hd)
  have er : dot_S2048x192_S192x4_S2048x4_1_0_0_1_n_n.rhsIdx (ix2 p c) ((ValueIdx.contrEquiv1 dot_S2048x192_S192x4_S2048x4_1_0_0_1_n_n 192 rfl rfl).symm d) = ix2 d c := funext fun a => Fin.ext (by
    match a with
    | ⟨0, _⟩ => exact (rhs3_0 _ _).trans hd
    | ⟨1, _⟩ => exact rhs3_1 _ _)
  rw [el, er]

/-! ## Layout steps read at one entry -/

/-- A bias vector laid out as one row and repeated down a block reads, at (p, c), the bias at `c`. -/
theorem biasRow_apply {a b : ℕ} (v : (⟨1, ![b]⟩ : Shape).Idx → EReal) (h1 : (⟨1, ![b]⟩ : Shape).ShapeCasts ⟨1, ![b]⟩)
    (h2 : (⟨1, ![b]⟩ : Shape).ShapeCasts ⟨2, ![1, b]⟩) (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) h3 (ix2 p c) = v (ix1 c) := by
  rw [broadcastTo_1b_ab_apply, shapeCast_a_1a_apply, shapeCast_self]

/-- A column repeated across the lanes reads, at (p, c), the column at row `p`. -/
theorem colAcross_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` viewed as an `a × 1` column reads, at (p, 0), the vector at `p`. -/
theorem asColumn_apply {α : Type} {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- The sum over the four lanes of a 2048 × 4 block, at row `p`. -/
theorem laneSum_apply (src : FVec Ideal S2048x4 .f32) (hφ : FKind.Formats .f32)
    (hacc : (0x00000000#32 : BitVec 32) = FKind.add.neutral .f32 hφ) (p : Fin 2048) :
    multiReduction (F := Ideal) .add [1] S2048 src 0x00000000#32 reduces_S2048x4_S2048 hφ hacc (ix1 p)
      = ∑ e : Fin 4, src (ix2 p e) := by
  refine (Ideal.multiReduction_add_single src 0x00000000#32 reduces_S2048x4_S2048 hφ hacc (ix1 p)).trans ?_
  refine Finset.sum_congr rfl fun e _ => congrArg src ?_
  funext a
  apply Fin.ext
  match a with
  | ⟨0, _⟩ => rfl
  | ⟨1, _⟩ => rfl

/-- One bit widened to a word and converted to a float is one or zero. -/
theorem bit_float (b : BitVec 1) :
    (FloatOps.sitofp (F := Ideal) .f32 (b.setWidth 32) : EReal) = if b = 1#1 then (1 : EReal) else 0 := by
  rcases BitVec.eq_zero_or_eq_one b with h | h
  · subst h
    have h0 : ((0#1 : BitVec 1).setWidth 32).toInt = 0 := by decide
    show ((((0#1 : BitVec 1).setWidth 32).toInt : ℝ) : EReal) = _
    rw [h0, if_neg (by decide)]
    simp
  · subst h
    have h1 : ((1#1 : BitVec 1).setWidth 32).toInt = 1 := by decide
    show ((((1#1 : BitVec 1).setWidth 32).toInt : ℝ) : EReal) = _
    rw [h1, if_pos rfl]
    simp

/-! ## The three layers read at one entry -/

/-- Layer 1 at entry (p, c): the dense layer of the specification on row `p`, rectified. -/
theorem layer1_apply (A : FVec Ideal S2048x2048 .bf16) (W : FVec Ideal S2048x384 .bf16) (b : FVec Ideal S384 .f32) (p : Fin 2048) (c : Fin 384) :
    maximumf (addf (matmul dot_S2048x2048_S2048x384_S2048x384_1_0_0_1_n_n none A (shapeCast S2048x384 W shapeCasts_S2048x384_S2048x384) (constant (F := Ideal) S2048x384 .f32 0x00000000#32))
        (broadcastTo S2048x384 (shapeCast S1x384 (shapeCast S384 b shapeCasts_S384_S384) shapeCasts_S384_S1x384) broadcasts_S1x384_S2048x384))
      (broadcast S2048x384 (Scalar.ofBits (F := Ideal) .f32 0x00000000#32)) (ix2 p c)
      = relu (dense (fun d => A (ix2 p d)) (mat W) (vec b) c) := by
  rw [maximumf_apply, addf_apply, broadcast_apply, shapeCast_self, mm1_apply, biasRow_apply]
  show max _ (Ideal.ofBits .f32 0x00000000#32) = _
  rw [Ideal.ofBits_zero_f32]
  rfl

/-- Layer 2 at entry (p, c): the dense layer of the specification on row `p`, rectified. -/
theorem layer2_apply (A : FVec Ideal S2048x384 .bf16) (W : FVec Ideal S384x192 .bf16) (b : FVec Ideal S192 .f32) (p : Fin 2048) (c : Fin 192) :
    maximumf (addf (matmul dot_S2048x384_S384x192_S2048x192_1_0_0_1_n_n none A (shapeCast S384x192 W shapeCasts_S384x192_S384x192) (constant (F := Ideal) S2048x192 .f32 0x00000000#32))
        (broadcastTo S2048x192 (shapeCast S1x192 (shapeCast S192 b shapeCasts_S192_S192) shapeCasts_S192_S1x192) broadcasts_S1x192_S2048x192))
      (broadcast S2048x192 (Scalar.ofBits (F := Ideal) .f32 0x00000000#32)) (ix2 p c)
      = relu (dense (fun d => A (ix2 p d)) (mat W) (vec b) c) := by
  rw [maximumf_apply, addf_apply, broadcast_apply, shapeCast_self, mm2_apply, biasRow_apply]
  show max _ (Ideal.ofBits .f32 0x00000000#32) = _
  rw [Ideal.ofBits_zero_f32]
  rfl

/-- Layer 3 at entry (p, c): the dense layer of the specification on row `p`. -/
theorem layer3_apply (A : FVec Ideal S2048x192 .bf16) (W : FVec Ideal S192x4 .bf16) (b : FVec Ideal S4 .f32) (p : Fin 2048) (c : Fin 4) :
    addf (matmul dot_S2048x192_S192x4_S2048x4_1_0_0_1_n_n none A (shapeCast S192x4 W shapeCasts_S192x4_S192x4) (constant (F := Ideal) S2048x4 .f32 0x00000000#32))
        (broadcastTo S2048x4 (shapeCast S1x4 (shapeCast S4 b shapeCasts_S4_S4) shapeCasts_S4_S1x4) broadcasts_S1x4_S2048x4) (ix2 p c)
      = dense (fun d => A (ix2 p d)) (mat W) (vec b) c := by
  rw [addf_apply, shapeCast_self, mm3_apply, biasRow_apply]
  rfl

/-! ## The payloads at one row -/

/-- The three layers at entry (p, e): output `e` of the fused network on row `p`. -/
theorem pay3_apply (x0 : Vec Ideal S2048x2048 .f32) (x3 : Vec Ideal S2048x384 .bf16) (x4 : Vec Ideal S384 .f32)
    (x5 : Vec Ideal S384x192 .bf16) (x6 : Vec Ideal S192 .f32) (x7 : Vec Ideal S192x4 .bf16) (x8 : Vec Ideal S4 .f32)
    (p : Fin 2048) (e : Fin 4) :
    k0_pay3 (F := Ideal) x0 x3 x4 x5 x6 x7 x8 (ix2 p e)
      = fused (fun d => x0 (ix2 p d)) (mat x3) (vec x4) (mat x5) (vec x6) (mat x7) (vec x8) e := by
  unfold k0_pay3
  refine (layer3_apply _ x7 x8 p e).trans ?_
  unfold fused
  refine congrArg (fun h => dense h (mat x7) (vec x8) e) (funext fun j => ?_)
  refine (truncf_apply (φ := .f32) (ψ := .bf16) _ bitsLt_bf16_f32 (ix2 p j)).trans ?_
  refine (layer2_apply _ x5 x6 p j).trans ?_
  refine congrArg (fun h => relu (dense h (mat x5) (vec x6) j)) (funext fun k => ?_)
  refine (truncf_apply (φ := .f32) (ψ := .bf16) _ bitsLt_bf16_f32 (ix2 p k)).trans ?_
  refine (layer1_apply _ x3 x4 p k).trans ?_
  rfl

/-- The one-hot bit at (p, e): lane `e` against row `p`'s label. -/
theorem pay4_apply (x1 : Vec Ideal S2048x1 .i32) (p : Fin 2048) (e : Fin 4) :
    k0_pay4 (F := Ideal) x1 (ix2 p e) = IntOp.cmpi .eq (BitVec.ofNat 32 e.val) (x1 (ix2 p 0)) := by
  unfold k0_pay4
  show IntOp.cmpi .eq (iota .tc S2048x4 32 [1] iota_S2048x4_d1_w32 (ix2 p e))
      (broadcastTo S2048x4 (shapeCast S2048x1 x1 shapeCasts_S2048x1_S2048x1) broadcasts_S2048x1_S2048x4 (ix2 p e)) = _
  rw [iota_single_apply, colAcross_apply, shapeCast_self]

/-- The selection at row `p`: the outputs against the bits, summed over the lanes, times the flag. -/
theorem pay1_apply (v5 : FVec Ideal S2048x1 .f32) (v35 : FVec Ideal S2048x4 .f32) (v38 : IVec S2048x4 1) (p : Fin 2048) :
    k0_pay1 (F := Ideal) v5 v35 v38 (ix2 p 0)
      = (∑ e : Fin 4, v35 (ix2 p e) * (if v38 (ix2 p e) = 1#1 then (1 : EReal) else 0)) * v5 (ix2 p 0) := by
  unfold k0_pay1
  refine (mulf_apply _ _ _).trans ?_
  refine congrArg (· * v5 (ix2 p 0)) ?_
  refine (asColumn_apply _ _ p 0).trans ?_
  refine (laneSum_apply _ _ _ p).trans ?_
  refine Finset.sum_congr rfl fun e _ => ?_
  refine (mulf_apply _ _ _).trans ?_
  exact congrArg (v35 (ix2 p e) * ·) (bit_float (v38 (ix2 p e)))

/-- THE BODY'S ARITHMETIC AT ROW `p`: the fused network's four outputs on that row against the one-hot of its label,
    summed, times its validity flag. -/
theorem pay_apply (x0 : Vec Ideal S2048x2048 .f32) (x1 : Vec Ideal S2048x1 .i32) (x2 : Vec Ideal S2048x1 .f32)
    (x3 : Vec Ideal S2048x384 .bf16) (x4 : Vec Ideal S384 .f32) (x5 : Vec Ideal S384x192 .bf16) (x6 : Vec Ideal S192 .f32)
    (x7 : Vec Ideal S192x4 .bf16) (x8 : Vec Ideal S4 .f32) (p : Fin 2048) :
    k0_pay1 (F := Ideal) (k0_pay2 x2) (k0_pay3 x0 x3 x4 x5 x6 x7 x8) (k0_pay4 x1) (ix2 p 0)
      = (∑ e : Fin 4, fused (fun d => x0 (ix2 p d)) (mat x3) (vec x4) (mat x5) (vec x6) (mat x7) (vec x8) e
            * (if BitVec.ofNat 32 e.val = x1 (ix2 p 0) then (1 : EReal) else 0))
          * x2 (ix2 p 0) := by
  refine (pay1_apply _ _ _ p).trans ?_
  have h2 : k0_pay2 (F := Ideal) x2 (ix2 p 0) = x2 (ix2 p 0) := by
    unfold k0_pay2
    rw [shapeCast_self]
  rw [h2]
  refine congrArg (· * x2 (ix2 p 0)) (Finset.sum_congr rfl fun e _ => ?_)
  rw [pay3_apply, pay4_apply]
  simp only [IntOp.cmpi_eq]

end Cert.KernelIdeal.PayloadAt

end
-- ==== Proof.KernelBlocks.lean ====
/-
  From the blocks to the array.  The pipeline visits 32 grid points; at point `t` it stages rows
  `2048 t … 2048 t + 2047` of the feature array, of the clipped-label column and of the validity column, and the six
  fused weight and bias arrays whole (their block index never moves); the body stores one 2048 × 1 block, which is
  written back as rows `2048 t …` of the result.  Row `p` of that block is the fused network on row `2048 t + p` of the
  features, selected by the one-hot of that row's clipped label and multiplied by its validity flag.  The 32 blocks
  tile the result array, so the array ends as ONE function of the arrays the region finds.
-/
import proofs.«426415_j40561671143598_2_alg».proof.Proof.FrameKI
import proofs.«426415_j40561671143598_2_alg».proof.Proof.PayloadAt
import proofs.«426415_j40561671143598_2_alg».proof.Proof.Spec
import Idealize.ShloMosaic.Lib.Pipeline.Value
import Idealize.ShloMosaic.Lib.ValueIdx

set_option maxRecDepth 16384

noncomputable section

open scoped BigOperators

namespace Cert.KernelIdeal.KBlocks

open Cert.KernelIdeal Cert.KernelIdeal.Gen Cert.KernelIdeal.Hand Cert.KernelIdeal.PayloadAt Cert.Decoders
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The result array as one function of the nine arrays the region stages: row `r` is the fused network on row `r` of
    the features against the one-hot of the label word of row `r`, summed over the four outputs, times the validity entry. -/
def KG (x : S65536x2048.Idx → EReal) (lab : S65536x1.Idx → BitVec 32) (val : S65536x1.Idx → EReal)
    (w1 : S2048x384.Idx → EReal) (b1 : S384.Idx → EReal) (w2 : S384x192.Idx → EReal) (b2 : S192.Idx → EReal)
    (w3 : S192x4.Idx → EReal) (b3 : S4.Idx → EReal) : S65536x1.Idx → EReal :=
  fun i => (∑ e : Fin 4, fused (fun d => x (ix2 (i 0) d)) (mat w1) (vec b1) (mat w2) (vec b2) (mat w3) (vec b3) e
      * (if BitVec.ofNat 32 e.val = lab (ix2 (i 0) 0) then (1 : EReal) else 0)) * val (ix2 (i 0) 0)

/-- One row's value: the fused network's four outputs against the one-hot of a label word, summed, times a flag. -/
def rowVal (x : Fin 2048 → EReal) (w1 : Fin 2048 → Fin 384 → EReal) (b1 : Fin 384 → EReal)
    (w2 : Fin 384 → Fin 192 → EReal) (b2 : Fin 192 → EReal) (w3 : Fin 192 → Fin 4 → EReal) (b3 : Fin 4 → EReal)
    (l : BitVec 32) (v : EReal) : EReal :=
  (∑ e : Fin 4, fused x w1 b1 w2 b2 w3 b3 e * (if BitVec.ofNat 32 e.val = l then (1 : EReal) else 0)) * v

theorem rowVal_congr {x x' : Fin 2048 → EReal} {w1 w1' : Fin 2048 → Fin 384 → EReal} {b1 b1' : Fin 384 → EReal}
    {w2 w2' : Fin 384 → Fin 192 → EReal} {b2 b2' : Fin 192 → EReal} {w3 w3' : Fin 192 → Fin 4 → EReal} {b3 b3' : Fin 4 → EReal}
    {l l' : BitVec 32} {v v' : EReal} (hx : x = x') (h1 : w1 = w1') (g1 : b1 = b1') (h2 : w2 = w2') (g2 : b2 = b2')
    (h3 : w3 = w3') (g3 : b3 = b3') (hl : l = l') (hv : v = v') :
    rowVal x w1 b1 w2 b2 w3 b3 l v = rowVal x' w1' b1' w2' b2' w3' b3' l' v' := by
  subst hx h1 g1 h2 g2 h3 g3 hl hv; rfl

/-! ## The index maps, decided over the 32 points -/

theorem idx_rows : ∀ t : Fin cfg0.N, win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_9.index t (0 : Fin 2) = t.val ∧ win0_9.index t (1 : Fin 2) = 0 :=
  (by decide +kernel : ∀ t : Fin grid0.N, _)

theorem idx_fixed : ∀ t : Fin cfg0.N, win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The blocks the body reads, as entries of the arrays -/

/-- A weight or bias window's block is the whole array: its block index is zero at every point. -/
theorem blk3 (c : Dev nD) (t : Fin cfg0.N) : (iblk m c 3 t : S2048x384.Idx → EReal) = V m c main_v1 := by
  obtain ⟨e0, e1, -⟩ := idx_fixed t
  funext y
  show V m c main_v1 (((cfg0.win 3).blk t).view.emb y) = V m c main_v1 y
  congr 1; funext a; apply Fin.ext
  match a with
  | ⟨0, _⟩ => show win0_3.index t (0 : Fin 2) * 2048 + 1 * (y 0).val = (y 0).val; omega
  | ⟨1, _⟩ => show win0_3.index t (1 : Fin 2) * 384 + 1 * (y 1).val = (y 1).val; omega

theorem blk4 (c : Dev nD) (t : Fin cfg0.N) : (iblk m c 4 t : S384.Idx → EReal) = V m c main_v2 := by
  obtain ⟨-, -, e0, -⟩ := idx_fixed t
  funext y
  show V m c main_v2 (((cfg0.win 4).blk t).view.emb y) = V m c main_v2 y
  congr 1; funext a; apply Fin.ext
  match a with
  | ⟨0, _⟩ => show win0_4.index t (0 : Fin 1) * 384 + 1 * (y 0).val = (y 0).val; omega

theorem blk5 (c : Dev nD) (t : Fin cfg0.N) : (iblk m c 5 t : S384x192.Idx → EReal) = V m c main_v23 := by
  obtain ⟨-, -, -, e0, e1, -⟩ := idx_fixed t
  funext y
  show V m c main_v23 (((cfg0.win 5).blk t).view.emb y) = V m c main_v23 y
  congr 1; funext a; apply Fin.ext
  match a with
  | ⟨0, _⟩ => show win0_5.index t (0 : Fin 2) * 384 + 1 * (y 0).val = (y 0).val; omega
  | ⟨1, _⟩ => show win0_5.index t (1 : Fin 2) * 192 + 1 * (y 1).val = (y 1).val; omega

theorem blk6 (c : Dev nD) (t : Fin cfg0.N) : (iblk m c 6 t : S192.Idx → EReal) = V m c main_v24 := by
  obtain ⟨-, -, -, -, -, e0, -⟩ := idx_fixed t
  funext y
  show V m c main_v24 (((cfg0.win 6).blk t).view.emb y) = V m c main_v24 y
  congr 1; funext a; apply Fin.ext
  match a with
  | ⟨0, _⟩ => show win0_6.index t (0 : Fin 1) * 192 + 1 * (y 0).val = (y 0).val; omega

theorem blk7 (c : Dev nD) (t : Fin cfg0.N) : (iblk m c 7 t : S192x4.Idx → EReal) = V m c main_v49 := by
  obtain ⟨-, -, -, -, -, -, e0, e1, -⟩ := idx_fixed t
  funext y
  show V m c main_v49 (((cfg0.win 7).blk t).view.emb y) = V m c main_v49 y
  congr 1; funext a; apply Fin.ext
  match a with
  | ⟨0, _⟩ => show win0_7.index t (0 : Fin 2) * 192 + 1 * (y 0).val = (y 0).val; omega
  | ⟨1, _⟩ => show win0_7.index t (1 : Fin 2) * 4 + 1 * (y 1).val = (y 1).val; omega

theorem blk8 (c : Dev nD) (t : Fin cfg0.N) : (iblk m c 8 t : S4.Idx → EReal) = V m c main_v50 := by
  obtain ⟨-, -, -, -, -, -, -, -, e0⟩ := idx_fixed t
  funext y
  show V m c main_v50 (((cfg0.win 8).blk t).view.emb y) = V m c main_v50 y
  congr 1; funext a; apply Fin.ext
  match a with
  | ⟨0, _⟩ => show win0_8.index t (0 : Fin 1) * 4 + 1 * (y 0).val = (y 0).val; omega

/-- Row `p` of the feature block at point `t` is the feature array's row under row `p` of the output block. -/
theorem blk0 (c : Dev nD) (t : Fin cfg0.N) (p : Fin 2048) (d : Fin 2048) :
    (iblk m c 0 t : S2048x2048.Idx → EReal) (ix2 p d)
      = V m c main_arg0 (ix2 ((((cfg0.win 9).blk t).view.emb (ix2 p (0 : Fin 1)) : S65536x1.Idx) 0) d) := by
  obtain ⟨e0, e1, -⟩ := idx_rows t
  show V m c main_arg0 (((cfg0.win 0).blk t).view.emb (ix2 p d)) = _
  congr 1; funext a; apply Fin.ext
  match a with
  | ⟨0, _⟩ => show win0_0.index t (0 : Fin 2) * 2048 + 1 * p.val = win0_9.index t (0 : Fin 2) * 2048 + 1 * p.val; omega
  | ⟨1, _⟩ => show win0_0.index t (1 : Fin 2) * 2048 + 1 * d.val = d.val; omega

theorem blk1 (c : Dev nD) (t : Fin cfg0.N) (p : Fin 2048) :
    (iblk m c 1 t : S2048x1.Idx → BitVec 32) (ix2 p 0)
      = V m c main_v59 (ix2 ((((cfg0.win 9).blk t).view.emb (ix2 p (0 : Fin 1)) : S65536x1.Idx) 0) 0) := by
  obtain ⟨-, -, e0, e1, -⟩ := idx_rows t
  show V m c main_v59 (((cfg0.win 1).blk t).view.emb (ix2 p 0)) = _
  congr 1; funext a; apply Fin.ext
  match a with
  | ⟨0, _⟩ => show win0_1.index t (0 : Fin 2) * 2048 + 1 * p.val = win0_9.index t (0 : Fin 2) * 2048 + 1 * p.val; omega
  | ⟨1, _⟩ => show win0_1.index t (1 : Fin 2) * 1 + 1 * 0 = 0; omega

theorem blk2 (c : Dev nD) (t : Fin cfg0.N) (p : Fin 2048) :
    (iblk m c 2 t : S2048x1.Idx → EReal) (ix2 p 0)
      = V m c main_v57 (ix2 ((((cfg0.win 9).blk t).view.emb (ix2 p (0 : Fin 1)) : S65536x1.Idx) 0) 0) := by
  obtain ⟨-, -, -, -, e0, e1, -⟩ := idx_rows t
  show V m c main_v57 (((cfg0.win 2).blk t).view.emb (ix2 p 0)) = _
  congr 1; funext a; apply Fin.ext
  match a with
  | ⟨0, _⟩ => show win0_2.index t (0 : Fin 2) * 2048 + 1 * p.val = win0_9.index t (0 : Fin 2) * 2048 + 1 * p.val; omega
  | ⟨1, _⟩ => show win0_2.index t (1 : Fin 2) * 1 + 1 * 0 = 0; omega

/-! ## What point `t` writes back -/

set_option maxHeartbeats 1000000 in
/-- WHAT POINT `t` WRITES BACK is block `t` of `KG` of the arrays as the region finds them. -/
theorem flushed9_eq (c : Dev nD) (t : Fin cfg0.N) :
    (dats m 0 c).flushed 9 t = ((cfg0.win 9).blk t).view.read (Elt Ideal)
      (KG (V m c main_arg0) (V m c main_v59) (V m c main_v57) (V m c main_v1) (V m c main_v2) (V m c main_v23)
        (V m c main_v24) (V m c main_v49) (V m c main_v50)) := by
  show (cfg0.win 9).cut (grid0.coords t) ((dats m 0 c).after 9 t) = _
  rw [after0_9]
  unfold out0_9
  rw [View.canon_unit_zero hz2]
  simp only [View.ld_unit_zero (S := S2048x2048) hz2, View.ld_unit_zero (S := S2048x1) hz2,
    View.ld_unit_zero (S := S2048x384) hz2, View.ld_unit_zero (S := S384) hz1, View.ld_unit_zero (S := S384x192) hz2,
    View.ld_unit_zero (S := S192) hz1, View.ld_unit_zero (S := S192x4) hz2, View.ld_unit_zero (S := S4) hz1]
  funext j
  obtain ⟨p, q, rfl⟩ : ∃ (p : Fin 2048) (q : Fin 1), j = ix2 p q := ⟨j 0, j 1, eq_ix2 j⟩
  obtain rfl : q = 0 := Subsingleton.elim _ _
  show k0_pay1 (F := Ideal) (k0_pay2 (iblk m c 2 t)) (k0_pay3 (iblk m c 0 t) (iblk m c 3 t) (iblk m c 4 t) (iblk m c 5 t) (iblk m c 6 t) (iblk m c 7 t) (iblk m c 8 t)) (k0_pay4 (iblk m c 1 t)) (ix2 p 0)
    = KG (V m c main_arg0) (V m c main_v59) (V m c main_v57) (V m c main_v1) (V m c main_v2) (V m c main_v23)
        (V m c main_v24) (V m c main_v49) (V m c main_v50) (((cfg0.win 9).blk t).view.emb (ix2 p 0))
  refine (pay_apply (iblk m c 0 t) (iblk m c 1 t) (iblk m c 2 t) (iblk m c 3 t) (iblk m c 4 t) (iblk m c 5 t)
    (iblk m c 6 t) (iblk m c 7 t) (iblk m c 8 t) p).trans ?_
  unfold KG
  show rowVal _ _ _ _ _ _ _ _ _ = rowVal _ _ _ _ _ _ _ _ _
  exact rowVal_congr (funext fun d => blk0 m c t p d) (congrArg (fun A => mat A) (blk3 m c t)) (congrArg (fun A => vec A) (blk4 m c t))
    (congrArg (fun A => mat A) (blk5 m c t)) (congrArg (fun A => vec A) (blk6 m c t)) (congrArg (fun A => mat A) (blk7 m c t))
    (congrArg (fun A => vec A) (blk8 m c t)) (blk1 m c t p) (blk2 m c t p)

/-! ## The blocks tile the result -/

theorem mem_blk9 (t : Fin cfg0.N) (i : S65536x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v60).slice (win0_9.rect t)).set ↔ _
  rw [View.set_slice_whole, Rect.mem_set_unit]
  exact Iff.rfl

/-- Row `r` of the result lies in the block of point `r / 2048`. -/
theorem cover9 (i : S65536x1.Idx) : ∃ t : Fin cfg0.N, (cfg0.win 9).flush t = true ∧ i ∈ ((cfg0.win 9).blk t).view.set := by
  have hi0 : (i 0).val < 65536 := (i 0).isLt
  have hi1 : (i 1).val < 1 := (i 1).isLt
  have hN : (i 0).val / 2048 < cfg0.N := by rw [show cfg0.N = 32 from N_0]; omega
  obtain ⟨-, -, -, -, -, -, e0, e1⟩ := idx_rows ⟨(i 0).val / 2048, hN⟩
  refine ⟨⟨(i 0).val / 2048, hN⟩, flush0_9 _, ?_⟩
  rw [mem_blk9]
  intro a
  match a with
  | ⟨0, _⟩ =>
    show win0_9.index ⟨(i 0).val / 2048, hN⟩ (0 : Fin 2) * 2048 ≤ (i 0).val ∧ (i 0).val < win0_9.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, hN⟩ (1 : Fin 2) * 1 ≤ (i 1).val ∧ (i 1).val < win0_9.index ⟨(i 0).val / 2048, hN⟩ (1 : Fin 2) * 1 + 1
    omega

/-- THE RESULT ARRAY after the run is `KG` of the arrays the region finds. -/
theorem final9 (c : Dev nD) : (dats m 0 c).arrAt 9 cfg0.N
    = KG (V m c main_arg0) (V m c main_v59) (V m c main_v57) (V m c main_v1) (V m c main_v2) (V m c main_v23)
        (V m c main_v24) (V m c main_v49) (V m c main_v50) :=
  (dats m 0 c).arrAt_eq_of_cover 9 _ (fun t _ => flushed9_eq m c t) cover9

end Cert.KernelIdeal.KBlocks

end
-- ==== Proof.LibConcat4.lean ====
/-
  A concatenation of FOUR pieces read at an index.

  `concatenate t a [p₀, p₁, p₂, p₃]` lays four arrays end to end along axis `a`.  Read at an index whose
  coordinate `j` on that axis falls in piece `k` — the extents of the pieces before it, summed, are `pre`, and
  `j = pre + i` with `i` inside piece `k` — it is piece `k` at the index with `i` on the axis and the same
  coordinates elsewhere.  Stated here for the two layouts a fused weight matrix and a fused bias vector use:

  * rank 2, along the LAST axis (columns): four `R × nₖ` pieces side by side, read at `(r, j)`;
  * rank 1, along its only axis: four vectors of lengths `nₖ`, read at `j`.

  Each piece has its own lemma, with the coordinate inside the piece a free variable `i` and the one arithmetic
  hypothesis `pre + i = j`, so that a caller splits on where `j` falls and closes each case by arithmetic.
  All eight follow from the library's general "piece whose span holds the coordinate" lemma.
-/
import Idealize.ShloMosaic.Lib.Pipeline.Value
import Idealize.ShloMosaic.Lib.ValueIdx

namespace Idealize.ShloMosaic.Concat4

open Idealize.ShloMosaic Idealize.ShloMosaic.ValueIdx

variable {α : Type}

/-! ## Rank 2, along the columns -/

section Cols

variable {R n0 n1 n2 n3 N : ℕ}
  (x0 : (⟨2, ![R, n0]⟩ : Shape).Idx → α) (x1 : (⟨2, ![R, n1]⟩ : Shape).Idx → α)
  (x2 : (⟨2, ![R, n2]⟩ : Shape).Idx → α) (x3 : (⟨2, ![R, n3]⟩ : Shape).Idx → α)
  (h : Shape.Concatenates [(⟨2, ![R, n0]⟩ : Shape), ⟨2, ![R, n1]⟩, ⟨2, ![R, n2]⟩, ⟨2, ![R, n3]⟩] ⟨2, ![R, N]⟩ 1)

/-- Column `j` inside the first piece. -/
theorem cols_apply_0 (r : Fin R) (j : Fin N) (i : Fin n0) (hij : i.val = j.val) :
    concatenate ⟨2, ![R, N]⟩ 1 [⟨_, x0⟩, ⟨_, x1⟩, ⟨_, x2⟩, ⟨_, x3⟩] h (ix2 r j) = x0 (ix2 r i) := by
  refine concatenate_apply_piece (t := ⟨2, ![R, N]⟩) 1 [⟨_, x0⟩, ⟨_, x1⟩, ⟨_, x2⟩, ⟨_, x3⟩] h (ix2 r j) 0 (by show (0 : ℕ) < 4; omega) _ x0 rfl rfl 0 rfl (ix2 r i) ?_ ?_
  · intro b hb
    match b with
    | ⟨0, _⟩ => rfl
    | ⟨1, _⟩ => exact absurd rfl hb
  · show 0 + i.val = j.val
    omega

/-- Column `j` inside the second piece: `j = n0 + i`. -/
theorem cols_apply_1 (r : Fin R) (j : Fin N) (i : Fin n1) (hij : n0 + i.val = j.val) :
    concatenate ⟨2, ![R, N]⟩ 1 [⟨_, x0⟩, ⟨_, x1⟩, ⟨_, x2⟩, ⟨_, x3⟩] h (ix2 r j) = x1 (ix2 r i) := by
  refine concatenate_apply_piece (t := ⟨2, ![R, N]⟩) 1 [⟨_, x0⟩, ⟨_, x1⟩, ⟨_, x2⟩, ⟨_, x3⟩] h (ix2 r j) 1 (by show (1 : ℕ) < 4; omega) _ x1 rfl rfl (n0 + 0) rfl (ix2 r i) ?_ ?_
  · intro b hb
    match b with
    | ⟨0, _⟩ => rfl
    | ⟨1, _⟩ => exact absurd rfl hb
  · show n0 + 0 + i.val = j.val
    omega

/-- Column `j` inside the third piece: `j = n0 + n1 + i`. -/
theorem cols_apply_2 (r : Fin R) (j : Fin N) (i : Fin n2) (hij : n0 + n1 + i.val = j.val) :
    concatenate ⟨2, ![R, N]⟩ 1 [⟨_, x0⟩, ⟨_, x1⟩, ⟨_, x2⟩, ⟨_, x3⟩] h (ix2 r j) = x2 (ix2 r i) := by
  refine concatenate_apply_piece (t := ⟨2, ![R, N]⟩) 1 [⟨_, x0⟩, ⟨_, x1⟩, ⟨_, x2⟩, ⟨_, x3⟩] h (ix2 r j) 2 (by show (2 : ℕ) < 4; omega) _ x2 rfl rfl (n0 + (n1 + 0)) rfl (ix2 r i) ?_ ?_
  · intro b hb
    match b with
    | ⟨0, _⟩ => rfl
    | ⟨1, _⟩ => exact absurd rfl hb
  · show n0 + (n1 + 0) + i.val = j.val
    omega

/-- Column `j` inside the fourth piece: `j = n0 + n1 + n2 + i`. -/
theorem cols_apply_3 (r : Fin R) (j : Fin N) (i : Fin n3) (hij : n0 + n1 + n2 + i.val = j.val) :
    concatenate ⟨2, ![R, N]⟩ 1 [⟨_, x0⟩, ⟨_, x1⟩, ⟨_, x2⟩, ⟨_, x3⟩] h (ix2 r j) = x3 (ix2 r i) := by
  refine concatenate_apply_piece (t := ⟨2, ![R, N]⟩) 1 [⟨_, x0⟩, ⟨_, x1⟩, ⟨_, x2⟩, ⟨_, x3⟩] h (ix2 r j) 3 (by show (3 : ℕ) < 4; omega) _ x3 rfl rfl (n0 + (n1 + (n2 + 0))) rfl (ix2 r i) ?_ ?_
  · intro b hb
    match b with
    | ⟨0, _⟩ => rfl
    | ⟨1, _⟩ => exact absurd rfl hb
  · show n0 + (n1 + (n2 + 0)) + i.val = j.val
    omega

end Cols

/-! ## Rank 1 -/

section Vec

variable {n0 n1 n2 n3 N : ℕ}
  (x0 : (⟨1, ![n0]⟩ : Shape).Idx → α) (x1 : (⟨1, ![n1]⟩ : Shape).Idx → α)
  (x2 : (⟨1, ![n2]⟩ : Shape).Idx → α) (x3 : (⟨1, ![n3]⟩ : Shape).Idx → α)
  (h : Shape.Concatenates [(⟨1, ![n0]⟩ : Shape), ⟨1, ![n1]⟩, ⟨1, ![n2]⟩, ⟨1, ![n3]⟩] ⟨1, ![N]⟩ 0)

/-- Position `j` inside the first piece. -/
theorem vec_apply_0 (j : Fin N) (i : Fin n0) (hij : i.val = j.val) :
    concatenate ⟨1, ![N]⟩ 0 [⟨_, x0⟩, ⟨_, x1⟩, ⟨_, x2⟩, ⟨_, x3⟩] h (ix1 j) = x0 (ix1 i) := by
  refine concatenate_apply_piece (t := ⟨1, ![N]⟩) 0 [⟨_, x0⟩, ⟨_, x1⟩, ⟨_, x2⟩, ⟨_, x3⟩] h (ix1 j) 0 (by show (0 : ℕ) < 4; omega) _ x0 rfl rfl 0 rfl (ix1 i) ?_ ?_
  · intro b hb
    match b with
    | ⟨0, _⟩ => exact absurd rfl hb
  · show 0 + i.val = j.val
    omega

/-- Position `j` inside the second piece: `j = n0 + i`. -/
theorem vec_apply_1 (j : Fin N) (i : Fin n1) (hij : n0 + i.val = j.val) :
    concatenate ⟨1, ![N]⟩ 0 [⟨_, x0⟩, ⟨_, x1⟩, ⟨_, x2⟩, ⟨_, x3⟩] h (ix1 j) = x1 (ix1 i) := by
  refine concatenate_apply_piece (t := ⟨1, ![N]⟩) 0 [⟨_, x0⟩, ⟨_, x1⟩, ⟨_, x2⟩, ⟨_, x3⟩] h (ix1 j) 1 (by show (1 : ℕ) < 4; omega) _ x1 rfl rfl (n0 + 0) rfl (ix1 i) ?_ ?_
  · intro b hb
    match b with
    | ⟨0, _⟩ => exact absurd rfl hb
  · show n0 + 0 + i.val = j.val
    omega

/-- Position `j` inside the third piece: `j = n0 + n1 + i`. -/
theorem vec_apply_2 (j : Fin N) (i : Fin n2) (hij : n0 + n1 + i.val = j.val) :
    concatenate ⟨1, ![N]⟩ 0 [⟨_, x0⟩, ⟨_, x1⟩, ⟨_, x2⟩, ⟨_, x3⟩] h (ix1 j) = x2 (ix1 i) := by
  refine concatenate_apply_piece (t := ⟨1, ![N]⟩) 0 [⟨_, x0⟩, ⟨_, x1⟩, ⟨_, x2⟩, ⟨_, x3⟩] h (ix1 j) 2 (by show (2 : ℕ) < 4; omega) _ x2 rfl rfl (n0 + (n1 + 0)) rfl (ix1 i) ?_ ?_
  · intro b hb
    match b with
    | ⟨0, _⟩ => exact absurd rfl hb
  · show n0 + (n1 + 0) + i.val = j.val
    omega

/-- Position `j` inside the fourth piece: `j = n0 + n1 + n2 + i`. -/
theorem vec_apply_3 (j : Fin N) (i : Fin n3) (hij : n0 + n1 + n2 + i.val = j.val) :
    concatenate ⟨1, ![N]⟩ 0 [⟨_, x0⟩, ⟨_, x1⟩, ⟨_, x2⟩, ⟨_, x3⟩] h (ix1 j) = x3 (ix1 i) := by
  refine concatenate_apply_piece (t := ⟨1, ![N]⟩) 0 [⟨_, x0⟩, ⟨_, x1⟩, ⟨_, x2⟩, ⟨_, x3⟩] h (ix1 j) 3 (by show (3 : ℕ) < 4; omega) _ x3 rfl rfl (n0 + (n1 + (n2 + 0))) rfl (ix1 i) ?_ ?_
  · intro b hb
    match b with
    | ⟨0, _⟩ => exact absurd rfl hb
  · show n0 + (n1 + (n2 + 0)) + i.val = j.val
    omega

end Vec

end Idealize.ShloMosaic.Concat4
-- ==== Proof.HostCat.lean ====
/-
  The arrays the fused program builds on the host before its grid region, read entry by entry.

  Ahead of the region the program lays the four decoders' first-layer weight matrices side by side
  (2048 × 384 = 64 + 64 + 128 + 128 columns), concatenates their first-, second- and third-layer bias
  vectors (lengths 384, 192 and 4), clips the labels to 0 … 3 and turns "the label lies in 0 … 3" into a
  column of ones and zeros.  Each of these arrays is a short composition of layout operations applied to the
  argument arrays as launched; this file names that composition and reads it at one index:

  * a concatenation at column (or position) `k` is the piece whose span holds `k`, at `k` less the extents of the
    pieces before it — the four-way case split of `cat384` / `cat192` / `b3cat`;
  * the change of float format after the first concatenation is the identity on the extended reals;
  * a length-`n` vector reshaped to an `n × 1` column has entry `(r, 0)` equal to entry `r`;
  * a broadcast scalar constant is that constant everywhere, so the clipped label at row `r` is
    `min 3 (max 0 l)` of the label `l` of row `r`, as signed words;
  * a one-bit word read as an unsigned integer is 1 when the bit is set and 0 otherwise, so the validity
    column is the indicator of `0 ≤ l ∧ l ≤ 3`.
-/
import proofs.«426415_j40561671143598_2_alg».proof.Proof.Spec
import proofs.«426415_j40561671143598_2_alg».proof.Proof.LibConcat4
import proofs.«426415_j40561671143598_2_alg».proof.Proof.Gen.KernelIdeal.Launch
import Idealize.ShloMosaic.Lib.StableHlo.Run
import Idealize.ShloMosaic.Lib.Pipeline.Value
import Idealize.ShloMosaic.Lib.ValueIdx

-- the list of host operations is eighty long: unfolding it recurses past the default depth
set_option maxRecDepth 4096

noncomputable section

namespace Cert.KernelIdeal.HostCat

open Cert.KernelIdeal Cert.KernelIdeal.Gen Cert.Decoders Idealize.ShloMosaic Idealize.ShloMosaic.ValueIdx
open Idealize.ShloMosaic.TcCoe Idealize.SL.Sem Idealize.ShloMosaic.StableHlo

variable {F : FTy → Type} [FloatOps F]

/-- Core `c`'s TensorCore buffers when the region is entered: the launch contents run through the three
    stretches of host operations that precede it. -/
abbrev Vh (m : (ℓ : Loc nD τ sig) → Buf (Elt F) ℓ) (c : Dev nD) (b : Ref sig .tc) : Buf (Elt F) ((c : Thread nD τ).loc b) :=
  StableHlo.after (List.flatten [hostOps0, hostOps0_1, hostOps0_2]) (fun b => m (c, b)) b

variable (m : (ℓ : Loc nD τ sig) → Buf (Elt Ideal) ℓ) (c : Dev nD)

/-! ## Each array as one term over the launch contents -/

set_option maxHeartbeats 4000000 in
/-- The first-layer weights: the four matrices side by side, then the change of float format. -/
theorem v1_eq : (Vh m c main_v1 : S2048x384.Idx → EReal)
    = truncf .bf16 (concatenate S2048x384 1 [⟨S2048x64, (m ((c : Thread nD τ).loc main_arg2) : S2048x64.Idx → EReal)⟩,
        ⟨S2048x64, (m ((c : Thread nD τ).loc main_arg8) : S2048x64.Idx → EReal)⟩,
        ⟨S2048x128, (m ((c : Thread nD τ).loc main_arg14) : S2048x128.Idx → EReal)⟩,
        ⟨S2048x128, (m ((c : Thread nD τ).loc main_arg20) : S2048x128.Idx → EReal)⟩]
        concatenates_S2048x64_S2048x64_S2048x128_S2048x128_S2048x384_d1 : FVec Ideal S2048x384 .f32) bitsLt_bf16_f32 := by
  dsimp only [Vh]
  simp only [hostOps0, hostOps0_1, hostOps0_2, List.flatten_cons, List.flatten_nil, List.append_nil, List.cons_append, List.nil_append]
  after_results_simp
  rfl

set_option maxHeartbeats 4000000 in
/-- The first-layer biases end to end. -/
theorem v2_eq : (Vh m c main_v2 : S384.Idx → EReal)
    = concatenate S384 0 [⟨S64, (m ((c : Thread nD τ).loc main_arg3) : S64.Idx → EReal)⟩,
        ⟨S64, (m ((c : Thread nD τ).loc main_arg9) : S64.Idx → EReal)⟩,
        ⟨S128, (m ((c : Thread nD τ).loc main_arg15) : S128.Idx → EReal)⟩,
        ⟨S128, (m ((c : Thread nD τ).loc main_arg21) : S128.Idx → EReal)⟩]
        concatenates_S64_S64_S128_S128_S384_d0 := by
  dsimp only [Vh]
  simp only [hostOps0, hostOps0_1, hostOps0_2, List.flatten_cons, List.flatten_nil, List.append_nil, List.cons_append, List.nil_append]
  after_results_simp
  rfl

set_option maxHeartbeats 4000000 in
/-- The second-layer biases end to end. -/
theorem v24_eq : (Vh m c main_v24 : S192.Idx → EReal)
    = concatenate S192 0 [⟨S32, (m ((c : Thread nD τ).loc main_arg5) : S32.Idx → EReal)⟩,
        ⟨S32, (m ((c : Thread nD τ).loc main_arg11) : S32.Idx → EReal)⟩,
        ⟨S64, (m ((c : Thread nD τ).loc main_arg17) : S64.Idx → EReal)⟩,
        ⟨S64, (m ((c : Thread nD τ).loc main_arg23) : S64.Idx → EReal)⟩]
        concatenates_S32_S32_S64_S64_S192_d0 := by
  dsimp only [Vh]
  simp only [hostOps0, hostOps0_1, hostOps0_2, List.flatten_cons, List.flatten_nil, List.append_nil, List.cons_append, List.nil_append]
  after_results_simp
  rfl

set_option maxHeartbeats 4000000 in
/-- The four third-layer biases end to end. -/
theorem v50_eq : (Vh m c main_v50 : S4.Idx → EReal)
    = concatenate S4 0 [⟨S1, (m ((c : Thread nD τ).loc main_arg7) : S1.Idx → EReal)⟩,
        ⟨S1, (m ((c : Thread nD τ).loc main_arg13) : S1.Idx → EReal)⟩,
        ⟨S1, (m ((c : Thread nD τ).loc main_arg19) : S1.Idx → EReal)⟩,
        ⟨S1, (m ((c : Thread nD τ).loc main_arg25) : S1.Idx → EReal)⟩]
        concatenates_S1_S1_S1_S1_S4_d0 := by
  dsimp only [Vh]
  simp only [hostOps0, hostOps0_1, hostOps0_2, List.flatten_cons, List.flatten_nil, List.append_nil, List.cons_append, List.nil_append]
  after_results_simp
  rfl

set_option maxHeartbeats 4000000 in
/-- The clipped labels: the minimum with a broadcast 3 of the maximum with a broadcast 0, as a column. -/
theorem v59_eq : (Vh m c main_v59 : S65536x1.Idx → BitVec 32)
    = shapeCast S65536x1 (minsi (broadcastInDim S65536 ![] bcast_S_S65536 (constantI S_ 32 3#32))
        (maxsi (broadcastInDim S65536 ![] bcast_S_S65536 (constantI S_ 32 0#32))
          (m ((c : Thread nD τ).loc main_arg1) : S65536.Idx → BitVec 32))) shapeCasts_S65536_S65536x1 := by
  dsimp only [Vh]
  simp only [hostOps0, hostOps0_1, hostOps0_2, List.flatten_cons, List.flatten_nil, List.append_nil, List.cons_append, List.nil_append]
  after_results_simp
  rfl

set_option maxHeartbeats 4000000 in
/-- The validity flags: both comparisons against broadcast constants, their conjunction, the bit as a number, as a column. -/
theorem v57_eq : (Vh m c main_v57 : S65536x1.Idx → EReal)
    = shapeCast S65536x1 (uitofp .f32 (andi
        (cmpi .sge (m ((c : Thread nD τ).loc main_arg1) : S65536.Idx → BitVec 32) (broadcastInDim S65536 ![] bcast_S_S65536 (constantI S_ 32 0#32)))
        (cmpi .sle (m ((c : Thread nD τ).loc main_arg1) : S65536.Idx → BitVec 32) (broadcastInDim S65536 ![] bcast_S_S65536 (constantI S_ 32 3#32))))
        : FVec Ideal S65536 .f32) shapeCasts_S65536_S65536x1 := by
  dsimp only [Vh]
  simp only [hostOps0, hostOps0_1, hostOps0_2, List.flatten_cons, List.flatten_nil, List.append_nil, List.cons_append, List.nil_append]
  after_results_simp
  rfl

/-! ## Read at an index -/

/-- Entry `(d, k)` of the fused first-layer weights is column `k` of the four matrices' rows `d` laid side by side. -/
theorem v1_apply (d : Fin 2048) (k : Fin 384) :
    (Vh m c main_v1 : S2048x384.Idx → EReal) (ix2 d k)
      = W1cat (mat (m ((c : Thread nD τ).loc main_arg2) : S2048x64.Idx → EReal)) (mat (m ((c : Thread nD τ).loc main_arg8) : S2048x64.Idx → EReal))
          (mat (m ((c : Thread nD τ).loc main_arg14) : S2048x128.Idx → EReal)) (mat (m ((c : Thread nD τ).loc main_arg20) : S2048x128.Idx → EReal)) d k := by
  rw [v1_eq m c, truncf_apply]
  unfold W1cat cat384
  by_cases h0 : k.val < 64
  · rw [dif_pos h0]
    exact Concat4.cols_apply_0 _ _ _ _ _ d k ⟨k.val, h0⟩ rfl
  · rw [dif_neg h0]
    by_cases h1 : k.val < 128
    · rw [dif_pos h1]
      exact Concat4.cols_apply_1 _ _ _ _ _ d k ⟨k.val - 64, by omega⟩ (by show 64 + (k.val - 64) = k.val; omega)
    · rw [dif_neg h1]
      by_cases h2 : k.val < 256
      · rw [dif_pos h2]
        exact Concat4.cols_apply_2 _ _ _ _ _ d k ⟨k.val - 128, by omega⟩ (by show 64 + 64 + (k.val - 128) = k.val; omega)
      · rw [dif_neg h2]
        exact Concat4.cols_apply_3 _ _ _ _ _ d k ⟨k.val - 256, by omega⟩ (by show 64 + 64 + 128 + (k.val - 256) = k.val; omega)

/-- Entry `k` of the fused first-layer bias. -/
theorem v2_apply (k : Fin 384) :
    (Vh m c main_v2 : S384.Idx → EReal) (ix1 k)
      = cat384 (vec (m ((c : Thread nD τ).loc main_arg3) : S64.Idx → EReal)) (vec (m ((c : Thread nD τ).loc main_arg9) : S64.Idx → EReal))
          (vec (m ((c : Thread nD τ).loc main_arg15) : S128.Idx → EReal)) (vec (m ((c : Thread nD τ).loc main_arg21) : S128.Idx → EReal)) k := by
  rw [v2_eq m c]
  unfold cat384
  by_cases h0 : k.val < 64
  · rw [dif_pos h0]
    exact Concat4.vec_apply_0 _ _ _ _ _ k ⟨k.val, h0⟩ rfl
  · rw [dif_neg h0]
    by_cases h1 : k.val < 128
    · rw [dif_pos h1]
      exact Concat4.vec_apply_1 _ _ _ _ _ k ⟨k.val - 64, by omega⟩ (by show 64 + (k.val - 64) = k.val; omega)
    · rw [dif_neg h1]
      by_cases h2 : k.val < 256
      · rw [dif_pos h2]
        exact Concat4.vec_apply_2 _ _ _ _ _ k ⟨k.val - 128, by omega⟩ (by show 64 + 64 + (k.val - 128) = k.val; omega)
      · rw [dif_neg h2]
        exact Concat4.vec_apply_3 _ _ _ _ _ k ⟨k.val - 256, by omega⟩ (by show 64 + 64 + 128 + (k.val - 256) = k.val; omega)

/-- Entry `j` of the fused second-layer bias. -/
theorem v24_apply (j : Fin 192) :
    (Vh m c main_v24 : S192.Idx → EReal) (ix1 j)
      = cat192 (vec (m ((c : Thread nD τ).loc main_arg5) : S32.Idx → EReal)) (vec (m ((c : Thread nD τ).loc main_arg11) : S32.Idx → EReal))
          (vec (m ((c : Thread nD τ).loc main_arg17) : S64.Idx → EReal)) (vec (m ((c : Thread nD τ).loc main_arg23) : S64.Idx → EReal)) j := by
  rw [v24_eq m c]
  unfold cat192
  by_cases h0 : j.val < 32
  · rw [dif_pos h0]
    exact Concat4.vec_apply_0 _ _ _ _ _ j ⟨j.val, h0⟩ rfl
  · rw [dif_neg h0]
    by_cases h1 : j.val < 64
    · rw [dif_pos h1]
      exact Concat4.vec_apply_1 _ _ _ _ _ j ⟨j.val - 32, by omega⟩ (by show 32 + (j.val - 32) = j.val; omega)
    · rw [dif_neg h1]
      by_cases h2 : j.val < 128
      · rw [dif_pos h2]
        exact Concat4.vec_apply_2 _ _ _ _ _ j ⟨j.val - 64, by omega⟩ (by show 32 + 32 + (j.val - 64) = j.val; omega)
      · rw [dif_neg h2]
        exact Concat4.vec_apply_3 _ _ _ _ _ j ⟨j.val - 128, by omega⟩ (by show 32 + 32 + 64 + (j.val - 128) = j.val; omega)

/-- Entry `e` of the fused third-layer bias is decoder `e`'s single bias. -/
theorem v50_apply (e : Fin 4) :
    (Vh m c main_v50 : S4.Idx → EReal) (ix1 e)
      = b3cat ((m ((c : Thread nD τ).loc main_arg7) : S1.Idx → EReal) (ix1 0)) ((m ((c : Thread nD τ).loc main_arg13) : S1.Idx → EReal) (ix1 0))
          ((m ((c : Thread nD τ).loc main_arg19) : S1.Idx → EReal) (ix1 0)) ((m ((c : Thread nD τ).loc main_arg25) : S1.Idx → EReal) (ix1 0)) e := by
  rw [v50_eq m c]
  unfold b3cat
  by_cases h0 : e.val = 0
  · rw [if_pos h0]
    exact Concat4.vec_apply_0 _ _ _ _ _ e 0 (by show 0 = e.val; omega)
  · rw [if_neg h0]
    by_cases h1 : e.val = 1
    · rw [if_pos h1]
      exact Concat4.vec_apply_1 _ _ _ _ _ e 0 (by show 1 + 0 = e.val; omega)
    · rw [if_neg h1]
      by_cases h2 : e.val = 2
      · rw [if_pos h2]
        exact Concat4.vec_apply_2 _ _ _ _ _ e 0 (by show 1 + 1 + 0 = e.val; omega)
      · rw [if_neg h2]
        exact Concat4.vec_apply_3 _ _ _ _ _ e 0 (by show 1 + 1 + 1 + 0 = e.val; have := e.isLt; omega)

/-- A one-bit word read as an unsigned integer, on the extended reals: one when the bit is set, zero otherwise. -/
theorem uitofp_bit (b : BitVec 1) : (((b.toNat : ℝ) : EReal)) = if b = 1 then (1 : EReal) else 0 := by
  by_cases hb : b = 1#1
  · subst hb; simp
  · have h0 := eq_zero_of_ne_one hb
    subst h0; simp

/-- Row `r` of the clipped-label column is the label of row `r` clipped to 0 … 3. -/
theorem v59_apply (r : Fin 65536) :
    (Vh m c main_v59 : S65536x1.Idx → BitVec 32) (ix2 r 0) = clipWord ((m ((c : Thread nD τ).loc main_arg1) : S65536.Idx → BitVec 32) (ix1 r)) := by
  rw [v59_eq m c]
  rw [shapeCast_apply _ shapeCasts_S65536_S65536x1 (ix2 r 0) (ix1 r)
    (by rw [Shape.rowMajor_val_one, Shape.rowMajor_val_two]; show r.val = r.val * 1 + 0; omega)]
  rfl

/-- Row `r` of the validity column is one when the label of row `r` lies in 0 … 3 and zero otherwise. -/
theorem v57_apply (r : Fin 65536) :
    (Vh m c main_v57 : S65536x1.Idx → EReal) (ix2 r 0)
      = if validBit ((m ((c : Thread nD τ).loc main_arg1) : S65536.Idx → BitVec 32) (ix1 r)) = 1 then (1 : EReal) else 0 := by
  rw [v57_eq m c]
  rw [shapeCast_apply _ shapeCasts_S65536_S65536x1 (ix2 r 0) (ix1 r)
    (by rw [Shape.rowMajor_val_one, Shape.rowMajor_val_two]; show r.val = r.val * 1 + 0; omega)]
  exact uitofp_bit (validBit ((m ((c : Thread nD τ).loc main_arg1) : S65536.Idx → BitVec 32) (ix1 r)))

end Cert.KernelIdeal.HostCat

end
-- ==== Proof.LibScatterSet.lean ====
/-
  Reading a "set" scatter at an index.

  A scatter whose body returns the update (`fun _ b => b`) and whose updates all land inside the operand at
  pairwise distinct places is a plain overwrite: the result holds the update's element at every landing
  place and the operand's element everywhere else. The first part proves this for any dimension numbers;
  the second part computes the landing places of some block writes with one start index, over arbitrary extents.
-/
import Idealize.ShloMosaic.PureOps.ShapeOps
import Idealize.ShloMosaic.Lib.ValueIdx

namespace Idealize.ShloMosaic

section ScatterSet
variable {s si u : Shape} {w : Nat} {α : Type}

/-- One step of the overwrite: the element at the landing place `g j` of update index `j` (the `n`-th in
    row-major order) becomes the update's element, every other element stays. -/
def Host.setStep (upd : u.Idx → α) (g : u.Idx → s.Idx) (r : s.Idx → α) (n : Fin u.numel) : s.Idx → α :=
  fun i' => if i' = g (u.rowMajor.symm n) then upd (u.rowMajor.symm n) else r i'

/-- When every update index `j` lands inside the operand, at `g j`, the scatter whose body returns the update
    is the left fold of the overwrite steps over the update indices in row-major order. -/
theorem Host.scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd = (List.finRange u.numel).foldl (Host.setStep upd g) x := by
  unfold Host.scatter
  congr 1
  funext r n
  simp only [hg]
  rfl

/-- Overwrite steps whose landing places all differ from `i` leave the element at `i` alone. -/
theorem Host.foldl_setStep_of_ne (upd : u.Idx → α) (g : u.Idx → s.Idx) (i : s.Idx) :
    ∀ (L : List (Fin u.numel)) (x : s.Idx → α), (∀ n ∈ L, g (u.rowMajor.symm n) ≠ i) →
      L.foldl (Host.setStep upd g) x i = x i
  | [], _, _ => rfl
  | n :: L, x, h => by
    rw [List.foldl_cons, Host.foldl_setStep_of_ne upd g i L _ fun m hm => h m (List.mem_cons_of_mem _ hm)]
    have hn : i ≠ g (u.rowMajor.symm n) := fun e => h n List.mem_cons_self e.symm
    simp only [Host.setStep, if_neg hn]

/-- Overwrite steps over a list without repetitions, at an injective landing map: the element at the landing
    place of a listed update index is that update's element (the one step that writes there is the only one,
    so nothing after it touches the place). -/
theorem Host.foldl_setStep_of_mem (upd : u.Idx → α) (g : u.Idx → s.Idx) (hinj : Function.Injective g)
    (n₀ : Fin u.numel) :
    ∀ (L : List (Fin u.numel)) (x : s.Idx → α), L.Nodup → n₀ ∈ L →
      L.foldl (Host.setStep upd g) x (g (u.rowMajor.symm n₀)) = upd (u.rowMajor.symm n₀)
  | [], _, _, h => absurd h List.not_mem_nil
  | n :: L, x, hnd, h => by
    rw [List.foldl_cons]
    rcases List.mem_cons.1 h with rfl | hm
    · have hne : ∀ m ∈ L, g (u.rowMajor.symm m) ≠ g (u.rowMajor.symm n₀) := fun m hm e => by
        have hmn : m = n₀ := u.rowMajor.symm.injective (hinj e)
        exact (List.nodup_cons.1 hnd).1 (hmn ▸ hm)
      rw [Host.foldl_setStep_of_ne upd g _ L _ hne]
      simp only [Host.setStep, if_pos]
    · exact Host.foldl_setStep_of_mem upd g hinj n₀ L _ (List.nodup_cons.1 hnd).2 hm

variable (d : ScatterDims s si u) (x : s.Idx → α) (idx : IVec si w) (upd : u.Idx → α) (g : u.Idx → s.Idx)

/-- A scatter whose body returns the update, every update index `j` landing inside the operand at `g j` with
    `g` injective: at the landing place of `j` the result is the update's element at `j`. -/
theorem Host.scatter_set_apply_of_eq (hg : ∀ j, d.resultIdx? j idx = some (g j)) (hinj : Function.Injective g)
    (j : u.Idx) :
    Host.scatter d (fun _ b => b) x idx upd (g j) = upd j := by
  rw [Host.scatter_set_eq_foldl d x idx upd g hg]
  have := Host.foldl_setStep_of_mem upd g hinj (u.rowMajor j) (List.finRange u.numel) x (List.nodup_finRange _)
    (List.mem_finRange _)
  simpa only [Equiv.symm_apply_apply] using this

/-- The same scatter away from every landing place: the result is the operand's element. -/
theorem Host.scatter_set_apply_of_ne (hg : ∀ j, d.resultIdx? j idx = some (g j)) (i : s.Idx) (hi : ∀ j, g j ≠ i) :
    Host.scatter d (fun _ b => b) x idx upd i = x i := by
  rw [Host.scatter_set_eq_foldl d x idx upd g hg]
  exact Host.foldl_setStep_of_ne upd g i _ x fun n _ => hi _

end ScatterSet

/-! ## Block writes: one start index, a window on the trailing axes

  `x.at[i0, :, k0:k0+W].set(w)` and its relatives are scatters with ONE start index (the index array is the
  index vector itself), the leading operand axis inserted, and the update's axes the window. Each lemma below
  computes where update index `j` lands for one such set of dimension numbers, over arbitrary extents, and reads
  the scatter at an index through the two theorems above. -/

section BlockWrites
open ValueIdx

/-- The row write `x.at[i0].set(w)` of an `A×B` array: update index `j` lands at row `i0` (the start read off the
    one index word), column `j`. -/
theorem rowWrite_resultIdx {A B : ℕ}
    (wf : ScatterDims.WF ⟨2, ![A, B]⟩ ⟨1, ![1]⟩ ⟨1, ![B]⟩ [0] [0] [0] 0) (idx : IVec ⟨1, ![1]⟩ 32)
    (i0 : ℕ) (h0 : (idx (ix1 0)).toInt = i0) (hi : i0 < A) (j : (⟨1, ![B]⟩ : Shape).Idx) :
    (⟨[0], [0], [0], 0, wf⟩ : ScatterDims ⟨2, ![A, B]⟩ ⟨1, ![1]⟩ ⟨1, ![B]⟩).resultIdx? j idx
      = some (ix2 ⟨i0, hi⟩ (j 0)) := by
  have key : ∀ a, (⟨[0], [0], [0], 0, wf⟩ : ScatterDims ⟨2, ![A, B]⟩ ⟨1, ![1]⟩ ⟨1, ![B]⟩).start j idx a
        + (⟨[0], [0], [0], 0, wf⟩ : ScatterDims ⟨2, ![A, B]⟩ ⟨1, ![1]⟩ ⟨1, ![B]⟩).window j a
      = (((ix2 ⟨i0, hi⟩ (j 0) : (⟨2, ![A, B]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (0 : ℤ) + (((j 0).val : ℕ) : ℤ) = ((j 0).val : ℤ)
      rw [zero_add]
  unfold ScatterDims.resultIdx?
  rw [dif_pos fun a => by
    rw [key a]; exact ⟨Int.natCast_nonneg _, by exact_mod_cast
      ((ix2 ⟨i0, hi⟩ (j 0) : (⟨2, ![A, B]⟩ : Shape).Idx) a).isLt⟩]
  congr 1; funext a; apply Fin.ext
  simp only [key a, Int.toNat_natCast]
  rfl

/-- The row write read at an index: row `i0` holds the update, every other row the operand. -/
theorem Host.scatter_rowWrite_apply {A B : ℕ} {α : Type}
    (wf : ScatterDims.WF ⟨2, ![A, B]⟩ ⟨1, ![1]⟩ ⟨1, ![B]⟩ [0] [0] [0] 0)
    (x : (⟨2, ![A, B]⟩ : Shape).Idx → α) (idx : IVec ⟨1, ![1]⟩ 32) (upd : (⟨1, ![B]⟩ : Shape).Idx → α) (i0 : ℕ)
    (h0 : (idx (ix1 0)).toInt = i0) (hi : i0 < A) (a : Fin A) (h : Fin B) :
    Host.scatter (⟨[0], [0], [0], 0, wf⟩ : ScatterDims ⟨2, ![A, B]⟩ ⟨1, ![1]⟩ ⟨1, ![B]⟩) (fun _ b => b) x idx upd
        (ix2 a h)
      = if a.val = i0 then upd (ix1 h) else x (ix2 a h) := by
  have hg := rowWrite_resultIdx wf idx i0 h0 hi
  have hinj : Function.Injective (fun j : (⟨1, ![B]⟩ : Shape).Idx =>
      (ix2 ⟨i0, hi⟩ (j 0) : (⟨2, ![A, B]⟩ : Shape).Idx)) := by
    intro j j' e
    have e1 : j 0 = j' 0 := congrFun e 1
    funext b; match b with | ⟨0, _⟩ => exact e1
  split_ifs with hc
  · have ha : a = ⟨i0, hi⟩ := Fin.ext hc
    subst ha
    exact Host.scatter_set_apply_of_eq _ x idx upd _ hg hinj (ix1 h)
  · exact Host.scatter_set_apply_of_ne _ x idx upd _ hg _ fun j e =>
      hc (congrArg Fin.val (congrFun e 0)).symm

/-- The block write `x.at[i0, :, k0:k0+W].set(w)` of an `A×B×N` array: update index `j` lands at slab `i0`, row
    `j 0`, column `k0 + j 1` (the two starts read off the two index words; the window of `W` columns stays inside). -/
theorem colsWrite_resultIdx {A B N W : ℕ}
    (wf : ScatterDims.WF ⟨3, ![A, B, N]⟩ ⟨1, ![2]⟩ ⟨2, ![B, W]⟩ [0, 1] [0] [0, 2] 0) (idx : IVec ⟨1, ![2]⟩ 32)
    (i0 k0 : ℕ) (h0 : (idx (ix1 0)).toInt = i0) (h1 : (idx (ix1 1)).toInt = k0) (hi : i0 < A) (hk : k0 + W ≤ N)
    (j : (⟨2, ![B, W]⟩ : Shape).Idx) :
    (⟨[0, 1], [0], [0, 2], 0, wf⟩ : ScatterDims ⟨3, ![A, B, N]⟩ ⟨1, ![2]⟩ ⟨2, ![B, W]⟩).resultIdx? j idx
      = some (ix3 ⟨i0, hi⟩ (j 0) ⟨k0 + (j 1).val, by have := idx2_lt1 j; omega⟩) := by
  have key : ∀ a, (⟨[0, 1], [0], [0, 2], 0, wf⟩ : ScatterDims ⟨3, ![A, B, N]⟩ ⟨1, ![2]⟩ ⟨2, ![B, W]⟩).start j idx a
        + (⟨[0, 1], [0], [0, 2], 0, wf⟩ : ScatterDims ⟨3, ![A, B, N]⟩ ⟨1, ![2]⟩ ⟨2, ![B, W]⟩).window j a
      = (((ix3 ⟨i0, hi⟩ (j 0) ⟨k0 + (j 1).val, by have := idx2_lt1 j; omega⟩ :
          (⟨3, ![A, B, N]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (0 : ℤ) + (((j 0).val : ℕ) : ℤ) = ((j 0).val : ℤ)
      rw [zero_add]
    | ⟨2, _⟩ =>
      show (idx _).toInt + (((j 1).val : ℕ) : ℤ) = ((k0 + (j 1).val : ℕ) : ℤ)
      rw [Nat.cast_add, ← h1]
      congr 3; funext b; match b with | ⟨0, _⟩ => rfl
  unfold ScatterDims.resultIdx?
  rw [dif_pos fun a => by
    rw [key a]; exact ⟨Int.natCast_nonneg _, by exact_mod_cast
      ((ix3 ⟨i0, hi⟩ (j 0) ⟨k0 + (j 1).val, by have := idx2_lt1 j; omega⟩ : (⟨3, ![A, B, N]⟩ : Shape).Idx) a).isLt⟩]
  congr 1; funext a; apply Fin.ext
  simp only [key a, Int.toNat_natCast]
  rfl

/-- That block write read at an index: slab `i0`, columns `k0 ≤ k < k0 + W` hold the update, the rest the operand. -/
theorem Host.scatter_colsWrite_apply {A B N W : ℕ} {α : Type}
    (wf : ScatterDims.WF ⟨3, ![A, B, N]⟩ ⟨1, ![2]⟩ ⟨2, ![B, W]⟩ [0, 1] [0] [0, 2] 0)
    (x : (⟨3, ![A, B, N]⟩ : Shape).Idx → α) (idx : IVec ⟨1, ![2]⟩ 32) (upd : (⟨2, ![B, W]⟩ : Shape).Idx → α)
    (i0 k0 : ℕ) (h0 : (idx (ix1 0)).toInt = i0) (h1 : (idx (ix1 1)).toInt = k0) (hi : i0 < A) (hk : k0 + W ≤ N)
    (a : Fin A) (h : Fin B) (k : Fin N) :
    Host.scatter (⟨[0, 1], [0], [0, 2], 0, wf⟩ : ScatterDims ⟨3, ![A, B, N]⟩ ⟨1, ![2]⟩ ⟨2, ![B, W]⟩) (fun _ b => b)
        x idx upd (ix3 a h k)
      = if hc : a.val = i0 ∧ k0 ≤ k.val ∧ k.val < k0 + W then upd (ix2 h ⟨k.val - k0, by omega⟩)
        else x (ix3 a h k) := by
  have hg := colsWrite_resultIdx wf idx i0 k0 h0 h1 hi hk
  have hinj : Function.Injective (fun j : (⟨2, ![B, W]⟩ : Shape).Idx =>
      (ix3 ⟨i0, hi⟩ (j 0) ⟨k0 + (j 1).val, by have := idx2_lt1 j; omega⟩ : (⟨3, ![A, B, N]⟩ : Shape).Idx)) := by
    intro j j' e
    have e1 : j 0 = j' 0 := congrFun e 1
    have e2 : k0 + (j 1).val = k0 + (j' 1).val := congrArg Fin.val (congrFun e 2)
    rw [eq_ix2 j, eq_ix2 j', e1, Fin.ext (Nat.add_left_cancel e2)]
  split_ifs with hc
  · have hk' : (ix3 a h k : (⟨3, ![A, B, N]⟩ : Shape).Idx)
        = (fun j : (⟨2, ![B, W]⟩ : Shape).Idx =>
            (ix3 ⟨i0, hi⟩ (j 0) ⟨k0 + (j 1).val, by have := idx2_lt1 j; omega⟩ : (⟨3, ![A, B, N]⟩ : Shape).Idx))
            (ix2 h ⟨k.val - k0, by omega⟩) := by
      funext b
      match b with
      | ⟨0, _⟩ => exact Fin.ext hc.1
      | ⟨1, _⟩ => rfl
      | ⟨2, _⟩ => exact Fin.ext (show k.val = k0 + (k.val - k0) by omega)
    rw [hk']
    exact Host.scatter_set_apply_of_eq _ x idx upd _ hg hinj _
  · refine Host.scatter_set_apply_of_ne _ x idx upd _ hg _ fun j e => hc ?_
    have e0 : i0 = a.val := congrArg Fin.val (congrFun e 0)
    have e2 : k0 + (j 1).val = k.val := congrArg Fin.val (congrFun e 2)
    have := idx2_lt1 j
    omega

/-- The block write `x.at[i0, j0:j0+W, :].set(w)` of an `A×M×K` array: update index `j` lands at slab `i0`, row
    `j0 + j 0`, column `j 1` (the two starts read off the two index words; the window of `W` rows stays inside). -/
theorem rowsWrite_resultIdx {A M K W : ℕ}
    (wf : ScatterDims.WF ⟨3, ![A, M, K]⟩ ⟨1, ![2]⟩ ⟨2, ![W, K]⟩ [0, 1] [0] [0, 1] 0) (idx : IVec ⟨1, ![2]⟩ 32)
    (i0 j0 : ℕ) (h0 : (idx (ix1 0)).toInt = i0) (h1 : (idx (ix1 1)).toInt = j0) (hi : i0 < A) (hj : j0 + W ≤ M)
    (j : (⟨2, ![W, K]⟩ : Shape).Idx) :
    (⟨[0, 1], [0], [0, 1], 0, wf⟩ : ScatterDims ⟨3, ![A, M, K]⟩ ⟨1, ![2]⟩ ⟨2, ![W, K]⟩).resultIdx? j idx
      = some (ix3 ⟨i0, hi⟩ ⟨j0 + (j 0).val, by have := idx2_lt0 j; omega⟩ (j 1)) := by
  have key : ∀ a, (⟨[0, 1], [0], [0, 1], 0, wf⟩ : ScatterDims ⟨3, ![A, M, K]⟩ ⟨1, ![2]⟩ ⟨2, ![W, K]⟩).start j idx a
        + (⟨[0, 1], [0], [0, 1], 0, wf⟩ : ScatterDims ⟨3, ![A, M, K]⟩ ⟨1, ![2]⟩ ⟨2, ![W, K]⟩).window j a
      = (((ix3 ⟨i0, hi⟩ ⟨j0 + (j 0).val, by have := idx2_lt0 j; omega⟩ (j 1) :
          (⟨3, ![A, M, K]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (idx _).toInt + (((j 0).val : ℕ) : ℤ) = ((j0 + (j 0).val : ℕ) : ℤ)
      rw [Nat.cast_add, ← h1]
      congr 3; funext b; match b with | ⟨0, _⟩ => rfl
    | ⟨2, _⟩ =>
      show (0 : ℤ) + (((j 1).val : ℕ) : ℤ) = ((j 1).val : ℤ)
      rw [zero_add]
  unfold ScatterDims.resultIdx?
  rw [dif_pos fun a => by
    rw [key a]; exact ⟨Int.natCast_nonneg _, by exact_mod_cast
      ((ix3 ⟨i0, hi⟩ ⟨j0 + (j 0).val, by have := idx2_lt0 j; omega⟩ (j 1) : (⟨3, ![A, M, K]⟩ : Shape).Idx) a).isLt⟩]
  congr 1; funext a; apply Fin.ext
  simp only [key a, Int.toNat_natCast]
  rfl

/-- That block write read at an index: slab `i0`, rows `j0 ≤ m < j0 + W` hold the update, the rest the operand. -/
theorem Host.scatter_rowsWrite_apply {A M K W : ℕ} {α : Type}
    (wf : ScatterDims.WF ⟨3, ![A, M, K]⟩ ⟨1, ![2]⟩ ⟨2, ![W, K]⟩ [0, 1] [0] [0, 1] 0)
    (x : (⟨3, ![A, M, K]⟩ : Shape).Idx → α) (idx : IVec ⟨1, ![2]⟩ 32) (upd : (⟨2, ![W, K]⟩ : Shape).Idx → α)
    (i0 j0 : ℕ) (h0 : (idx (ix1 0)).toInt = i0) (h1 : (idx (ix1 1)).toInt = j0) (hi : i0 < A) (hj : j0 + W ≤ M)
    (a : Fin A) (m : Fin M) (k : Fin K) :
    Host.scatter (⟨[0, 1], [0], [0, 1], 0, wf⟩ : ScatterDims ⟨3, ![A, M, K]⟩ ⟨1, ![2]⟩ ⟨2, ![W, K]⟩) (fun _ b => b)
        x idx upd (ix3 a m k)
      = if hc : a.val = i0 ∧ j0 ≤ m.val ∧ m.val < j0 + W then upd (ix2 ⟨m.val - j0, by omega⟩ k)
        else x (ix3 a m k) := by
  have hg := rowsWrite_resultIdx wf idx i0 j0 h0 h1 hi hj
  have hinj : Function.Injective (fun j : (⟨2, ![W, K]⟩ : Shape).Idx =>
      (ix3 ⟨i0, hi⟩ ⟨j0 + (j 0).val, by have := idx2_lt0 j; omega⟩ (j 1) : (⟨3, ![A, M, K]⟩ : Shape).Idx)) := by
    intro j j' e
    have e1 : j0 + (j 0).val = j0 + (j' 0).val := congrArg Fin.val (congrFun e 1)
    have e2 : j 1 = j' 1 := congrFun e 2
    rw [eq_ix2 j, eq_ix2 j', e2, Fin.ext (Nat.add_left_cancel e1)]
  split_ifs with hc
  · have hm' : (ix3 a m k : (⟨3, ![A, M, K]⟩ : Shape).Idx)
        = (fun j : (⟨2, ![W, K]⟩ : Shape).Idx =>
            (ix3 ⟨i0, hi⟩ ⟨j0 + (j 0).val, by have := idx2_lt0 j; omega⟩ (j 1) : (⟨3, ![A, M, K]⟩ : Shape).Idx))
            (ix2 ⟨m.val - j0, by omega⟩ k) := by
      funext b
      match b with
      | ⟨0, _⟩ => exact Fin.ext hc.1
      | ⟨1, _⟩ => exact Fin.ext (show m.val = j0 + (m.val - j0) by omega)
      | ⟨2, _⟩ => rfl
    rw [hm']
    exact Host.scatter_set_apply_of_eq _ x idx upd _ hg hinj _
  · refine Host.scatter_set_apply_of_ne _ x idx upd _ hg _ fun j e => hc ?_
    have e0 : i0 = a.val := congrArg Fin.val (congrFun e 0)
    have e1 : j0 + (j 0).val = m.val := congrArg Fin.val (congrFun e 1)
    have := idx2_lt0 j
    omega

/-- The segment write `x.at[i0, j0:j0+W].set(w)` of an `A×M` array: update index `j` lands at row `i0`, column
    `j0 + j` (the two starts read off the two index words; the window of `W` columns stays inside). -/
theorem segWrite_resultIdx {A M W : ℕ}
    (wf : ScatterDims.WF ⟨2, ![A, M]⟩ ⟨1, ![2]⟩ ⟨1, ![W]⟩ [0] [0] [0, 1] 0) (idx : IVec ⟨1, ![2]⟩ 32)
    (i0 j0 : ℕ) (h0 : (idx (ix1 0)).toInt = i0) (h1 : (idx (ix1 1)).toInt = j0) (hi : i0 < A) (hj : j0 + W ≤ M)
    (j : (⟨1, ![W]⟩ : Shape).Idx) :
    (⟨[0], [0], [0, 1], 0, wf⟩ : ScatterDims ⟨2, ![A, M]⟩ ⟨1, ![2]⟩ ⟨1, ![W]⟩).resultIdx? j idx
      = some (ix2 ⟨i0, hi⟩ ⟨j0 + (j 0).val, by have : (j 0).val < W := (j 0).isLt; omega⟩) := by
  have key : ∀ a, (⟨[0], [0], [0, 1], 0, wf⟩ : ScatterDims ⟨2, ![A, M]⟩ ⟨1, ![2]⟩ ⟨1, ![W]⟩).start j idx a
        + (⟨[0], [0], [0, 1], 0, wf⟩ : ScatterDims ⟨2, ![A, M]⟩ ⟨1, ![2]⟩ ⟨1, ![W]⟩).window j a
      = (((ix2 ⟨i0, hi⟩ ⟨j0 + (j 0).val, by have : (j 0).val < W := (j 0).isLt; omega⟩ :
          (⟨2, ![A, M]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (idx _).toInt + (((j 0).val : ℕ) : ℤ) = ((j0 + (j 0).val : ℕ) : ℤ)
      rw [Nat.cast_add, ← h1]
      congr 3; funext b; match b with | ⟨0, _⟩ => rfl
  unfold ScatterDims.resultIdx?
  rw [dif_pos fun a => by
    rw [key a]; exact ⟨Int.natCast_nonneg _, by exact_mod_cast
      ((ix2 ⟨i0, hi⟩ ⟨j0 + (j 0).val, by have : (j 0).val < W := (j 0).isLt; omega⟩ :
        (⟨2, ![A, M]⟩ : Shape).Idx) a).isLt⟩]
  congr 1; funext a; apply Fin.ext
  simp only [key a, Int.toNat_natCast]

/-- That segment write read at an index: row `i0`, columns `j0 ≤ m < j0 + W` hold the update, the rest the operand. -/
theorem Host.scatter_segWrite_apply {A M W : ℕ} {α : Type}
    (wf : ScatterDims.WF ⟨2, ![A, M]⟩ ⟨1, ![2]⟩ ⟨1, ![W]⟩ [0] [0] [0, 1] 0)
    (x : (⟨2, ![A, M]⟩ : Shape).Idx → α) (idx : IVec ⟨1, ![2]⟩ 32) (upd : (⟨1, ![W]⟩ : Shape).Idx → α)
    (i0 j0 : ℕ) (h0 : (idx (ix1 0)).toInt = i0) (h1 : (idx (ix1 1)).toInt = j0) (hi : i0 < A) (hj : j0 + W ≤ M)
    (a : Fin A) (m : Fin M) :
    Host.scatter (⟨[0], [0], [0, 1], 0, wf⟩ : ScatterDims ⟨2, ![A, M]⟩ ⟨1, ![2]⟩ ⟨1, ![W]⟩) (fun _ b => b)
        x idx upd (ix2 a m)
      = if hc : a.val = i0 ∧ j0 ≤ m.val ∧ m.val < j0 + W then upd (ix1 ⟨m.val - j0, by omega⟩)
        else x (ix2 a m) := by
  have hg := segWrite_resultIdx wf idx i0 j0 h0 h1 hi hj
  have hinj : Function.Injective (fun j : (⟨1, ![W]⟩ : Shape).Idx =>
      (ix2 ⟨i0, hi⟩ ⟨j0 + (j 0).val, by have : (j 0).val < W := (j 0).isLt; omega⟩ : (⟨2, ![A, M]⟩ : Shape).Idx)) := by
    intro j j' e
    have e1 : j0 + (j 0).val = j0 + (j' 0).val := congrArg Fin.val (congrFun e 1)
    rw [eq_ix1 j, eq_ix1 j', Fin.ext (Nat.add_left_cancel e1)]
  split_ifs with hc
  · have hm' : (ix2 a m : (⟨2, ![A, M]⟩ : Shape).Idx)
        = (fun j : (⟨1, ![W]⟩ : Shape).Idx =>
            (ix2 ⟨i0, hi⟩ ⟨j0 + (j 0).val, by have : (j 0).val < W := (j 0).isLt; omega⟩ :
              (⟨2, ![A, M]⟩ : Shape).Idx))
            (ix1 ⟨m.val - j0, by omega⟩) := by
      funext b
      match b with
      | ⟨0, _⟩ => exact Fin.ext hc.1
      | ⟨1, _⟩ => exact Fin.ext (show m.val = j0 + (m.val - j0) by omega)
    rw [hm']
    exact Host.scatter_set_apply_of_eq _ x idx upd _ hg hinj _
  · refine Host.scatter_set_apply_of_ne _ x idx upd _ hg _ fun j e => hc ?_
    have e0 : i0 = a.val := congrArg Fin.val (congrFun e 0)
    have e1 : j0 + (j 0).val = m.val := congrArg Fin.val (congrFun e 1)
    have : (j 0).val < W := (j 0).isLt
    omega

end BlockWrites

end Idealize.ShloMosaic
-- ==== Proof.LibScatterWindow2.lean ====
/-
  Two window writes into a rank-2 array, read at an index.

  A scatter with ONE start index (the index array is the two-word index vector itself) whose body returns the
  update is a plain overwrite of one window of the operand. Two sets of dimension numbers are treated, over
  arbitrary extents:

  * the sub-block write `x.at[i0:i0+H, j0:j0+W].set(w)`: both operand axes are window axes, update element
    `(p, q)` lands at `(i0 + p, j0 + q)`;
  * the column-segment write `x.at[i0:i0+W, e0].set(w)`: the column axis is inserted, update element `p` lands
    at `(i0 + p, e0)`.

  For each, the landing place of every update element is computed from the dimension numbers, the landing map is
  injective, and the general overwrite theorems then read the result: inside the window the update's element,
  outside it the operand's.
-/
import proofs.«426415_j40561671143598_2_alg».proof.Proof.LibScatterSet

namespace Idealize.ShloMosaic

section Window2
open ValueIdx

/-- The block write `x.at[i0:i0+H, j0:j0+W].set(w)` of an `A×B` array: update index `(p, q)` lands at row
    `i0 + p`, column `j0 + q` (the two starts read off the two index words; the window stays inside). -/
theorem blockWrite_resultIdx {A B H W : ℕ}
    (wf : ScatterDims.WF ⟨2, ![A, B]⟩ ⟨1, ![2]⟩ ⟨2, ![H, W]⟩ [0, 1] [] [0, 1] 0) (idx : IVec ⟨1, ![2]⟩ 32)
    (i0 j0 : ℕ) (h0 : (idx (ix1 0)).toInt = i0) (h1 : (idx (ix1 1)).toInt = j0) (hi : i0 + H ≤ A) (hj : j0 + W ≤ B)
    (j : (⟨2, ![H, W]⟩ : Shape).Idx) :
    (⟨[0, 1], [], [0, 1], 0, wf⟩ : ScatterDims ⟨2, ![A, B]⟩ ⟨1, ![2]⟩ ⟨2, ![H, W]⟩).resultIdx? j idx
      = some (ix2 ⟨i0 + (j 0).val, by have : (j 0).val < H := (j 0).isLt; omega⟩
                  ⟨j0 + (j 1).val, by have : (j 1).val < W := (j 1).isLt; omega⟩) := by
  have key : ∀ a, (⟨[0, 1], [], [0, 1], 0, wf⟩ : ScatterDims ⟨2, ![A, B]⟩ ⟨1, ![2]⟩ ⟨2, ![H, W]⟩).start j idx a
        + (⟨[0, 1], [], [0, 1], 0, wf⟩ : ScatterDims ⟨2, ![A, B]⟩ ⟨1, ![2]⟩ ⟨2, ![H, W]⟩).window j a
      = (((ix2 ⟨i0 + (j 0).val, by have : (j 0).val < H := (j 0).isLt; omega⟩
                ⟨j0 + (j 1).val, by have : (j 1).val < W := (j 1).isLt; omega⟩ :
          (⟨2, ![A, B]⟩ : Shape).Idx) a).val : ℤ) := by
    intro a
    match a with
    | ⟨0, _⟩ =>
      show (idx _).toInt + (((j 0).val : ℕ) : ℤ) = ((i0 + (j 0).val : ℕ) : ℤ)
      rw [Nat.cast_add, ← h0]
      congr 3; funext b; match b with | ⟨0, _⟩ => rfl
    | ⟨1, _⟩ =>
      show (idx _).toInt + (((j 1).val : ℕ) : ℤ) = ((j0 + (j 1).val : ℕ) : ℤ)
      rw [Nat.cast_add, ← h1]
      congr 3; funext b; match b with | ⟨0, _⟩ => rfl
  unfold ScatterDims.resultIdx?
  rw [dif_pos fun a => by
    rw [key a]; exact ⟨Int.natCast_nonneg _, by exact_mod_cast
      ((ix2 ⟨i0 + (j 0).val, by have : (j 0).val < H := (j 0).isLt; omega⟩
            ⟨j0 + (j 1).val, by have : (j 1).val < W := (j 1).isLt; omega⟩ :
        (⟨2, ![A, B]⟩ : Shape).Idx) a).isLt⟩]
  congr 1; funext a; apply Fin.ext
  simp only [key a, Int.toNat_natCast]

/-- That block write read at an index: rows `i0 ≤ a < i0 + H`, columns `j0 ≤ b < j0 + W` hold the update, the
    rest the operand. -/
theorem Host.scatter_blockWrite_apply {A B H W : ℕ} {α : Type}
    (wf : ScatterDims.WF ⟨2, ![A, B]⟩ ⟨1, ![2]⟩ ⟨2, ![H, W]⟩ [0, 1] [] [0, 1] 0)
    (x : (⟨2, ![A, B]⟩ : Shape).Idx → α) (idx : IVec ⟨1, ![2]⟩ 32) (upd : (⟨2, ![H, W]⟩ : Shape).Idx → α)
    (i0 j0 : ℕ) (h0 : (idx (ix1 0)).toInt = i0) (h1 : (idx (ix1 1)).toInt = j0) (hi : i0 + H ≤ A) (hj : j0 + W ≤ B)
    (a : Fin A) (b : Fin B) :
    Host.scatter (⟨[0, 1], [], [0, 1], 0, wf⟩ : ScatterDims ⟨2, ![A, B]⟩ ⟨1, ![2]⟩ ⟨2, ![H, W]⟩) (fun _ b => b)
        x idx upd (ix2 a b)
      = if hc : (i0 ≤ a.val ∧ a.val < i0 + H) ∧ (j0 ≤ b.val ∧ b.val < j0 + W) then
          upd (ix2 ⟨a.val - i0, by omega⟩ ⟨b.val - j0, by omega⟩)
        else x (ix2 a b) := by
  have hg := blockWrite_resultIdx wf idx i0 j0 h0 h1 hi hj
  have hinj : Function.Injective (fun j : (⟨2, ![H, W]⟩ : Shape).Idx =>
      (ix2 ⟨i0 + (j 0).val, by have : (j 0).val < H := (j 0).isLt; omega⟩
           ⟨j0 + (j 1).val, by have : (j 1).val < W := (j 1).isLt; omega⟩ : (⟨2, ![A, B]⟩ : Shape).Idx)) := by
    intro j j' e
    have e0 : i0 + (j 0).val = i0 + (j' 0).val := congrArg Fin.val (congrFun e 0)
    have e1 : j0 + (j 1).val = j0 + (j' 1).val := congrArg Fin.val (congrFun e 1)
    rw [eq_ix2 j, eq_ix2 j', Fin.ext (Nat.add_left_cancel e0), Fin.ext (Nat.add_left_cancel e1)]
  split_ifs with hc
  · have hm' : (ix2 a b : (⟨2, ![A, B]⟩ : Shape).Idx)
        = (fun j : (⟨2, ![H, W]⟩ : Shape).Idx =>
            (ix2 ⟨i0 + (j 0).val, by have : (j 0).val < H := (j 0).isLt; omega⟩
                 ⟨j0 + (j 1).val, by have : (j 1).val < W := (j 1).isLt; omega⟩ : (⟨2, ![A, B]⟩ : Shape).Idx))
            (ix2 ⟨a.val - i0, by omega⟩ ⟨b.val - j0, by omega⟩) := by
      funext t
      match t with
      | ⟨0, _⟩ => exact Fin.ext (show a.val = i0 + (a.val - i0) by omega)
      | ⟨1, _⟩ => exact Fin.ext (show b.val = j0 + (b.val - j0) by omega)
    rw [hm']
    exact Host.scatter_set_apply_of_eq _ x idx upd _ hg hinj _
  · refine Host.scatter_set_apply_of_ne _ x idx upd _ hg _ fun j e => hc ?_
    have e0 : i0 + (j 0).val = a.val := congrArg Fin.val (congrFun e 0)
    have e1 : j0 + (j 1).val = b.val := congrArg Fin.val (congrFun e 1)
    have : (j 0).val < H := (j 0).isLt
    have : (j 1).val < W := (j 1).isLt
    omega

/-- The column-segment write `x.at[i0:i0+W, e0].set(w)` of an `A×B` array: update index `p` lands at row
    `i0 + p`, column `e0` (the two starts read off the two index words; the operand's column axis is inserted, the
    window of `W` rows stays inside). -/
theorem colSegWrite_resultIdx {A B W : ℕ}
    (wf : ScatterDims.WF ⟨2, ![A, B]⟩ ⟨1, ![2]⟩ ⟨1, ![W]⟩ [0] [1] [0, 1] 0) (idx : IVec ⟨1, ![2]⟩ 32)
    (i0 e0 : ℕ) (h0 : (idx (ix1 0)).toInt = i0) (h1 : (idx (ix1 1)).toInt = e0) (hi : i0 + W ≤ A) (he : e0 < B)
    (j : (⟨1, ![W]⟩ : Shape).Idx) :
    (⟨[0], [1], [0, 1], 0, wf⟩ : ScatterDims ⟨2, ![A, B]⟩ ⟨1, ![2]⟩ ⟨1, ![W]⟩).resultIdx? j idx
      = some (ix2 ⟨i0 + (j 0).val, by have : (j 0).val < W := (j 0).isLt; omega⟩ ⟨e0, he⟩) := by
  have key : ∀ a, (⟨[0], [1], [0, 1], 0, wf⟩ : ScatterDims ⟨2, ![A, B]⟩ ⟨1, ![2]⟩ ⟨1, ![W]⟩).start j idx a
        + (⟨[0], [1], [0, 1], 0, wf⟩ : ScatterDims ⟨2, ![A, B]⟩ ⟨1, ![2]⟩ ⟨1, ![W]⟩).window j a
      = (((ix2 ⟨i0 + (j 0).val, by have : (j 0).val < W := (j 0).isLt; omega⟩ ⟨e0, he⟩ :
          (⟨2, ![A, B]⟩ : Shape).Idx) a).val : ℤ) := by
    intro a
    match a with
    | ⟨0, _⟩ =>
      show (idx _).toInt + (((j 0).val : ℕ) : ℤ) = ((i0 + (j 0).val : ℕ) : ℤ)
      rw [Nat.cast_add, ← h0]
      congr 3; funext b; match b with | ⟨0, _⟩ => rfl
    | ⟨1, _⟩ =>
      show (idx _).toInt + ((0 : ℕ) : ℤ) = (e0 : ℤ)
      rw [← h1, Nat.cast_zero, add_zero]
      congr 2; funext b; match b with | ⟨0, _⟩ => rfl
  unfold ScatterDims.resultIdx?
  rw [dif_pos fun a => by
    rw [key a]; exact ⟨Int.natCast_nonneg _, by exact_mod_cast
      ((ix2 ⟨i0 + (j 0).val, by have : (j 0).val < W := (j 0).isLt; omega⟩ ⟨e0, he⟩ :
        (⟨2, ![A, B]⟩ : Shape).Idx) a).isLt⟩]
  congr 1; funext a; apply Fin.ext
  simp only [key a, Int.toNat_natCast]

/-- That column-segment write read at an index: column `e0`, rows `i0 ≤ a < i0 + W` hold the update, the rest
    the operand. -/
theorem Host.scatter_colSegWrite_apply {A B W : ℕ} {α : Type}
    (wf : ScatterDims.WF ⟨2, ![A, B]⟩ ⟨1, ![2]⟩ ⟨1, ![W]⟩ [0] [1] [0, 1] 0)
    (x : (⟨2, ![A, B]⟩ : Shape).Idx → α) (idx : IVec ⟨1, ![2]⟩ 32) (upd : (⟨1, ![W]⟩ : Shape).Idx → α)
    (i0 e0 : ℕ) (h0 : (idx (ix1 0)).toInt = i0) (h1 : (idx (ix1 1)).toInt = e0) (hi : i0 + W ≤ A) (he : e0 < B)
    (a : Fin A) (b : Fin B) :
    Host.scatter (⟨[0], [1], [0, 1], 0, wf⟩ : ScatterDims ⟨2, ![A, B]⟩ ⟨1, ![2]⟩ ⟨1, ![W]⟩) (fun _ b => b)
        x idx upd (ix2 a b)
      = if hc : (i0 ≤ a.val ∧ a.val < i0 + W) ∧ b.val = e0 then upd (ix1 ⟨a.val - i0, by omega⟩)
        else x (ix2 a b) := by
  have hg := colSegWrite_resultIdx wf idx i0 e0 h0 h1 hi he
  have hinj : Function.Injective (fun j : (⟨1, ![W]⟩ : Shape).Idx =>
      (ix2 ⟨i0 + (j 0).val, by have : (j 0).val < W := (j 0).isLt; omega⟩ ⟨e0, he⟩ : (⟨2, ![A, B]⟩ : Shape).Idx)) := by
    intro j j' e
    have e0' : i0 + (j 0).val = i0 + (j' 0).val := congrArg Fin.val (congrFun e 0)
    rw [eq_ix1 j, eq_ix1 j', Fin.ext (Nat.add_left_cancel e0')]
  split_ifs with hc
  · have hm' : (ix2 a b : (⟨2, ![A, B]⟩ : Shape).Idx)
        = (fun j : (⟨1, ![W]⟩ : Shape).Idx =>
            (ix2 ⟨i0 + (j 0).val, by have : (j 0).val < W := (j 0).isLt; omega⟩ ⟨e0, he⟩ :
              (⟨2, ![A, B]⟩ : Shape).Idx))
            (ix1 ⟨a.val - i0, by omega⟩) := by
      funext t
      match t with
      | ⟨0, _⟩ => exact Fin.ext (show a.val = i0 + (a.val - i0) by omega)
      | ⟨1, _⟩ => exact Fin.ext hc.2
    rw [hm']
    exact Host.scatter_set_apply_of_eq _ x idx upd _ hg hinj _
  · refine Host.scatter_set_apply_of_ne _ x idx upd _ hg _ fun j e => hc ?_
    have e0' : i0 + (j 0).val = a.val := congrArg Fin.val (congrFun e 0)
    have e1 : e0 = b.val := congrArg Fin.val (congrFun e 1)
    have : (j 0).val < W := (j 0).isLt
    omega

end Window2

end Idealize.ShloMosaic
-- ==== Proof.LibReshapeCol.lean ====
/-
  A column read as a vector.

  An `a × 1` array reshaped to a vector of length `a` keeps its entries in order: entry `p` of the vector is the
  entry in row `p` of the column, because both sit at row-major position `p`.
-/
import Idealize.ShloMosaic.Lib.Pipeline.Value
import Idealize.ShloMosaic.Lib.ValueIdx

namespace Idealize.ShloMosaic

open ValueIdx

/-- The reshape of an `a × 1` column to a vector of length `a`, read at `p`: the column's entry in row `p`. -/
theorem shapeCast_a1_a_apply {a : ℕ} {α : Type} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p 0) := by
  refine shapeCast_apply x h (ix1 p) (ix2 p 0) ?_
  rw [Shape.rowMajor_val_two, Shape.rowMajor_val_one]
  show p.val * 1 + 0 = p.val
  omega

end Idealize.ShloMosaic
-- ==== Proof.HostScatter.lean ====
/-
  The fused second- and third-layer weights, as the grid finds them.

  Before its grid runs, the program builds the fused network's weights from the four experts' own arrays. The
  second layer (384 × 192) starts as zeros and receives the four experts' matrices one after another, each written
  as a whole block onto the diagonal: a 64 × 32 block at (0, 0), a 64 × 32 block at (64, 32), a 128 × 64 block at
  (128, 64) and a 128 × 64 block at (256, 128). The third layer (192 × 4) starts as zeros and receives each expert's
  last-layer weight column, read as a vector, down that expert's own column: 32 entries from row 0 of column 0, 32 from
  row 32 of column 1, 64 from row 64 of column 2, 64 from row 128 of column 3. The change of number format applied to
  each piece on the way is the identity on the extended reals, and the zero literal is the extended real 0.

  Each write is an overwrite of one window at constant offsets, so an entry of the result is the written piece's entry
  when the index lies in the window and the array underneath otherwise. The writes nest with the last one outermost, and
  the four windows are pairwise disjoint: reading them off from the outside in gives the block-diagonal matrices
  `W2bd` and `W3bd` of the four experts' weights.
-/
import proofs.«426415_j40561671143598_2_alg».proof.Proof.Spec
import proofs.«426415_j40561671143598_2_alg».proof.Proof.Gen.KernelIdeal.Launch
import proofs.«426415_j40561671143598_2_alg».proof.Proof.LibScatterWindow2
import proofs.«426415_j40561671143598_2_alg».proof.Proof.LibReshapeCol
import Idealize.ShloMosaic.Lib.StableHlo.Run
import Idealize.ShloMosaic.Lib.Pipeline.Value
import Idealize.ShloMosaic.Lib.ValueLayout

set_option maxRecDepth 16384

noncomputable section

namespace Cert.KernelIdeal.HostScatter

open Cert.KernelIdeal Cert.KernelIdeal.Gen Cert.Decoders
open Idealize.ShloMosaic Idealize.ShloMosaic.ValueIdx Idealize.ShloMosaic.TcCoe Idealize.ShloMosaic.StableHlo

/-- Core `c`'s arrays once the host operations that precede the grid have run, in order, from the launch
    contents `m`. -/
abbrev Vh {F : FTy → Type} [FloatOps F] (m : (ℓ : Loc nD τ sig) → Buf (Elt F) ℓ) (c : Dev nD) (b : Ref sig .tc) :
    Buf (Elt F) ((c : Thread nD τ).loc b) :=
  StableHlo.after (List.flatten [hostOps0, hostOps0_1, hostOps0_2]) (fun b => m (c, b)) b

variable (m : (ℓ : Loc nD τ sig) → Buf (Elt Ideal) ℓ) (c : Dev nD)

/-! ## The pieces -/

/-- The launched contents of the four experts' second-layer matrices (arguments 4, 10, 16, 22) … -/
abbrev a4 : FVec Ideal S64x32 .f32 := m ((c : Thread nD τ).loc main_arg4)
abbrev a10 : FVec Ideal S64x32 .f32 := m ((c : Thread nD τ).loc main_arg10)
abbrev a16 : FVec Ideal S128x64 .f32 := m ((c : Thread nD τ).loc main_arg16)
abbrev a22 : FVec Ideal S128x64 .f32 := m ((c : Thread nD τ).loc main_arg22)
/-- … and of their last-layer weight columns (arguments 6, 12, 18, 24). -/
abbrev a6 : FVec Ideal S32x1 .f32 := m ((c : Thread nD τ).loc main_arg6)
abbrev a12 : FVec Ideal S32x1 .f32 := m ((c : Thread nD τ).loc main_arg12)
abbrev a18 : FVec Ideal S64x1 .f32 := m ((c : Thread nD τ).loc main_arg18)
abbrev a24 : FVec Ideal S64x1 .f32 := m ((c : Thread nD τ).loc main_arg24)

/-- The two-word offset array a window write is given: two constants, each made a one-word array, laid end to end. -/
abbrev idx2 (p q : BitVec 32) : IVec S2 32 :=
  concatenate S2 0 [⟨S1, broadcastInDim S1 ![] bcast_S_S1 (constantI S_ 32 p)⟩,
    ⟨S1, broadcastInDim S1 ![] bcast_S_S1 (constantI S_ 32 q)⟩] concatenates_S1_S1_S2_d0

/-- Its first word is the first constant, -/
theorem idx2_zero (p q : BitVec 32) : idx2 p q (ix1 0) = p := by
  rfl

/-- and its second word the second. -/
theorem idx2_one (p q : BitVec 32) : idx2 p q (ix1 1) = q := by
  rfl

/-- The all-zero sixteen-bit pattern is the extended real `0`. -/
theorem ofBits_zero_bf16 : Ideal.ofBits .bf16 0x0000#16 = 0 := by simp [Ideal.ofBits, Ideal.ieee]

/-- The all-zero `384 × 192` array the block writes start from, -/
abbrev zeros23 : S384x192.Idx → EReal :=
  broadcastInDim S384x192 ![] bcast_S_S384x192 (constant (F := Ideal) S_ .bf16 0x0000#16)

theorem zeros23_apply (i : S384x192.Idx) : zeros23 i = 0 := ofBits_zero_bf16

/-- and the all-zero `192 × 4` array the column writes start from. -/
abbrev zeros49 : S192x4.Idx → EReal :=
  broadcastInDim S192x4 ![] bcast_S_S192x4 (constant (F := Ideal) S_ .bf16 0x0000#16)

theorem zeros49_apply (i : S192x4.Idx) : zeros49 i = 0 := ofBits_zero_bf16

/-! ## The four records' writes read at an index -/

/-- A `64 × 32` block written into the `384 × 192` array at `(i0, j0)`. -/
theorem scatter_b64_apply {α : Type} (x : S384x192.Idx → α) (idx : IVec S2 32) (upd : S64x32.Idx → α) (i0 j0 : ℕ)
    (h0 : (idx (ix1 0)).toInt = i0) (h1 : (idx (ix1 1)).toInt = j0) (hi : i0 + 64 ≤ 384) (hj : j0 + 32 ≤ 192)
    (a : Fin 384) (b : Fin 192) :
    Host.scatter scatter_S384x192_S2_S64x32_01_n_01_0 (fun _ b => b) x idx upd (ix2 a b)
      = if hc : (i0 ≤ a.val ∧ a.val < i0 + 64) ∧ (j0 ≤ b.val ∧ b.val < j0 + 32) then
          upd (ix2 ⟨a.val - i0, by omega⟩ ⟨b.val - j0, by omega⟩)
        else x (ix2 a b) :=
  Host.scatter_blockWrite_apply (A := 384) (B := 192) (H := 64) (W := 32)
    scatter_S384x192_S2_S64x32_01_n_01_0_wf x idx upd i0 j0 h0 h1 hi hj a b

/-- A `128 × 64` block written into the `384 × 192` array at `(i0, j0)`. -/
theorem scatter_b128_apply {α : Type} (x : S384x192.Idx → α) (idx : IVec S2 32) (upd : S128x64.Idx → α) (i0 j0 : ℕ)
    (h0 : (idx (ix1 0)).toInt = i0) (h1 : (idx (ix1 1)).toInt = j0) (hi : i0 + 128 ≤ 384) (hj : j0 + 64 ≤ 192)
    (a : Fin 384) (b : Fin 192) :
    Host.scatter scatter_S384x192_S2_S128x64_01_n_01_0 (fun _ b => b) x idx upd (ix2 a b)
      = if hc : (i0 ≤ a.val ∧ a.val < i0 + 128) ∧ (j0 ≤ b.val ∧ b.val < j0 + 64) then
          upd (ix2 ⟨a.val - i0, by omega⟩ ⟨b.val - j0, by omega⟩)
        else x (ix2 a b) :=
  Host.scatter_blockWrite_apply (A := 384) (B := 192) (H := 128) (W := 64)
    scatter_S384x192_S2_S128x64_01_n_01_0_wf x idx upd i0 j0 h0 h1 hi hj a b

/-- A segment of `32` written down column `e0` of the `192 × 4` array from row `i0`. -/
theorem scatter_c32_apply {α : Type} (x : S192x4.Idx → α) (idx : IVec S2 32) (upd : S32.Idx → α) (i0 e0 : ℕ)
    (h0 : (idx (ix1 0)).toInt = i0) (h1 : (idx (ix1 1)).toInt = e0) (hi : i0 + 32 ≤ 192) (he : e0 < 4)
    (a : Fin 192) (b : Fin 4) :
    Host.scatter scatter_S192x4_S2_S32_0_1_01_0 (fun _ b => b) x idx upd (ix2 a b)
      = if hc : (i0 ≤ a.val ∧ a.val < i0 + 32) ∧ b.val = e0 then upd (ix1 ⟨a.val - i0, by omega⟩)
        else x (ix2 a b) :=
  Host.scatter_colSegWrite_apply (A := 192) (B := 4) (W := 32)
    scatter_S192x4_S2_S32_0_1_01_0_wf x idx upd i0 e0 h0 h1 hi he a b

/-- A segment of `64` written down column `e0` of the `192 × 4` array from row `i0`. -/
theorem scatter_c64_apply {α : Type} (x : S192x4.Idx → α) (idx : IVec S2 32) (upd : S64.Idx → α) (i0 e0 : ℕ)
    (h0 : (idx (ix1 0)).toInt = i0) (h1 : (idx (ix1 1)).toInt = e0) (hi : i0 + 64 ≤ 192) (he : e0 < 4)
    (a : Fin 192) (b : Fin 4) :
    Host.scatter scatter_S192x4_S2_S64_0_1_01_0 (fun _ b => b) x idx upd (ix2 a b)
      = if hc : (i0 ≤ a.val ∧ a.val < i0 + 64) ∧ b.val = e0 then upd (ix1 ⟨a.val - i0, by omega⟩)
        else x (ix2 a b) :=
  Host.scatter_colSegWrite_apply (A := 192) (B := 4) (W := 64)
    scatter_S192x4_S2_S64_0_1_01_0_wf x idx upd i0 e0 h0 h1 hi he a b

/-! ## The two arrays as nested writes -/

set_option maxHeartbeats 4000000 in  -- the whole list of operations before the grid is walked once
/-- The second-layer array the grid finds is the zero array after the four block writes, in order. -/
theorem e23 : (Vh m c main_v23 : S384x192.Idx → EReal)
    = Host.scatter scatter_S384x192_S2_S128x64_01_n_01_0 (fun _ b => b)
        (Host.scatter scatter_S384x192_S2_S128x64_01_n_01_0 (fun _ b => b)
          (Host.scatter scatter_S384x192_S2_S64x32_01_n_01_0 (fun _ b => b)
            (Host.scatter scatter_S384x192_S2_S64x32_01_n_01_0 (fun _ b => b) zeros23 (idx2 0#32 0#32)
              (truncf .bf16 (a4 m c) bitsLt_bf16_f32 : FVec Ideal S64x32 .bf16))
            (idx2 64#32 32#32)
            (truncf .bf16 (a10 m c) bitsLt_bf16_f32 : FVec Ideal S64x32 .bf16))
          (idx2 128#32 64#32)
          (truncf .bf16 (a16 m c) bitsLt_bf16_f32 : FVec Ideal S128x64 .bf16))
        (idx2 256#32 128#32)
        (truncf .bf16 (a22 m c) bitsLt_bf16_f32 : FVec Ideal S128x64 .bf16) := by
  dsimp only [Vh]
  simp only [hostOps0, hostOps0_1, hostOps0_2, List.flatten_cons, List.flatten_nil, List.append_nil, List.cons_append,
    List.nil_append]
  after_results_simp
  rfl

set_option maxHeartbeats 4000000 in  -- the whole list of operations before the grid is walked once
/-- The third-layer array the grid finds is the zero array after the four column writes, in order; each written
    segment is an expert's weight column read as a vector. -/
theorem e49 : (Vh m c main_v49 : S192x4.Idx → EReal)
    = Host.scatter scatter_S192x4_S2_S64_0_1_01_0 (fun _ b => b)
        (Host.scatter scatter_S192x4_S2_S64_0_1_01_0 (fun _ b => b)
          (Host.scatter scatter_S192x4_S2_S32_0_1_01_0 (fun _ b => b)
            (Host.scatter scatter_S192x4_S2_S32_0_1_01_0 (fun _ b => b) zeros49 (idx2 0#32 0#32)
              (shapeCast S32 (truncf .bf16 (a6 m c) bitsLt_bf16_f32 : FVec Ideal S32x1 .bf16) shapeCasts_S32x1_S32))
            (idx2 32#32 1#32)
            (shapeCast S32 (truncf .bf16 (a12 m c) bitsLt_bf16_f32 : FVec Ideal S32x1 .bf16) shapeCasts_S32x1_S32))
          (idx2 64#32 2#32)
          (shapeCast S64 (truncf .bf16 (a18 m c) bitsLt_bf16_f32 : FVec Ideal S64x1 .bf16) shapeCasts_S64x1_S64))
        (idx2 128#32 3#32)
        (shapeCast S64 (truncf .bf16 (a24 m c) bitsLt_bf16_f32 : FVec Ideal S64x1 .bf16) shapeCasts_S64x1_S64) := by
  dsimp only [Vh]
  simp only [hostOps0, hostOps0_1, hostOps0_2, List.flatten_cons, List.flatten_nil, List.append_nil, List.cons_append,
    List.nil_append]
  after_results_simp
  rfl

/-! ## The block-diagonal second layer -/

/-- Entry `(k, j)` of the second-layer array the grid finds: the four experts' matrices on the diagonal blocks,
    zero elsewhere. The four writes nest with the last one outermost, so the entry is read off the last block first;
    the blocks are pairwise disjoint, so this agrees with testing the first block first. -/
theorem v23_apply (k : Fin 384) (j : Fin 192) :
    (Vh m c main_v23 : S384x192.Idx → EReal) (ix2 k j)
      = W2bd (mat (m ((c : Thread nD τ).loc main_arg4) : S64x32.Idx → EReal))
          (mat (m ((c : Thread nD τ).loc main_arg10) : S64x32.Idx → EReal))
          (mat (m ((c : Thread nD τ).loc main_arg16) : S128x64.Idx → EReal))
          (mat (m ((c : Thread nD τ).loc main_arg22) : S128x64.Idx → EReal)) k j := by
  rw [e23 m c]
  rw [scatter_b128_apply _ (idx2 256#32 128#32) _ 256 128 (by rw [idx2_zero]; decide) (by rw [idx2_one]; decide)
    (by omega) (by omega)]
  rw [scatter_b128_apply _ (idx2 128#32 64#32) _ 128 64 (by rw [idx2_zero]; decide) (by rw [idx2_one]; decide)
    (by omega) (by omega)]
  rw [scatter_b64_apply _ (idx2 64#32 32#32) _ 64 32 (by rw [idx2_zero]; decide) (by rw [idx2_one]; decide)
    (by omega) (by omega)]
  rw [scatter_b64_apply _ (idx2 0#32 0#32) _ 0 0 (by rw [idx2_zero]; decide) (by rw [idx2_one]; decide)
    (by omega) (by omega)]
  have hk := k.isLt
  have hj := j.isLt
  unfold W2bd
  split_ifs <;> first | (exfalso; omega) | rfl | exact zeros23_apply _

/-! ## The block-diagonal third layer -/

/-- Entry `(j, e)` of the third-layer array the grid finds: column `e` holds expert `e`'s last-layer weights on that
    expert's own rows, zero elsewhere. Each written segment is the expert's `h₂ × 1` weight column read as a vector;
    the four writes nest with the last one outermost and touch pairwise disjoint cells. -/
theorem v49_apply (j : Fin 192) (e : Fin 4) :
    (Vh m c main_v49 : S192x4.Idx → EReal) (ix2 j e)
      = W3bd (col (m ((c : Thread nD τ).loc main_arg6) : S32x1.Idx → EReal))
          (col (m ((c : Thread nD τ).loc main_arg12) : S32x1.Idx → EReal))
          (col (m ((c : Thread nD τ).loc main_arg18) : S64x1.Idx → EReal))
          (col (m ((c : Thread nD τ).loc main_arg24) : S64x1.Idx → EReal)) j e := by
  rw [e49 m c]
  rw [scatter_c64_apply _ (idx2 128#32 3#32) _ 128 3 (by rw [idx2_zero]; decide) (by rw [idx2_one]; decide)
    (by omega) (by omega)]
  rw [scatter_c64_apply _ (idx2 64#32 2#32) _ 64 2 (by rw [idx2_zero]; decide) (by rw [idx2_one]; decide)
    (by omega) (by omega)]
  rw [scatter_c32_apply _ (idx2 32#32 1#32) _ 32 1 (by rw [idx2_zero]; decide) (by rw [idx2_one]; decide)
    (by omega) (by omega)]
  rw [scatter_c32_apply _ (idx2 0#32 0#32) _ 0 0 (by rw [idx2_zero]; decide) (by rw [idx2_one]; decide)
    (by omega) (by omega)]
  have hj := j.isLt
  have he := e.isLt
  unfold W3bd
  split_ifs <;> first | (exfalso; omega) | exact zeros49_apply _ | exact shapeCast_a1_a_apply _ _ _

end Cert.KernelIdeal.HostScatter

end
-- ==== Proof.Labels.lean ====
/-
  Facts about the label words.

  A label is a signed 32-bit word.  Clipping it to 0 … 3 (first the larger of 0 and the label, then the smaller of 3 and
  that) gives a word whose value is 0 when the label is negative, the label itself when it lies in 0 … 3, and 3 when it
  is larger.  The validity bit is one exactly in the middle case.  Everything below follows from this three-way split,
  read through the signed value of the word.
-/
import proofs.«426415_j40561671143598_2_alg».proof.Proof.Spec

namespace Cert.Decoders

open Idealize.ShloMosaic

/-- The signed value of the word 0. -/
private theorem toInt_zero32 : (0#32 : BitVec 32).toInt = 0 := by decide

/-- The signed value of the word 3. -/
private theorem toInt_three32 : (3#32 : BitVec 32).toInt = 3 := by decide

/-- The three-way split of the clipped label by the signed value of the label. -/
theorem clipWord_cases (l : BitVec 32) :
    (l.toInt < 0 ∧ clipWord l = 0#32) ∨ ((0 ≤ l.toInt ∧ l.toInt ≤ 3) ∧ clipWord l = l) ∨ (3 < l.toInt ∧ clipWord l = 3#32) := by
  unfold clipWord IntOp.minsi IntOp.maxsi
  by_cases h0 : l.toInt < 0
  · left
    have hs : l.slt 0#32 = true := by rw [BitVec.slt_iff_toInt_lt, toInt_zero32]; exact h0
    refine ⟨h0, ?_⟩
    rw [hs]
    simp only [if_true]
    have h3 : (3#32 : BitVec 32).slt 0#32 = false := by decide
    rw [h3]; simp
  · right
    have hs : l.slt 0#32 = false := by
      rw [Bool.eq_false_iff]; intro hh; rw [BitVec.slt_iff_toInt_lt, toInt_zero32] at hh; exact h0 hh
    rw [hs]
    simp only [Bool.false_eq_true, if_false]
    by_cases h3 : 3 < l.toInt
    · right
      have hs3 : (3#32 : BitVec 32).slt l = true := by rw [BitVec.slt_iff_toInt_lt, toInt_three32]; exact h3
      rw [hs3]; exact ⟨h3, by simp⟩
    · left
      have hs3 : (3#32 : BitVec 32).slt l = false := by
        rw [Bool.eq_false_iff]; intro hh; rw [BitVec.slt_iff_toInt_lt, toInt_three32] at hh; exact h3 hh
      rw [hs3]; exact ⟨⟨by omega, by omega⟩, by simp⟩

/-- The validity bit is one exactly when the signed value of the label lies in 0 … 3. -/
theorem validBit_eq_one_iff (l : BitVec 32) : validBit l = 1 ↔ (0 ≤ l.toInt ∧ l.toInt ≤ 3) := by
  unfold validBit IntOp.andi IntOp.cmpi
  simp only []
  have ha : (0#32 : BitVec 32).sle l = true ↔ 0 ≤ l.toInt := by rw [BitVec.sle_iff_toInt_le, toInt_zero32]
  have hb : l.sle 3#32 = true ↔ l.toInt ≤ 3 := by rw [BitVec.sle_iff_toInt_le, toInt_three32]
  rw [← ha, ← hb]
  cases (0#32 : BitVec 32).sle l <;> cases l.sle 3#32 <;> decide

/-- A one-bit word that is not one is zero. -/
theorem validBit_ne_one (l : BitVec 32) (h : validBit l ≠ 1) : validBit l = 0 := by
  revert h
  generalize validBit l = b
  revert b
  decide

/-- The clipped label, as a natural number, is below four. -/
theorem clipWord_toNat_lt (l : BitVec 32) : (clipWord l).toNat < 4 := by
  rcases clipWord_cases l with ⟨_, h⟩ | ⟨⟨h0, h3⟩, h⟩ | ⟨_, h⟩
  · rw [h]; decide
  · rw [h]
    have := l.isLt
    rw [BitVec.toInt_eq_toNat_cond] at h0 h3
    split at h0 <;> omega
  · rw [h]; decide

/-- Clipping leaves a valid label unchanged. -/
theorem clipWord_of_valid (l : BitVec 32) (h : validBit l = 1) : clipWord l = l := by
  have hv := (validBit_eq_one_iff l).1 h
  rcases clipWord_cases l with ⟨h0, _⟩ | ⟨_, h'⟩ | ⟨h3, _⟩
  · omega
  · exact h'
  · omega

/-- The signed value of the clipped label lies in 0 … 3. -/
theorem clipWord_toInt_range (l : BitVec 32) : 0 ≤ (clipWord l).toInt ∧ (clipWord l).toInt ≤ 3 := by
  rcases clipWord_cases l with ⟨_, h⟩ | ⟨hr, h⟩ | ⟨_, h⟩
  · rw [h, toInt_zero32]; omega
  · rw [h]; exact hr
  · rw [h, toInt_three32]; omega

/-- The clipped label is at least zero, as a signed comparison. -/
theorem clipWord_sge_zero (l : BitVec 32) : IntOp.cmpi .sge (clipWord l) 0#32 = 1#1 := by
  unfold IntOp.cmpi
  simp only []
  have : (0#32 : BitVec 32).sle (clipWord l) = true := by
    rw [BitVec.sle_iff_toInt_le, toInt_zero32]; exact (clipWord_toInt_range l).1
  rw [this]; rfl

/-- The clipped label is at most three, as a signed comparison. -/
theorem clipWord_sle_three (l : BitVec 32) : IntOp.cmpi .sle (clipWord l) 3#32 = 1#1 := by
  unfold IntOp.cmpi
  simp only []
  have : (clipWord l).sle 3#32 = true := by
    rw [BitVec.sle_iff_toInt_le, toInt_three32]; exact (clipWord_toInt_range l).2
  rw [this]; rfl

/-- The clipped label is not negative, as a signed comparison. -/
theorem clipWord_not_slt_zero (l : BitVec 32) : IntOp.cmpi .slt (clipWord l) 0#32 = 0#1 := by
  unfold IntOp.cmpi
  simp only []
  have : (clipWord l).slt 0#32 = false := by
    rw [Bool.eq_false_iff]; intro hh
    rw [BitVec.slt_iff_toInt_lt, toInt_zero32] at hh
    have := (clipWord_toInt_range l).1
    omega
  rw [this]; rfl

/-- The slot of a label is the clipped label read as a natural number. -/
theorem slot_val (l : BitVec 32) : (slot l).val = (clipWord l).toNat := by
  unfold slot
  exact Nat.mod_eq_of_lt (clipWord_toNat_lt l)

/-- The word of a slot number equals the clipped label exactly for the label's own slot. -/
theorem ofNat_eq_clipWord_iff (l : BitVec 32) (e : Fin 4) : BitVec.ofNat 32 e.val = clipWord l ↔ e = slot l := by
  have hc := clipWord_toNat_lt l
  have he := e.isLt
  constructor
  · intro h
    apply Fin.ext
    rw [slot_val, ← h, BitVec.toNat_ofNat]
    omega
  · intro h
    apply BitVec.eq_of_toNat_eq
    rw [h, slot_val, BitVec.toNat_ofNat]
    omega

end Cert.Decoders
-- ==== Proof.LibBlockSum.lean ====
/-
  A sum over a finite index range whose terms vanish outside a window.

  If the terms `g k`, `k < N`, are zero whenever `k` lies outside the window `a ≤ k < a + n`, then the whole sum is the
  sum of the `n` terms inside the window, read through the shift `k' ↦ a + k'`.  This is what makes a product with a
  block-diagonal matrix fall apart into the products with its blocks.  It holds in every commutative additive monoid: only
  `0 + y = y` is used, never subtraction.
-/
import Mathlib.Algebra.BigOperators.Fin
import Mathlib.Algebra.BigOperators.Group.Finset.Basic

open scoped BigOperators

namespace Cert.LibBlockSum

/-- A sum over `Fin N` of terms that vanish outside the window `[a, a + n)` is the sum over `Fin n` of the shifted terms. -/
theorem sum_fin_window {M : Type*} [AddCommMonoid M] {N : ℕ} (a n : ℕ) (h : a + n ≤ N) (g : Fin N → M)
    (hz : ∀ k : Fin N, ¬ (a ≤ k.val ∧ k.val < a + n) → g k = 0) :
    ∑ k : Fin N, g k = ∑ k' : Fin n, g ⟨a + k'.val, by omega⟩ := by
  symm
  refine Finset.sum_of_injOn (fun k' : Fin n => (⟨a + k'.val, by omega⟩ : Fin N)) ?_ ?_ ?_ ?_
  · -- the shift is one-to-one
    intro p _ q _ hpq
    have : a + p.val = a + q.val := congrArg Fin.val hpq
    exact Fin.ext (by omega)
  · -- it lands inside the index range
    intro p _
    exact Finset.mem_coe.2 (Finset.mem_univ _)
  · -- an index that is not a shifted one lies outside the window, where the term is zero
    intro k _ hk
    apply hz k
    rintro ⟨h1, h2⟩
    apply hk
    refine ⟨⟨k.val - a, by omega⟩, Finset.mem_coe.2 (Finset.mem_univ _), ?_⟩
    exact Fin.ext (by simp only []; omega)
  · intro p _
    rfl

end Cert.LibBlockSum
-- ==== Proof.Bridge.lean ====
/-
  The two laws that join the fused network to the four experts.

  First: the fused network built from the experts' weights (first-layer weights side by side, block-diagonal second and
  third layers, biases end to end) gives, in output `e`, exactly expert `e`'s output.  The reason is that a sum whose terms
  vanish outside a window is the sum over the window, and that a product with a zero matrix entry vanishes on the
  extended reals whatever the other factor is, infinite values included; no finiteness is needed anywhere.

  Second: multiplying the four outputs by the one-hot of the clipped label, summing, and multiplying by the validity flag
  gives the picked output when the label lies in 0 … 3 and zero otherwise.
-/
import proofs.«426415_j40561671143598_2_alg».proof.Proof.Spec
import proofs.«426415_j40561671143598_2_alg».proof.Proof.Labels
import proofs.«426415_j40561671143598_2_alg».proof.Proof.LibBlockSum
import Mathlib.Algebra.BigOperators.Fin
import Mathlib.Algebra.BigOperators.Group.Finset.Basic

open scoped BigOperators

namespace Cert.Decoders

open Idealize.ShloMosaic Cert.LibBlockSum

/-! ## Laying vectors end to end -/

section cat
variable {α β : Type}

/-- Applying a function entrywise commutes with laying four vectors end to end (lengths 64, 64, 128, 128). -/
theorem cat384_comp (f : α → β) (f0 f1 : Fin 64 → α) (f2 f3 : Fin 128 → α) (k : Fin 384) :
    f (cat384 f0 f1 f2 f3 k) = cat384 (fun i => f (f0 i)) (fun i => f (f1 i)) (fun i => f (f2 i)) (fun i => f (f3 i)) k := by
  unfold cat384
  split_ifs <;> rfl

/-- The same for lengths 32, 32, 64, 64. -/
theorem cat192_comp (f : α → β) (f0 f1 : Fin 32 → α) (f2 f3 : Fin 64 → α) (j : Fin 192) :
    f (cat192 f0 f1 f2 f3 j) = cat192 (fun i => f (f0 i)) (fun i => f (f1 i)) (fun i => f (f2 i)) (fun i => f (f3 i)) j := by
  unfold cat192
  split_ifs <;> rfl

/-- Entry \`0 + i\` of the long vector is entry \`i\` of the first piece. -/
theorem cat384_at0 (f0 f1 : Fin 64 → α) (f2 f3 : Fin 128 → α) (i : Fin 64) (h : 0 + i.val < 384) :
    cat384 f0 f1 f2 f3 ⟨0 + i.val, h⟩ = f0 i := by
  have hi := i.isLt
  have e0 : (⟨0 + i.val, h⟩ : Fin 384).val < 64 := by show 0 + i.val < 64; omega
  unfold cat384
  rw [dif_pos e0]
  exact congrArg f0 (Fin.ext (by show 0 + i.val = i.val; omega))

/-- Entry \`64 + i\` of the long vector is entry \`i\` of the second piece. -/
theorem cat384_at1 (f0 f1 : Fin 64 → α) (f2 f3 : Fin 128 → α) (i : Fin 64) (h : 64 + i.val < 384) :
    cat384 f0 f1 f2 f3 ⟨64 + i.val, h⟩ = f1 i := by
  have hi := i.isLt
  have e0 : ¬ (⟨64 + i.val, h⟩ : Fin 384).val < 64 := by show ¬ 64 + i.val < 64; omega
  have e1 : (⟨64 + i.val, h⟩ : Fin 384).val < 128 := by show 64 + i.val < 128; omega
  unfold cat384
  rw [dif_neg e0, dif_pos e1]
  exact congrArg f1 (Fin.ext (by show 64 + i.val - 64 = i.val; omega))

/-- Entry \`128 + i\` of the long vector is entry \`i\` of the third piece. -/
theorem cat384_at2 (f0 f1 : Fin 64 → α) (f2 f3 : Fin 128 → α) (i : Fin 128) (h : 128 + i.val < 384) :
    cat384 f0 f1 f2 f3 ⟨128 + i.val, h⟩ = f2 i := by
  have hi := i.isLt
  have e0 : ¬ (⟨128 + i.val, h⟩ : Fin 384).val < 64 := by show ¬ 128 + i.val < 64; omega
  have e1 : ¬ (⟨128 + i.val, h⟩ : Fin 384).val < 128 := by show ¬ 128 + i.val < 128; omega
  have e2 : (⟨128 + i.val, h⟩ : Fin 384).val < 256 := by show 128 + i.val < 256; omega
  unfold cat384
  rw [dif_neg e0, dif_neg e1, dif_pos e2]
  exact congrArg f2 (Fin.ext (by show 128 + i.val - 128 = i.val; omega))

/-- Entry \`256 + i\` of the long vector is entry \`i\` of the fourth piece. -/
theorem cat384_at3 (f0 f1 : Fin 64 → α) (f2 f3 : Fin 128 → α) (i : Fin 128) (h : 256 + i.val < 384) :
    cat384 f0 f1 f2 f3 ⟨256 + i.val, h⟩ = f3 i := by
  have hi := i.isLt
  have e0 : ¬ (⟨256 + i.val, h⟩ : Fin 384).val < 64 := by show ¬ 256 + i.val < 64; omega
  have e1 : ¬ (⟨256 + i.val, h⟩ : Fin 384).val < 128 := by show ¬ 256 + i.val < 128; omega
  have e2 : ¬ (⟨256 + i.val, h⟩ : Fin 384).val < 256 := by show ¬ 256 + i.val < 256; omega
  unfold cat384
  rw [dif_neg e0, dif_neg e1, dif_neg e2]
  exact congrArg f3 (Fin.ext (by show 256 + i.val - 256 = i.val; omega))

/-- Entry \`0 + i\` of the shorter long vector is entry \`i\` of the first piece. -/
theorem cat192_at0 (f0 f1 : Fin 32 → α) (f2 f3 : Fin 64 → α) (i : Fin 32) (h : 0 + i.val < 192) :
    cat192 f0 f1 f2 f3 ⟨0 + i.val, h⟩ = f0 i := by
  have hi := i.isLt
  have e0 : (⟨0 + i.val, h⟩ : Fin 192).val < 32 := by show 0 + i.val < 32; omega
  unfold cat192
  rw [dif_pos e0]
  exact congrArg f0 (Fin.ext (by show 0 + i.val = i.val; omega))

/-- Entry \`32 + i\` is entry \`i\` of the second piece. -/
theorem cat192_at1 (f0 f1 : Fin 32 → α) (f2 f3 : Fin 64 → α) (i : Fin 32) (h : 32 + i.val < 192) :
    cat192 f0 f1 f2 f3 ⟨32 + i.val, h⟩ = f1 i := by
  have hi := i.isLt
  have e0 : ¬ (⟨32 + i.val, h⟩ : Fin 192).val < 32 := by show ¬ 32 + i.val < 32; omega
  have e1 : (⟨32 + i.val, h⟩ : Fin 192).val < 64 := by show 32 + i.val < 64; omega
  unfold cat192
  rw [dif_neg e0, dif_pos e1]
  exact congrArg f1 (Fin.ext (by show 32 + i.val - 32 = i.val; omega))

/-- Entry \`64 + i\` is entry \`i\` of the third piece. -/
theorem cat192_at2 (f0 f1 : Fin 32 → α) (f2 f3 : Fin 64 → α) (i : Fin 64) (h : 64 + i.val < 192) :
    cat192 f0 f1 f2 f3 ⟨64 + i.val, h⟩ = f2 i := by
  have hi := i.isLt
  have e0 : ¬ (⟨64 + i.val, h⟩ : Fin 192).val < 32 := by show ¬ 64 + i.val < 32; omega
  have e1 : ¬ (⟨64 + i.val, h⟩ : Fin 192).val < 64 := by show ¬ 64 + i.val < 64; omega
  have e2 : (⟨64 + i.val, h⟩ : Fin 192).val < 128 := by show 64 + i.val < 128; omega
  unfold cat192
  rw [dif_neg e0, dif_neg e1, dif_pos e2]
  exact congrArg f2 (Fin.ext (by show 64 + i.val - 64 = i.val; omega))

/-- Entry \`128 + i\` is entry \`i\` of the fourth piece. -/
theorem cat192_at3 (f0 f1 : Fin 32 → α) (f2 f3 : Fin 64 → α) (i : Fin 64) (h : 128 + i.val < 192) :
    cat192 f0 f1 f2 f3 ⟨128 + i.val, h⟩ = f3 i := by
  have hi := i.isLt
  have e0 : ¬ (⟨128 + i.val, h⟩ : Fin 192).val < 32 := by show ¬ 128 + i.val < 32; omega
  have e1 : ¬ (⟨128 + i.val, h⟩ : Fin 192).val < 64 := by show ¬ 128 + i.val < 64; omega
  have e2 : ¬ (⟨128 + i.val, h⟩ : Fin 192).val < 128 := by show ¬ 128 + i.val < 128; omega
  unfold cat192
  rw [dif_neg e0, dif_neg e1, dif_neg e2]
  exact congrArg f3 (Fin.ext (by show 128 + i.val - 128 = i.val; omega))

end cat

/-! ## The first layer: side-by-side weights give side-by-side outputs -/

/-- The first fused layer, entry by entry, is the four experts' first layers laid end to end. -/
theorem dense_W1cat (x : Fin 2048 → EReal) (w0 w1 : Fin 2048 → Fin 64 → EReal) (w2 w3 : Fin 2048 → Fin 128 → EReal)
    (c0 c1 : Fin 64 → EReal) (c2 c3 : Fin 128 → EReal) (k : Fin 384) :
    dense x (W1cat w0 w1 w2 w3) (cat384 c0 c1 c2 c3) k
      = cat384 (dense x w0 c0) (dense x w1 c1) (dense x w2 c2) (dense x w3 c3) k := by
  unfold dense W1cat cat384
  by_cases h0 : k.val < 64
  · simp only [h0, ↓reduceDIte]
  · by_cases h1 : k.val < 128
    · simp only [h0, h1, ↓reduceDIte]
    · by_cases h2 : k.val < 256
      · simp only [h0, h1, h2, ↓reduceDIte]
      · simp only [h0, h1, h2, ↓reduceDIte]

/-! ## The block-diagonal second layer

  For a column \`j\` in column block \`e\` the entries \`W2bd k j\` vanish for every row \`k\` outside row block \`e\`; inside it
  they are expert \`e\`'s matrix at the shifted position. -/

section W2
variable (w0 w1 : Fin 64 → Fin 32 → EReal) (w2 w3 : Fin 128 → Fin 64 → EReal)

theorem W2bd_zero0 (k : Fin 384) (j : Fin 192) (hj : j.val < 32) (hk : ¬ (0 ≤ k.val ∧ k.val < 0 + 64)) :
    W2bd w0 w1 w2 w3 k j = 0 := by
  have := k.isLt
  unfold W2bd
  rw [dif_neg (by omega), dif_neg (by omega), dif_neg (by omega), dif_neg (by omega)]

theorem W2bd_zero1 (k : Fin 384) (j : Fin 192) (hj : 32 ≤ j.val ∧ j.val < 64) (hk : ¬ (64 ≤ k.val ∧ k.val < 64 + 64)) :
    W2bd w0 w1 w2 w3 k j = 0 := by
  have := k.isLt
  unfold W2bd
  rw [dif_neg (by omega), dif_neg (by omega), dif_neg (by omega), dif_neg (by omega)]

theorem W2bd_zero2 (k : Fin 384) (j : Fin 192) (hj : 64 ≤ j.val ∧ j.val < 128) (hk : ¬ (128 ≤ k.val ∧ k.val < 128 + 128)) :
    W2bd w0 w1 w2 w3 k j = 0 := by
  have := k.isLt
  unfold W2bd
  rw [dif_neg (by omega), dif_neg (by omega), dif_neg (by omega), dif_neg (by omega)]

theorem W2bd_zero3 (k : Fin 384) (j : Fin 192) (hj : 128 ≤ j.val) (hk : ¬ (256 ≤ k.val ∧ k.val < 256 + 128)) :
    W2bd w0 w1 w2 w3 k j = 0 := by
  have := k.isLt
  unfold W2bd
  rw [dif_neg (by omega), dif_neg (by omega), dif_neg (by omega), dif_neg (by omega)]

theorem W2bd_at0 (i : Fin 64) (j : Fin 192) (hj : j.val < 32) (h : 0 + i.val < 384) :
    W2bd w0 w1 w2 w3 ⟨0 + i.val, h⟩ j = w0 i ⟨j.val, hj⟩ := by
  have hi := i.isLt
  have e0 : (⟨0 + i.val, h⟩ : Fin 384).val < 64 ∧ j.val < 32 := ⟨by show 0 + i.val < 64; omega, hj⟩
  unfold W2bd
  rw [dif_pos e0]
  exact congrArg (fun t => w0 t ⟨j.val, hj⟩) (Fin.ext (by show 0 + i.val = i.val; omega))

theorem W2bd_at1 (i : Fin 64) (j : Fin 192) (hj : 32 ≤ j.val ∧ j.val < 64) (h : 64 + i.val < 384) :
    W2bd w0 w1 w2 w3 ⟨64 + i.val, h⟩ j = w1 i ⟨j.val - 32, by omega⟩ := by
  have hi := i.isLt
  have e1 : (64 ≤ (⟨64 + i.val, h⟩ : Fin 384).val ∧ (⟨64 + i.val, h⟩ : Fin 384).val < 128) ∧ (32 ≤ j.val ∧ j.val < 64) :=
    ⟨by show 64 ≤ 64 + i.val ∧ 64 + i.val < 128; omega, hj⟩
  unfold W2bd
  rw [dif_neg (by omega), dif_pos e1]
  exact congrArg (fun t => w1 t ⟨j.val - 32, by omega⟩) (Fin.ext (by show 64 + i.val - 64 = i.val; omega))

theorem W2bd_at2 (i : Fin 128) (j : Fin 192) (hj : 64 ≤ j.val ∧ j.val < 128) (h : 128 + i.val < 384) :
    W2bd w0 w1 w2 w3 ⟨128 + i.val, h⟩ j = w2 i ⟨j.val - 64, by omega⟩ := by
  have hi := i.isLt
  have e2 : (128 ≤ (⟨128 + i.val, h⟩ : Fin 384).val ∧ (⟨128 + i.val, h⟩ : Fin 384).val < 256) ∧ (64 ≤ j.val ∧ j.val < 128) :=
    ⟨by show 128 ≤ 128 + i.val ∧ 128 + i.val < 256; omega, hj⟩
  unfold W2bd
  rw [dif_neg (by omega), dif_neg (by omega), dif_pos e2]
  exact congrArg (fun t => w2 t ⟨j.val - 64, by omega⟩) (Fin.ext (by show 128 + i.val - 128 = i.val; omega))

theorem W2bd_at3 (i : Fin 128) (j : Fin 192) (hj : 128 ≤ j.val) (h : 256 + i.val < 384) :
    W2bd w0 w1 w2 w3 ⟨256 + i.val, h⟩ j = w3 i ⟨j.val - 128, by omega⟩ := by
  have hi := i.isLt
  have hj' := j.isLt
  have e3 : 256 ≤ (⟨256 + i.val, h⟩ : Fin 384).val ∧ 128 ≤ j.val := ⟨by show 256 ≤ 256 + i.val; omega, hj⟩
  unfold W2bd
  rw [dif_neg (by omega), dif_neg (by omega), dif_neg (by omega), dif_pos e3]
  exact congrArg (fun t => w3 t ⟨j.val - 128, by omega⟩) (Fin.ext (by show 256 + i.val - 256 = i.val; omega))

variable (g0 g1 : Fin 64 → EReal) (g2 g3 : Fin 128 → EReal) (c0 c1 : Fin 32 → EReal) (c2 c3 : Fin 64 → EReal)

/-- A column of the first block sees only the first expert's hidden vector. -/
theorem dense_W2bd_blk0 (j : Fin 192) (hj : j.val < 32) :
    dense (cat384 g0 g1 g2 g3) (W2bd w0 w1 w2 w3) (cat192 c0 c1 c2 c3) j = dense g0 w0 c0 ⟨j.val, hj⟩ := by
  have hs : ∑ k : Fin 384, cat384 g0 g1 g2 g3 k * W2bd w0 w1 w2 w3 k j = ∑ i : Fin 64, g0 i * w0 i ⟨j.val, hj⟩ := by
    refine (sum_fin_window 0 64 (by omega) (fun k : Fin 384 => cat384 g0 g1 g2 g3 k * W2bd w0 w1 w2 w3 k j) ?_).trans ?_
    · intro k hk
      show cat384 g0 g1 g2 g3 k * W2bd w0 w1 w2 w3 k j = 0
      rw [W2bd_zero0 w0 w1 w2 w3 k j hj hk, mul_zero]
    · refine Finset.sum_congr rfl (fun i _ => ?_)
      show cat384 g0 g1 g2 g3 ⟨0 + i.val, _⟩ * W2bd w0 w1 w2 w3 ⟨0 + i.val, _⟩ j = _
      rw [cat384_at0, W2bd_at0 w0 w1 w2 w3 i j hj]
  have hc : cat192 c0 c1 c2 c3 j = c0 ⟨j.val, hj⟩ := by unfold cat192; rw [dif_pos hj]
  unfold dense
  rw [hs, hc]

/-- A column of the second block sees only the second expert's hidden vector. -/
theorem dense_W2bd_blk1 (j : Fin 192) (hj : 32 ≤ j.val ∧ j.val < 64) :
    dense (cat384 g0 g1 g2 g3) (W2bd w0 w1 w2 w3) (cat192 c0 c1 c2 c3) j = dense g1 w1 c1 ⟨j.val - 32, by omega⟩ := by
  have hs : ∑ k : Fin 384, cat384 g0 g1 g2 g3 k * W2bd w0 w1 w2 w3 k j = ∑ i : Fin 64, g1 i * w1 i ⟨j.val - 32, by omega⟩ := by
    refine (sum_fin_window 64 64 (by omega) (fun k : Fin 384 => cat384 g0 g1 g2 g3 k * W2bd w0 w1 w2 w3 k j) ?_).trans ?_
    · intro k hk
      show cat384 g0 g1 g2 g3 k * W2bd w0 w1 w2 w3 k j = 0
      rw [W2bd_zero1 w0 w1 w2 w3 k j hj hk, mul_zero]
    · refine Finset.sum_congr rfl (fun i _ => ?_)
      show cat384 g0 g1 g2 g3 ⟨64 + i.val, _⟩ * W2bd w0 w1 w2 w3 ⟨64 + i.val, _⟩ j = _
      rw [cat384_at1, W2bd_at1 w0 w1 w2 w3 i j hj]
  have hc : cat192 c0 c1 c2 c3 j = c1 ⟨j.val - 32, by omega⟩ := by
    unfold cat192; rw [dif_neg (by omega), dif_pos hj.2]
  unfold dense
  rw [hs, hc]

/-- A column of the third block sees only the third expert's hidden vector. -/
theorem dense_W2bd_blk2 (j : Fin 192) (hj : 64 ≤ j.val ∧ j.val < 128) :
    dense (cat384 g0 g1 g2 g3) (W2bd w0 w1 w2 w3) (cat192 c0 c1 c2 c3) j = dense g2 w2 c2 ⟨j.val - 64, by omega⟩ := by
  have hs : ∑ k : Fin 384, cat384 g0 g1 g2 g3 k * W2bd w0 w1 w2 w3 k j = ∑ i : Fin 128, g2 i * w2 i ⟨j.val - 64, by omega⟩ := by
    refine (sum_fin_window 128 128 (by omega) (fun k : Fin 384 => cat384 g0 g1 g2 g3 k * W2bd w0 w1 w2 w3 k j) ?_).trans ?_
    · intro k hk
      show cat384 g0 g1 g2 g3 k * W2bd w0 w1 w2 w3 k j = 0
      rw [W2bd_zero2 w0 w1 w2 w3 k j hj hk, mul_zero]
    · refine Finset.sum_congr rfl (fun i _ => ?_)
      show cat384 g0 g1 g2 g3 ⟨128 + i.val, _⟩ * W2bd w0 w1 w2 w3 ⟨128 + i.val, _⟩ j = _
      rw [cat384_at2, W2bd_at2 w0 w1 w2 w3 i j hj]
  have hc : cat192 c0 c1 c2 c3 j = c2 ⟨j.val - 64, by omega⟩ := by
    unfold cat192; rw [dif_neg (by omega), dif_neg (by omega), dif_pos hj.2]
  unfold dense
  rw [hs, hc]

/-- A column of the fourth block sees only the fourth expert's hidden vector. -/
theorem dense_W2bd_blk3 (j : Fin 192) (hj : 128 ≤ j.val) :
    dense (cat384 g0 g1 g2 g3) (W2bd w0 w1 w2 w3) (cat192 c0 c1 c2 c3) j
      = dense g3 w3 c3 ⟨j.val - 128, by have := j.isLt; omega⟩ := by
  have hj' := j.isLt
  have hs : ∑ k : Fin 384, cat384 g0 g1 g2 g3 k * W2bd w0 w1 w2 w3 k j = ∑ i : Fin 128, g3 i * w3 i ⟨j.val - 128, by omega⟩ := by
    refine (sum_fin_window 256 128 (by omega) (fun k : Fin 384 => cat384 g0 g1 g2 g3 k * W2bd w0 w1 w2 w3 k j) ?_).trans ?_
    · intro k hk
      show cat384 g0 g1 g2 g3 k * W2bd w0 w1 w2 w3 k j = 0
      rw [W2bd_zero3 w0 w1 w2 w3 k j hj hk, mul_zero]
    · refine Finset.sum_congr rfl (fun i _ => ?_)
      show cat384 g0 g1 g2 g3 ⟨256 + i.val, _⟩ * W2bd w0 w1 w2 w3 ⟨256 + i.val, _⟩ j = _
      rw [cat384_at3, W2bd_at3 w0 w1 w2 w3 i j hj]
  have hc : cat192 c0 c1 c2 c3 j = c3 ⟨j.val - 128, by omega⟩ := by
    unfold cat192; rw [dif_neg (by omega), dif_neg (by omega), dif_neg (by omega)]
  unfold dense
  rw [hs, hc]

/-- The second fused layer on four hidden vectors laid end to end is the four experts' second layers laid end to end. -/
theorem dense_W2bd (j : Fin 192) :
    dense (cat384 g0 g1 g2 g3) (W2bd w0 w1 w2 w3) (cat192 c0 c1 c2 c3) j
      = cat192 (dense g0 w0 c0) (dense g1 w1 c1) (dense g2 w2 c2) (dense g3 w3 c3) j := by
  by_cases h0 : j.val < 32
  · rw [dense_W2bd_blk0 w0 w1 w2 w3 g0 g1 g2 g3 c0 c1 c2 c3 j h0]
    unfold cat192; rw [dif_pos h0]
  · by_cases h1 : j.val < 64
    · rw [dense_W2bd_blk1 w0 w1 w2 w3 g0 g1 g2 g3 c0 c1 c2 c3 j ⟨by omega, h1⟩]
      unfold cat192; rw [dif_neg h0, dif_pos h1]
    · by_cases h2 : j.val < 128
      · rw [dense_W2bd_blk2 w0 w1 w2 w3 g0 g1 g2 g3 c0 c1 c2 c3 j ⟨by omega, h2⟩]
        unfold cat192; rw [dif_neg h0, dif_neg h1, dif_pos h2]
      · rw [dense_W2bd_blk3 w0 w1 w2 w3 g0 g1 g2 g3 c0 c1 c2 c3 j (by omega)]
        unfold cat192; rw [dif_neg h0, dif_neg h1, dif_neg h2]

end W2

/-! ## The block-diagonal third layer

  Column \`e\` of the 192 × 4 matrix holds expert \`e\`'s last-layer weights on the rows of block \`e\` and zeros elsewhere. -/

section W3
variable (w0 w1 : Fin 32 → EReal) (w2 w3 : Fin 64 → EReal)

theorem W3bd_zero0 (j : Fin 192) (e : Fin 4) (he : e.val = 0) (hj : ¬ (0 ≤ j.val ∧ j.val < 0 + 32)) :
    W3bd w0 w1 w2 w3 j e = 0 := by
  have := j.isLt
  unfold W3bd
  rw [dif_neg (by omega), dif_neg (by omega), dif_neg (by omega), dif_neg (by omega)]

theorem W3bd_zero1 (j : Fin 192) (e : Fin 4) (he : e.val = 1) (hj : ¬ (32 ≤ j.val ∧ j.val < 32 + 32)) :
    W3bd w0 w1 w2 w3 j e = 0 := by
  have := j.isLt
  unfold W3bd
  rw [dif_neg (by omega), dif_neg (by omega), dif_neg (by omega), dif_neg (by omega)]

theorem W3bd_zero2 (j : Fin 192) (e : Fin 4) (he : e.val = 2) (hj : ¬ (64 ≤ j.val ∧ j.val < 64 + 64)) :
    W3bd w0 w1 w2 w3 j e = 0 := by
  have := j.isLt
  unfold W3bd
  rw [dif_neg (by omega), dif_neg (by omega), dif_neg (by omega), dif_neg (by omega)]

theorem W3bd_zero3 (j : Fin 192) (e : Fin 4) (he : e.val = 3) (hj : ¬ (128 ≤ j.val ∧ j.val < 128 + 64)) :
    W3bd w0 w1 w2 w3 j e = 0 := by
  have := j.isLt
  unfold W3bd
  rw [dif_neg (by omega), dif_neg (by omega), dif_neg (by omega), dif_neg (by omega)]

theorem W3bd_at0 (i : Fin 32) (e : Fin 4) (he : e.val = 0) (h : 0 + i.val < 192) :
    W3bd w0 w1 w2 w3 ⟨0 + i.val, h⟩ e = w0 i := by
  have hi := i.isLt
  have e0 : (⟨0 + i.val, h⟩ : Fin 192).val < 32 ∧ e.val = 0 := ⟨by show 0 + i.val < 32; omega, he⟩
  unfold W3bd
  rw [dif_pos e0]
  exact congrArg w0 (Fin.ext (by show 0 + i.val = i.val; omega))

theorem W3bd_at1 (i : Fin 32) (e : Fin 4) (he : e.val = 1) (h : 32 + i.val < 192) :
    W3bd w0 w1 w2 w3 ⟨32 + i.val, h⟩ e = w1 i := by
  have hi := i.isLt
  have e1 : (32 ≤ (⟨32 + i.val, h⟩ : Fin 192).val ∧ (⟨32 + i.val, h⟩ : Fin 192).val < 64) ∧ e.val = 1 :=
    ⟨by show 32 ≤ 32 + i.val ∧ 32 + i.val < 64; omega, he⟩
  unfold W3bd
  rw [dif_neg (by omega), dif_pos e1]
  exact congrArg w1 (Fin.ext (by show 32 + i.val - 32 = i.val; omega))

theorem W3bd_at2 (i : Fin 64) (e : Fin 4) (he : e.val = 2) (h : 64 + i.val < 192) :
    W3bd w0 w1 w2 w3 ⟨64 + i.val, h⟩ e = w2 i := by
  have hi := i.isLt
  have e2 : (64 ≤ (⟨64 + i.val, h⟩ : Fin 192).val ∧ (⟨64 + i.val, h⟩ : Fin 192).val < 128) ∧ e.val = 2 :=
    ⟨by show 64 ≤ 64 + i.val ∧ 64 + i.val < 128; omega, he⟩
  unfold W3bd
  rw [dif_neg (by omega), dif_neg (by omega), dif_pos e2]
  exact congrArg w2 (Fin.ext (by show 64 + i.val - 64 = i.val; omega))

theorem W3bd_at3 (i : Fin 64) (e : Fin 4) (he : e.val = 3) (h : 128 + i.val < 192) :
    W3bd w0 w1 w2 w3 ⟨128 + i.val, h⟩ e = w3 i := by
  have hi := i.isLt
  have e3 : 128 ≤ (⟨128 + i.val, h⟩ : Fin 192).val ∧ e.val = 3 := ⟨by show 128 ≤ 128 + i.val; omega, he⟩
  unfold W3bd
  rw [dif_neg (by omega), dif_neg (by omega), dif_neg (by omega), dif_pos e3]
  exact congrArg w3 (Fin.ext (by show 128 + i.val - 128 = i.val; omega))

variable (r0 r1 : Fin 32 → EReal) (r2 r3 : Fin 64 → EReal) (c0 c1 c2 c3 : EReal)

/-- Output 0 of the last fused layer is the first expert's last layer. -/
theorem dense_W3bd_blk0 (e : Fin 4) (he : e.val = 0) :
    dense (cat192 r0 r1 r2 r3) (W3bd w0 w1 w2 w3) (b3cat c0 c1 c2 c3) e = (∑ j : Fin 32, r0 j * w0 j) + c0 := by
  have hs : ∑ j : Fin 192, cat192 r0 r1 r2 r3 j * W3bd w0 w1 w2 w3 j e = ∑ i : Fin 32, r0 i * w0 i := by
    refine (sum_fin_window 0 32 (by omega) (fun j : Fin 192 => cat192 r0 r1 r2 r3 j * W3bd w0 w1 w2 w3 j e) ?_).trans ?_
    · intro j hj
      show cat192 r0 r1 r2 r3 j * W3bd w0 w1 w2 w3 j e = 0
      rw [W3bd_zero0 w0 w1 w2 w3 j e he hj, mul_zero]
    · refine Finset.sum_congr rfl (fun i _ => ?_)
      show cat192 r0 r1 r2 r3 ⟨0 + i.val, _⟩ * W3bd w0 w1 w2 w3 ⟨0 + i.val, _⟩ e = _
      rw [cat192_at0, W3bd_at0 w0 w1 w2 w3 i e he]
  have hb : b3cat c0 c1 c2 c3 e = c0 := by unfold b3cat; rw [if_pos he]
  unfold dense
  rw [hs, hb]

/-- Output 1 of the last fused layer is the second expert's last layer. -/
theorem dense_W3bd_blk1 (e : Fin 4) (he : e.val = 1) :
    dense (cat192 r0 r1 r2 r3) (W3bd w0 w1 w2 w3) (b3cat c0 c1 c2 c3) e = (∑ j : Fin 32, r1 j * w1 j) + c1 := by
  have hs : ∑ j : Fin 192, cat192 r0 r1 r2 r3 j * W3bd w0 w1 w2 w3 j e = ∑ i : Fin 32, r1 i * w1 i := by
    refine (sum_fin_window 32 32 (by omega) (fun j : Fin 192 => cat192 r0 r1 r2 r3 j * W3bd w0 w1 w2 w3 j e) ?_).trans ?_
    · intro j hj
      show cat192 r0 r1 r2 r3 j * W3bd w0 w1 w2 w3 j e = 0
      rw [W3bd_zero1 w0 w1 w2 w3 j e he hj, mul_zero]
    · refine Finset.sum_congr rfl (fun i _ => ?_)
      show cat192 r0 r1 r2 r3 ⟨32 + i.val, _⟩ * W3bd w0 w1 w2 w3 ⟨32 + i.val, _⟩ e = _
      rw [cat192_at1, W3bd_at1 w0 w1 w2 w3 i e he]
  have hb : b3cat c0 c1 c2 c3 e = c1 := by unfold b3cat; rw [if_neg (by omega), if_pos he]
  unfold dense
  rw [hs, hb]

/-- Output 2 of the last fused layer is the third expert's last layer. -/
theorem dense_W3bd_blk2 (e : Fin 4) (he : e.val = 2) :
    dense (cat192 r0 r1 r2 r3) (W3bd w0 w1 w2 w3) (b3cat c0 c1 c2 c3) e = (∑ j : Fin 64, r2 j * w2 j) + c2 := by
  have hs : ∑ j : Fin 192, cat192 r0 r1 r2 r3 j * W3bd w0 w1 w2 w3 j e = ∑ i : Fin 64, r2 i * w2 i := by
    refine (sum_fin_window 64 64 (by omega) (fun j : Fin 192 => cat192 r0 r1 r2 r3 j * W3bd w0 w1 w2 w3 j e) ?_).trans ?_
    · intro j hj
      show cat192 r0 r1 r2 r3 j * W3bd w0 w1 w2 w3 j e = 0
      rw [W3bd_zero2 w0 w1 w2 w3 j e he hj, mul_zero]
    · refine Finset.sum_congr rfl (fun i _ => ?_)
      show cat192 r0 r1 r2 r3 ⟨64 + i.val, _⟩ * W3bd w0 w1 w2 w3 ⟨64 + i.val, _⟩ e = _
      rw [cat192_at2, W3bd_at2 w0 w1 w2 w3 i e he]
  have hb : b3cat c0 c1 c2 c3 e = c2 := by unfold b3cat; rw [if_neg (by omega), if_neg (by omega), if_pos he]
  unfold dense
  rw [hs, hb]

/-- Output 3 of the last fused layer is the fourth expert's last layer. -/
theorem dense_W3bd_blk3 (e : Fin 4) (he : e.val = 3) :
    dense (cat192 r0 r1 r2 r3) (W3bd w0 w1 w2 w3) (b3cat c0 c1 c2 c3) e = (∑ j : Fin 64, r3 j * w3 j) + c3 := by
  have hs : ∑ j : Fin 192, cat192 r0 r1 r2 r3 j * W3bd w0 w1 w2 w3 j e = ∑ i : Fin 64, r3 i * w3 i := by
    refine (sum_fin_window 128 64 (by omega) (fun j : Fin 192 => cat192 r0 r1 r2 r3 j * W3bd w0 w1 w2 w3 j e) ?_).trans ?_
    · intro j hj
      show cat192 r0 r1 r2 r3 j * W3bd w0 w1 w2 w3 j e = 0
      rw [W3bd_zero3 w0 w1 w2 w3 j e he hj, mul_zero]
    · refine Finset.sum_congr rfl (fun i _ => ?_)
      show cat192 r0 r1 r2 r3 ⟨128 + i.val, _⟩ * W3bd w0 w1 w2 w3 ⟨128 + i.val, _⟩ e = _
      rw [cat192_at3, W3bd_at3 w0 w1 w2 w3 i e he]
  have hb : b3cat c0 c1 c2 c3 e = c3 := by unfold b3cat; rw [if_neg (by omega), if_neg (by omega), if_neg (by omega)]
  unfold dense
  rw [hs, hb]

/-- The last fused layer on four hidden vectors laid end to end: output \`e\` is expert \`e\`'s last layer on its own vector. -/
theorem dense_W3bd (e : Fin 4) :
    dense (cat192 r0 r1 r2 r3) (W3bd w0 w1 w2 w3) (b3cat c0 c1 c2 c3) e
      = if e.val = 0 then (∑ j : Fin 32, r0 j * w0 j) + c0
        else if e.val = 1 then (∑ j : Fin 32, r1 j * w1 j) + c1
        else if e.val = 2 then (∑ j : Fin 64, r2 j * w2 j) + c2
        else (∑ j : Fin 64, r3 j * w3 j) + c3 := by
  have he := e.isLt
  by_cases h0 : e.val = 0
  · rw [if_pos h0]; exact dense_W3bd_blk0 w0 w1 w2 w3 r0 r1 r2 r3 c0 c1 c2 c3 e h0
  · by_cases h1 : e.val = 1
    · rw [if_neg h0, if_pos h1]; exact dense_W3bd_blk1 w0 w1 w2 w3 r0 r1 r2 r3 c0 c1 c2 c3 e h1
    · by_cases h2 : e.val = 2
      · rw [if_neg h0, if_neg h1, if_pos h2]; exact dense_W3bd_blk2 w0 w1 w2 w3 r0 r1 r2 r3 c0 c1 c2 c3 e h2
      · rw [if_neg h0, if_neg h1, if_neg h2]
        exact dense_W3bd_blk3 w0 w1 w2 w3 r0 r1 r2 r3 c0 c1 c2 c3 e (by omega)

end W3

/-! ## The fused network is the four experts -/

/-- Entry \`e\` of the fused network's output, built from the experts' weights, is expert \`e\`'s output.  Layer by layer:
    the first layer gives the experts' first hidden vectors end to end; the block-diagonal second layer lets each block of
    columns see only its own expert's vector, because every other product has a zero factor; the third layer likewise. -/
theorem fused_eq_experts (x : Fin 2048 → EReal)
    (w10 w11 : Fin 2048 → Fin 64 → EReal) (w12 w13 : Fin 2048 → Fin 128 → EReal)
    (c10 c11 : Fin 64 → EReal) (c12 c13 : Fin 128 → EReal)
    (w20 w21 : Fin 64 → Fin 32 → EReal) (w22 w23 : Fin 128 → Fin 64 → EReal)
    (c20 c21 : Fin 32 → EReal) (c22 c23 : Fin 64 → EReal)
    (w30 w31 : Fin 32 → EReal) (w32 w33 : Fin 64 → EReal) (c30 c31 c32 c33 : EReal) (e : Fin 4) :
    fused x (W1cat w10 w11 w12 w13) (cat384 c10 c11 c12 c13) (W2bd w20 w21 w22 w23) (cat192 c20 c21 c22 c23)
        (W3bd w30 w31 w32 w33) (b3cat c30 c31 c32 c33) e
      = if e.val = 0 then expert x w10 c10 w20 c20 w30 c30
        else if e.val = 1 then expert x w11 c11 w21 c21 w31 c31
        else if e.val = 2 then expert x w12 c12 w22 c22 w32 c32
        else expert x w13 c13 w23 c23 w33 c33 := by
  have h1 : (fun k => relu (dense x (W1cat w10 w11 w12 w13) (cat384 c10 c11 c12 c13) k))
      = cat384 (fun i => relu (dense x w10 c10 i)) (fun i => relu (dense x w11 c11 i))
          (fun i => relu (dense x w12 c12 i)) (fun i => relu (dense x w13 c13 i)) := by
    funext k
    rw [dense_W1cat]
    exact cat384_comp relu _ _ _ _ k
  have h2 : (fun j => relu (dense
        (cat384 (fun i => relu (dense x w10 c10 i)) (fun i => relu (dense x w11 c11 i))
          (fun i => relu (dense x w12 c12 i)) (fun i => relu (dense x w13 c13 i)))
        (W2bd w20 w21 w22 w23) (cat192 c20 c21 c22 c23) j))
      = cat192 (fun j => relu (dense (fun i => relu (dense x w10 c10 i)) w20 c20 j))
          (fun j => relu (dense (fun i => relu (dense x w11 c11 i)) w21 c21 j))
          (fun j => relu (dense (fun i => relu (dense x w12 c12 i)) w22 c22 j))
          (fun j => relu (dense (fun i => relu (dense x w13 c13 i)) w23 c23 j)) := by
    funext j
    rw [dense_W2bd]
    exact cat192_comp relu _ _ _ _ j
  unfold fused
  rw [h1, h2, dense_W3bd]
  rfl

/-! ## Selecting by the one-hot of the clipped label -/

/-- The sum of the four outputs against the one-hot of the clipped label, times the validity flag, is the picked output
    for a valid label and zero otherwise.  A product with zero is zero on the extended reals whatever the other factor,
    so the three unpicked terms drop out, and so does everything when the flag is zero. -/
theorem selectRow_eq_result (O : Fin 4 → EReal) (l : BitVec 32) : selectRow O l = result O l := by
  unfold selectRow result
  by_cases hv : validBit l = 1
  · rw [if_pos hv, if_pos hv, mul_one, Finset.sum_eq_single (slot l)]
    · rw [if_pos ((ofNat_eq_clipWord_iff l (slot l)).2 rfl), mul_one]
    · intro b _ hb
      rw [if_neg (fun h => hb ((ofNat_eq_clipWord_iff l b).1 h)), mul_zero]
    · intro h
      exact absurd (Finset.mem_univ _) h
  · rw [if_neg hv, if_neg hv, mul_zero]

end Cert.Decoders
-- ==== Proof.KernelValue.lean ====
/-
  The array the fused program ends with is the specification's result array.

  The region's blocks tile the result: row `r` of the array is the fused network on row `r` of the features, taken against
  the one-hot of the clipped label of row `r`, summed, times that row's validity flag.  The arrays the region stages are
  what the host operations before it built from the launch arrays: the first-layer weights side by side, the second and
  third layers block-diagonal with zeros elsewhere, the biases end to end, the labels clipped, the flag one exactly where the
  label lies in 0 … 3.  On such stacked weights output `e` of the fused network is expert `e`'s output (a product with a
  zero entry vanishes whatever the other factor), and the one-hot sum times the flag picks the label's expert when the label
  is valid and gives zero otherwise.  So the row is the specification's row.
-/
import proofs.«426415_j40561671143598_2_alg».proof.Proof.FrameKI
import proofs.«426415_j40561671143598_2_alg».proof.Proof.Spec
import proofs.«426415_j40561671143598_2_alg».proof.Proof.KernelBlocks
import proofs.«426415_j40561671143598_2_alg».proof.Proof.HostCat
import proofs.«426415_j40561671143598_2_alg».proof.Proof.HostScatter
import proofs.«426415_j40561671143598_2_alg».proof.Proof.Bridge
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Hand Cert.Decoders
open Idealize.ShloMosaic Idealize.ShloMosaic.TcCoe Idealize.SL.Sem Idealize.ShloMosaic.ValueIdx
open Idealize.ShloMosaic.Pipeline (Dat)

/-- The mathematics, over any arrays: when the staged weights are the experts' stacked (side by side, block-diagonal with
    zeros elsewhere, biases end to end), the staged label column is the clipped label and the staged flag column is one
    exactly on valid labels, the fused network against the one-hot of the clipped label, times the flag, is row by row the
    specification's result: the label's expert on that row when the label is valid, zero otherwise. -/
theorem rows_eq_G (x : S65536x2048.Idx → EReal) (lab : S65536x1.Idx → BitVec 32) (val : S65536x1.Idx → EReal)
    (w1 : S2048x384.Idx → EReal) (b1 : S384.Idx → EReal) (w2 : S384x192.Idx → EReal) (b2 : S192.Idx → EReal)
    (w3 : S192x4.Idx → EReal) (b3 : S4.Idx → EReal)
    (a0 : S65536x2048.Idx → EReal) (a1 : S65536.Idx → BitVec 32) (a2 : S2048x64.Idx → EReal) (a3 : S64.Idx → EReal) (a4 : S64x32.Idx → EReal) (a5 : S32.Idx → EReal) (a6 : S32x1.Idx → EReal) (a7 : S1.Idx → EReal) (a8 : S2048x64.Idx → EReal) (a9 : S64.Idx → EReal) (a10 : S64x32.Idx → EReal) (a11 : S32.Idx → EReal) (a12 : S32x1.Idx → EReal) (a13 : S1.Idx → EReal) (a14 : S2048x128.Idx → EReal) (a15 : S128.Idx → EReal) (a16 : S128x64.Idx → EReal) (a17 : S64.Idx → EReal) (a18 : S64x1.Idx → EReal) (a19 : S1.Idx → EReal) (a20 : S2048x128.Idx → EReal) (a21 : S128.Idx → EReal) (a22 : S128x64.Idx → EReal) (a23 : S64.Idx → EReal) (a24 : S64x1.Idx → EReal) (a25 : S1.Idx → EReal)
    (h0 : x = a0)
    (h1 : mat w1 = W1cat (mat a2) (mat a8) (mat a14) (mat a20))
    (h2 : vec b1 = cat384 (vec a3) (vec a9) (vec a15) (vec a21))
    (h3 : mat w2 = W2bd (mat a4) (mat a10) (mat a16) (mat a22))
    (h4 : vec b2 = cat192 (vec a5) (vec a11) (vec a17) (vec a23))
    (h5 : mat w3 = W3bd (col a6) (col a12) (col a18) (col a24))
    (h6 : vec b3 = b3cat (a7 (ix1 0)) (a13 (ix1 0)) (a19 (ix1 0)) (a25 (ix1 0)))
    (hl : ∀ r : Fin 65536, lab (ix2 r 0) = clipWord (a1 (ix1 r)))
    (hv : ∀ r : Fin 65536, val (ix2 r 0) = if validBit (a1 (ix1 r)) = 1 then (1 : EReal) else 0) :
    KBlocks.KG x lab val w1 b1 w2 b2 w3 b3 = G a0 a1 a2 a3 a4 a5 a6 a7 a8 a9 a10 a11 a12 a13 a14 a15 a16 a17 a18 a19 a20 a21 a22 a23 a24 a25 := by
  subst h0
  funext i
  show (∑ e : Fin 4, fused (fun d => x (ix2 (i 0) d)) (mat w1) (vec b1) (mat w2) (vec b2) (mat w3) (vec b3) e
          * (if BitVec.ofNat 32 e.val = lab (ix2 (i 0) 0) then (1 : EReal) else 0)) * val (ix2 (i 0) 0)
      = result (experts (fun d => x (ix2 (i 0) d)) a2 a3 a4 a5 a6 a7 a8 a9 a10 a11 a12 a13 a14 a15 a16 a17 a18 a19 a20 a21 a22 a23 a24 a25) (a1 (ix1 (i 0)))
  rw [h1, h2, h3, h4, h5, h6, hl (i 0), hv (i 0)]
  refine (selectRow_eq_result _ (a1 (ix1 (i 0)))).trans ?_
  refine congrArg (fun O => result O (a1 (ix1 (i 0)))) (funext fun e => ?_)
  unfold experts
  exact fused_eq_experts _ _ _ _ _ _ _ _ _ _ _ _ _ _ _ _ _ _ _ _ _ _ _ _ _ e

variable (m : (ℓ : Loc nD τ sig) → Buf (Elt Ideal) ℓ)

/-- The arrays the region stages are exactly such stacked arrays of the launch arrays, so the array the blocks tile is
    the specification's result of the twenty-six launch arrays. -/
theorem KG_eq_G (c : Dev nD) :
    KBlocks.KG (V m c main_arg0) (V m c main_v59) (V m c main_v57) (V m c main_v1) (V m c main_v2) (V m c main_v23)
        (V m c main_v24) (V m c main_v49) (V m c main_v50)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  rows_eq_G _ _ _ _ _ _ _ _ _ _ _ _ _ _ _ _ _ _ _ _ _ _ _ _ _ _ _ _ _ _ _ _ _ _ _
    (V_main_arg0 m c)
    (funext fun d => funext fun k => HostCat.v1_apply m c d k)
    (funext fun k => HostCat.v2_apply m c k)
    (funext fun k => funext fun j => HostScatter.v23_apply m c k j)
    (funext fun j => HostCat.v24_apply m c j)
    (funext fun j => funext fun e => HostScatter.v49_apply m c j e)
    (funext fun e => HostCat.v50_apply m c e)
    (fun r => HostCat.v59_apply m c r)
    (fun r => HostCat.v57_apply m c r)

/-! ## The run -/

/-- Every fair execution of the program terminates; the result array ends as the specification's result of the launch
    arrays, and the twenty-six launch arrays end as launched: the feature array is only read by the region, and neither the
    region nor a host operation writes any of the other twenty-five. -/
theorem run (ρ : Dev nD → PrngReg) :
    θ_run defs (onTc (τ := τ) (main (F := Ideal))) ⟨m, fun _ => 0, ρ⟩ fun r => ∀ c : Dev nD,
      r.2.mem ((c.tc : Thread nD τ).loc main_v60) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun r h c => ⟨((h c).1 9).trans ((KBlocks.final9 m c).trans (KG_eq_G m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c)⟩)
    (run_main m ρ)

end Cert.KernelIdeal.KValue

end
-- ==== Proof.LibGatherRows.lean ====
import Idealize.ShloMosaic.PureOps.ShapeOps
import Idealize.ShloMosaic.Lib.ValueIdx

/-! A row-wise take: a gather whose operand [R, C] and start indices [R, P, 1] share their first axis as a batching axis,
    and whose one-component start index names the operand's column. Result element (r, p) is the operand's row r at
    the column idx[r, p, 0], read signed and clamped into [0, C - 1]. -/

namespace Cert.GatherRows

open Idealize.ShloMosaic Idealize.ShloMosaic.ValueIdx

variable {α : Type} {R C P w : Nat}

/-- THE ROW-WISE TAKE READ AT (r, p): the operand's row r at the column idx[r, p, 0], read signed and clamped into
    [0, C - 1]. The row axis is a batching axis (start 0, batching coordinate the result's row, no offset); the column
    axis is collapsed (the clamped start index, no batching coordinate, no offset). -/
theorem gather_rows_apply (hC : 0 < C) (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P) :
    Host.gather d x idx (ix2 r p)
      = x (ix2 r ⟨min (idx (ix3 r p (0 : Fin 1))).toInt.toNat (C - 1), by omega⟩) := by
  obtain ⟨od, cs, ob, sb, sim, iv, ss, wf⟩ := d
  simp only at h1 h2 h3 h4 h5 h6 h7
  subst h1 h2 h3 h4 h5 h6 h7
  unfold Host.gather
  congr 1
  funext a
  refine Fin.ext ?_
  have m00 : (0 : Fin 2) ∈ ([0] : List (Fin 2)) := List.mem_singleton.mpr rfl
  have m11 : (1 : Fin 2) ∈ ([1] : List (Fin 2)) := List.mem_singleton.mpr rfl
  have n10 : (1 : Fin 2) ∉ ([0] : List (Fin 2)) := by decide
  match a with
  | ⟨0, _⟩ =>
    show GatherDims.start _ (ix2 r p) idx 0 + GatherDims.batchCoord _ (ix2 r p) 0 + GatherDims.offCoord _ (ix2 r p) 0 = r.val
    rw [GatherDims.start_batching _ _ _ _ m00,
      GatherDims.offCoord_eq_zero _ _ _ (fun h => ((GatherDims.mem_sKept _ _).mp h).2 m00)]
    unfold GatherDims.batchCoord
    rw [dif_pos m00]
    simp only [Nat.zero_add, Nat.add_zero]
    rfl
  | ⟨1, _⟩ =>
    show GatherDims.start _ (ix2 r p) idx 1 + GatherDims.batchCoord _ (ix2 r p) 1 + GatherDims.offCoord _ (ix2 r p) 1 = _
    rw [GatherDims.batchCoord_eq_zero _ _ _ n10,
      GatherDims.offCoord_eq_zero _ _ _ (fun h => ((GatherDims.mem_sKept _ _).mp h).1 m11)]
    simp only [Nat.add_zero]
    unfold GatherDims.start
    rw [dif_pos m11]
    have hsi : ∀ c, GatherDims.siIdx (s := ⟨2, ![R, C]⟩) (si := ⟨3, ![R, P, 1]⟩) (t := ⟨2, ![R, P]⟩)
        ⟨[], [1], [0], [0], [1], 2, ![1, 1], wf⟩ (ix2 r p) c = ix3 r p (0 : Fin 1) := by
      intro c
      funext b; refine Fin.ext ?_
      match b with
      | ⟨0, _⟩ => rfl
      | ⟨1, _⟩ => rfl
      | ⟨2, _⟩ => have := c.isLt; simp only [List.length_singleton] at this; show c.val = 0; omega
    rw [hsi]
    rfl

/-- The row-wise take read at (r, p) when the start index idx[r, p, 0], read signed, is a column's number: the
    operand's entry at row r and that column. -/
theorem gather_rows_apply_of_lt (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P)
    (h0 : 0 ≤ (idx (ix3 r p (0 : Fin 1))).toInt) (hlt : (idx (ix3 r p (0 : Fin 1))).toInt < (C : Int)) :
    Host.gather d x idx (ix2 r p) = x (ix2 r ⟨(idx (ix3 r p (0 : Fin 1))).toInt.toNat, by omega⟩) := by
  have hC : 0 < C := by omega
  rw [gather_rows_apply hC d h1 h2 h3 h4 h5 h6 h7 x idx r p]
  congr 2
  apply Fin.ext
  show min (idx (ix3 r p (0 : Fin 1))).toInt.toNat (C - 1) = (idx (ix3 r p (0 : Fin 1))).toInt.toNat
  omega

end Cert.GatherRows
-- ==== Proof.RefOps.lean ====
/-
  Two operations of the reference's row-wise selection, read at one row.

  The reference picks, for each row, one of four outputs by an index word.  Two steps of that selection are read here at
  a row \`r\`: the reduction by "and" of a mask over an axis of extent one (it returns the mask's entry), and the row-wise
  take itself (for an index word whose signed value lies in 0 … 3 it returns the entry of row \`r\` at that column).
-/
import proofs.«426415_j40561671143598_2_alg».proof.ReferenceIdeal
import proofs.«426415_j40561671143598_2_alg».proof.Proof.LibGatherRows
import Idealize.ShloMosaic.PureOps.Reduce
import Idealize.ShloMosaic.Lib.ValueIdx

namespace Cert.ReferenceIdeal.RefOps

open Idealize.ShloMosaic Idealize.ShloMosaic.ValueIdx

variable [Facts₀]
open Facts₀

/-- On one-bit words, "and" with the bit one changes nothing. -/
theorem and_one_bit (b : BitVec 1) : IntOp.andi b 1#1 = b := by
  revert b; decide

/-- A fold of "and" from the bit one over an axis with a single coordinate is the single entry. -/
theorem fold_and_single (f : Fin (S65536x1x1.size 2) → BitVec 1) :
    (Finset.univ : Finset (Fin (S65536x1x1.size 2))).fold IntOp.andi 1#1 f = f ⟨0, by decide⟩ := by
  haveI : Unique (Fin (S65536x1x1.size 2)) := (inferInstance : Unique (Fin 1))
  rw [Finset.univ_unique, Finset.fold_singleton, and_one_bit]
  exact congrArg f (Subsingleton.elim _ _)

/-- The reduction by "and" over the last axis, whose extent is one, starting from the bit one, read at row \`r\`: the
    mask's only entry of that row. -/
theorem reduce_and_apply (msk : IVec S65536x1x1 1) (r : Fin 65536) :
    Host.reduce IntOp.andi msk (constantI S_ 1 1#1) reducesTo_S65536x1x1_S65536x1_d2 h_S_ (ix2 r 0) = msk (ix3 r 0 0) := by
  have h : S65536x1x1.Reduces [2] S65536x1 := by decide
  rw [Host.reduce_eq_fold_single IntOp.andi msk _ reducesTo_S65536x1x1_S65536x1_d2 h h_S_ (ix2 r 0)]
  refine (fold_and_single (msk ∘ h.lift (ix2 r 0))).trans ?_
  show msk (h.lift (ix2 r 0) ⟨0, _⟩) = msk (ix3 r 0 0)
  congr 1
  funext c
  apply Fin.ext
  match c with
  | ⟨0, _⟩ => rfl
  | ⟨1, _⟩ => rfl
  | ⟨2, _⟩ => rfl

/-- The row-wise take read at row \`r\` when the row's index word, read signed, lies in 0 … 3: the operand's entry of that
    row at the column the word names.  The take clamps a start index into the operand's columns; a word already in
    range is left as it is, and read as a natural number it is below four. -/
theorem gather_apply {α : Type} (x : S65536x4.Idx → α) (idx : IVec S65536x1x1 32) (r : Fin 65536)
    (h : 0 ≤ (idx (ix3 r 0 0)).toInt ∧ (idx (ix3 r 0 0)).toInt ≤ 3) :
    Host.gather gather_S65536x4_S65536x1x1_S65536x1_n_1_0_0_1_2_11 x idx (ix2 r 0)
      = x (ix2 r ⟨(idx (ix3 r 0 0)).toNat % 4, Nat.mod_lt _ (by decide)⟩) := by
  rw [Cert.GatherRows.gather_rows_apply_of_lt (R := 65536) (C := 4) (P := 1)
    gather_S65536x4_S65536x1x1_S65536x1_n_1_0_0_1_2_11 rfl rfl rfl rfl rfl rfl rfl x idx r 0 h.1 (by omega)]
  congr 2
  apply Fin.ext
  show (idx (ix3 r 0 0)).toInt.toNat = (idx (ix3 r 0 0)).toNat % 4
  have hlt := (idx (ix3 r 0 0)).isLt
  obtain ⟨h0, h3⟩ := h
  rw [BitVec.toInt_eq_toNat_cond] at h0 h3 ⊢
  split at h0 <;> omega

end Cert.ReferenceIdeal.RefOps
-- ==== Proof.RefValue.lean ====
/-
  The reference's result, row by row, is the specification.

  The reference runs four three-layer decoders on the feature rows, lays their four output columns side by side, and for
  each row takes the column named by the row's label clipped to 0 … 3; a last selection keeps that value when the label
  itself lies in 0 … 3 and puts zero otherwise.

  Read at row `r`: each decoder's column is its expert applied to row `r` of the features (a dense layer at a row is a
  sum over the contracted axis plus a bias entry, the rectifier a maximum with zero). The take's own guards are vacuous:
  the clipped label is never negative, so its wrap-around adds nothing, and it is always in range, so the in-range mask
  is one and the not-a-number filler is never chosen. What remains is the picked expert's output under the validity
  bit, which is the specification's `result`.
-/
import proofs.«426415_j40561671143598_2_alg».proof.Proof.RefRead
import proofs.«426415_j40561671143598_2_alg».proof.Proof.Spec
import proofs.«426415_j40561671143598_2_alg».proof.Proof.Labels
import proofs.«426415_j40561671143598_2_alg».proof.Proof.RefOps
import proofs.«426415_j40561671143598_2_alg».proof.Proof.LibConcat4
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Decoders Cert.ReferenceIdeal.ReadP
open scoped BigOperators

/-! ## The four decoders, one row at a time

Each decoder is three dense layers. Read at row `r`, a dense layer is a sum over the contracted axis of the row of its
input against a column of its weights, plus the bias entry of that column; the rectifier is a maximum with zero. The
index maps below say, for each layer, which entry of which array a product reads. -/

/-- First decoder, last layer: the row of the hidden activations that output row `r` reads. -/
theorem d0_l3 (r : Fin 65536) (k : Fin 32) : lidx_main_v10 (ix2 r 0) k = ix2 r k := by
  funext a; match a with | ⟨0, _⟩ => rfl | ⟨1, _⟩ => rfl
/-- First decoder, last layer: the entry of the weight column. -/
theorem d0_r3 (r : Fin 65536) (k : Fin 32) : ridx_main_v10 (ix2 r 0) k = ix2 k 0 := by
  funext a; match a with | ⟨0, _⟩ => rfl | ⟨1, _⟩ => rfl
/-- First decoder, middle layer: input row. -/
theorem d0_l2 (r : Fin 65536) (k : Fin 32) (j : Fin 64) : lidx_main_v5 (ix2 r k) j = ix2 r j := by
  funext a; match a with | ⟨0, _⟩ => rfl | ⟨1, _⟩ => rfl
/-- First decoder, middle layer: weight entry. -/
theorem d0_r2 (r : Fin 65536) (k : Fin 32) (j : Fin 64) : ridx_main_v5 (ix2 r k) j = ix2 j k := by
  funext a; match a with | ⟨0, _⟩ => rfl | ⟨1, _⟩ => rfl
/-- First decoder, first layer: feature row. -/
theorem d0_l1 (r : Fin 65536) (j : Fin 64) (d : Fin 2048) : lidx_main_v0 (ix2 r j) d = ix2 r d := by
  funext a; match a with | ⟨0, _⟩ => rfl | ⟨1, _⟩ => rfl
/-- First decoder, first layer: weight entry. -/
theorem d0_r1 (r : Fin 65536) (j : Fin 64) (d : Fin 2048) : ridx_main_v0 (ix2 r j) d = ix2 d j := by
  funext a; match a with | ⟨0, _⟩ => rfl | ⟨1, _⟩ => rfl
/-- First decoder: the bias entry each layer adds in column `j` (the bias is spread over the rows). -/
theorem d0_b1 (r : Fin 65536) (j : Fin 64) : idx_main_v1 (idx_main_v2 (ix2 r j)) = ix1 j := by
  funext a; match a with | ⟨0, _⟩ => rfl
theorem d0_b2 (r : Fin 65536) (k : Fin 32) : idx_main_v6 (idx_main_v7 (ix2 r k)) = ix1 k := by
  funext a; match a with | ⟨0, _⟩ => rfl
theorem d0_b3 (r : Fin 65536) : idx_main_v11 (idx_main_v12 (ix2 r 0)) = ix1 0 := by
  funext a; match a with | ⟨0, _⟩ => rfl

/-- Row `r` of the first decoder's output column is the first expert on row `r` of the features. -/
theorem decoder0_row (x0 : (⟨S65536x2048, .f32⟩ : BufTy).Contents (Elt Ideal)) (x2 : (⟨S2048x64, .f32⟩ : BufTy).Contents (Elt Ideal))
    (x3 : (⟨S64, .f32⟩ : BufTy).Contents (Elt Ideal)) (x4 : (⟨S64x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (r : Fin 65536) :
    val_main_v13 (F := Ideal) x0 x2 x3 x4 x5 x6 x7 (ix2 r 0)
      = expert (fun d => x0 (ix2 r d)) (mat x2) (vec x3) (mat x4) (vec x5) (col x6) (x7 (ix1 0)) := by
  simp only [val_main_v13_apply, val_main_v10_apply, d0_l3, d0_r3, val_main_v9_apply, val_main_v8_apply, val_main_v5_apply,
    d0_l2, d0_r2, val_main_v4_apply, val_main_v3_apply, val_main_v0_apply, d0_l1, d0_r1, val_main_v2_apply, val_main_v1_apply,
    d0_b1, val_main_v7_apply, val_main_v6_apply, d0_b2, val_main_v12_apply, val_main_v11_apply, d0_b3,
    val_main_call0_v0_apply, val_main_call0_cst_apply, val_main_call1_v0_apply, val_main_call1_cst_apply,
    Ideal.addf_def, Ideal.maximumf_def, Ideal.ofBits_def, Ideal.ofBits_zero_f32]
  rfl

/-- Second decoder: the same index maps (hidden widths 64 and 32). -/
theorem d1_l3 (r : Fin 65536) (k : Fin 32) : lidx_main_v24 (ix2 r 0) k = ix2 r k := by
  funext a; match a with | ⟨0, _⟩ => rfl | ⟨1, _⟩ => rfl
theorem d1_r3 (r : Fin 65536) (k : Fin 32) : ridx_main_v24 (ix2 r 0) k = ix2 k 0 := by
  funext a; match a with | ⟨0, _⟩ => rfl | ⟨1, _⟩ => rfl
theorem d1_l2 (r : Fin 65536) (k : Fin 32) (j : Fin 64) : lidx_main_v19 (ix2 r k) j = ix2 r j := by
  funext a; match a with | ⟨0, _⟩ => rfl | ⟨1, _⟩ => rfl
theorem d1_r2 (r : Fin 65536) (k : Fin 32) (j : Fin 64) : ridx_main_v19 (ix2 r k) j = ix2 j k := by
  funext a; match a with | ⟨0, _⟩ => rfl | ⟨1, _⟩ => rfl
theorem d1_l1 (r : Fin 65536) (j : Fin 64) (d : Fin 2048) : lidx_main_v14 (ix2 r j) d = ix2 r d := by
  funext a; match a with | ⟨0, _⟩ => rfl | ⟨1, _⟩ => rfl
theorem d1_r1 (r : Fin 65536) (j : Fin 64) (d : Fin 2048) : ridx_main_v14 (ix2 r j) d = ix2 d j := by
  funext a; match a with | ⟨0, _⟩ => rfl | ⟨1, _⟩ => rfl
theorem d1_b1 (r : Fin 65536) (j : Fin 64) : idx_main_v15 (idx_main_v16 (ix2 r j)) = ix1 j := by
  funext a; match a with | ⟨0, _⟩ => rfl
theorem d1_b2 (r : Fin 65536) (k : Fin 32) : idx_main_v20 (idx_main_v21 (ix2 r k)) = ix1 k := by
  funext a; match a with | ⟨0, _⟩ => rfl
theorem d1_b3 (r : Fin 65536) : idx_main_v25 (idx_main_v26 (ix2 r 0)) = ix1 0 := by
  funext a; match a with | ⟨0, _⟩ => rfl

/-- Row `r` of the second decoder's output column is the second expert on row `r` of the features. -/
theorem decoder1_row (x0 : (⟨S65536x2048, .f32⟩ : BufTy).Contents (Elt Ideal)) (x8 : (⟨S2048x64, .f32⟩ : BufTy).Contents (Elt Ideal))
    (x9 : (⟨S64, .f32⟩ : BufTy).Contents (Elt Ideal)) (x10 : (⟨S64x32, .f32⟩ : BufTy).Contents (Elt Ideal))
    (x11 : (⟨S32, .f32⟩ : BufTy).Contents (Elt Ideal)) (x12 : (⟨S32x1, .f32⟩ : BufTy).Contents (Elt Ideal))
    (x13 : (⟨S1, .f32⟩ : BufTy).Contents (Elt Ideal)) (r : Fin 65536) :
    val_main_v27 (F := Ideal) x0 x8 x9 x10 x11 x12 x13 (ix2 r 0)
      = expert (fun d => x0 (ix2 r d)) (mat x8) (vec x9) (mat x10) (vec x11) (col x12) (x13 (ix1 0)) := by
  simp only [val_main_v27_apply, val_main_v24_apply, d1_l3, d1_r3, val_main_v23_apply, val_main_v22_apply, val_main_v19_apply,
    d1_l2, d1_r2, val_main_v18_apply, val_main_v17_apply, val_main_v14_apply, d1_l1, d1_r1, val_main_v16_apply, val_main_v15_apply,
    d1_b1, val_main_v21_apply, val_main_v20_apply, d1_b2, val_main_v26_apply, val_main_v25_apply, d1_b3,
    val_main_call2_v0_apply, val_main_call2_cst_apply, val_main_call3_v0_apply, val_main_call3_cst_apply,
    Ideal.addf_def, Ideal.maximumf_def, Ideal.ofBits_def, Ideal.ofBits_zero_f32]
  rfl

/-- Third decoder: the same index maps (hidden widths 128 and 64). -/
theorem d2_l3 (r : Fin 65536) (k : Fin 64) : lidx_main_v38 (ix2 r 0) k = ix2 r k := by
  funext a; match a with | ⟨0, _⟩ => rfl | ⟨1, _⟩ => rfl
theorem d2_r3 (r : Fin 65536) (k : Fin 64) : ridx_main_v38 (ix2 r 0) k = ix2 k 0 := by
  funext a; match a with | ⟨0, _⟩ => rfl | ⟨1, _⟩ => rfl
theorem d2_l2 (r : Fin 65536) (k : Fin 64) (j : Fin 128) : lidx_main_v33 (ix2 r k) j = ix2 r j := by
  funext a; match a with | ⟨0, _⟩ => rfl | ⟨1, _⟩ => rfl
theorem d2_r2 (r : Fin 65536) (k : Fin 64) (j : Fin 128) : ridx_main_v33 (ix2 r k) j = ix2 j k := by
  funext a; match a with | ⟨0, _⟩ => rfl | ⟨1, _⟩ => rfl
theorem d2_l1 (r : Fin 65536) (j : Fin 128) (d : Fin 2048) : lidx_main_v28 (ix2 r j) d = ix2 r d := by
  funext a; match a with | ⟨0, _⟩ => rfl | ⟨1, _⟩ => rfl
theorem d2_r1 (r : Fin 65536) (j : Fin 128) (d : Fin 2048) : ridx_main_v28 (ix2 r j) d = ix2 d j := by
  funext a; match a with | ⟨0, _⟩ => rfl | ⟨1, _⟩ => rfl
theorem d2_b1 (r : Fin 65536) (j : Fin 128) : idx_main_v29 (idx_main_v30 (ix2 r j)) = ix1 j := by
  funext a; match a with | ⟨0, _⟩ => rfl
theorem d2_b2 (r : Fin 65536) (k : Fin 64) : idx_main_v34 (idx_main_v35 (ix2 r k)) = ix1 k := by
  funext a; match a with | ⟨0, _⟩ => rfl
theorem d2_b3 (r : Fin 65536) : idx_main_v39 (idx_main_v40 (ix2 r 0)) = ix1 0 := by
  funext a; match a with | ⟨0, _⟩ => rfl

/-- Row `r` of the third decoder's output column is the third expert on row `r` of the features. -/
theorem decoder2_row (x0 : (⟨S65536x2048, .f32⟩ : BufTy).Contents (Elt Ideal)) (x14 : (⟨S2048x128, .f32⟩ : BufTy).Contents (Elt Ideal))
    (x15 : (⟨S128, .f32⟩ : BufTy).Contents (Elt Ideal)) (x16 : (⟨S128x64, .f32⟩ : BufTy).Contents (Elt Ideal))
    (x17 : (⟨S64, .f32⟩ : BufTy).Contents (Elt Ideal)) (x18 : (⟨S64x1, .f32⟩ : BufTy).Contents (Elt Ideal))
    (x19 : (⟨S1, .f32⟩ : BufTy).Contents (Elt Ideal)) (r : Fin 65536) :
    val_main_v41 (F := Ideal) x0 x14 x15 x16 x17 x18 x19 (ix2 r 0)
      = expert (fun d => x0 (ix2 r d)) (mat x14) (vec x15) (mat x16) (vec x17) (col x18) (x19 (ix1 0)) := by
  simp only [val_main_v41_apply, val_main_v38_apply, d2_l3, d2_r3, val_main_v37_apply, val_main_v36_apply, val_main_v33_apply,
    d2_l2, d2_r2, val_main_v32_apply, val_main_v31_apply, val_main_v28_apply, d2_l1, d2_r1, val_main_v30_apply, val_main_v29_apply,
    d2_b1, val_main_v35_apply, val_main_v34_apply, d2_b2, val_main_v40_apply, val_main_v39_apply, d2_b3,
    val_main_call4_v0_apply, val_main_call4_cst_apply, val_main_call5_v0_apply, val_main_call5_cst_apply,
    Ideal.addf_def, Ideal.maximumf_def, Ideal.ofBits_def, Ideal.ofBits_zero_f32]
  rfl

/-- Fourth decoder: the same index maps (hidden widths 128 and 64). -/
theorem d3_l3 (r : Fin 65536) (k : Fin 64) : lidx_main_v52 (ix2 r 0) k = ix2 r k := by
  funext a; match a with | ⟨0, _⟩ => rfl | ⟨1, _⟩ => rfl
theorem d3_r3 (r : Fin 65536) (k : Fin 64) : ridx_main_v52 (ix2 r 0) k = ix2 k 0 := by
  funext a; match a with | ⟨0, _⟩ => rfl | ⟨1, _⟩ => rfl
theorem d3_l2 (r : Fin 65536) (k : Fin 64) (j : Fin 128) : lidx_main_v47 (ix2 r k) j = ix2 r j := by
  funext a; match a with | ⟨0, _⟩ => rfl | ⟨1, _⟩ => rfl
theorem d3_r2 (r : Fin 65536) (k : Fin 64) (j : Fin 128) : ridx_main_v47 (ix2 r k) j = ix2 j k := by
  funext a; match a with | ⟨0, _⟩ => rfl | ⟨1, _⟩ => rfl
theorem d3_l1 (r : Fin 65536) (j : Fin 128) (d : Fin 2048) : lidx_main_v42 (ix2 r j) d = ix2 r d := by
  funext a; match a with | ⟨0, _⟩ => rfl | ⟨1, _⟩ => rfl
theorem d3_r1 (r : Fin 65536) (j : Fin 128) (d : Fin 2048) : ridx_main_v42 (ix2 r j) d = ix2 d j := by
  funext a; match a with | ⟨0, _⟩ => rfl | ⟨1, _⟩ => rfl
theorem d3_b1 (r : Fin 65536) (j : Fin 128) : idx_main_v43 (idx_main_v44 (ix2 r j)) = ix1 j := by
  funext a; match a with | ⟨0, _⟩ => rfl
theorem d3_b2 (r : Fin 65536) (k : Fin 64) : idx_main_v48 (idx_main_v49 (ix2 r k)) = ix1 k := by
  funext a; match a with | ⟨0, _⟩ => rfl
theorem d3_b3 (r : Fin 65536) : idx_main_v53 (idx_main_v54 (ix2 r 0)) = ix1 0 := by
  funext a; match a with | ⟨0, _⟩ => rfl

/-- Row `r` of the fourth decoder's output column is the fourth expert on row `r` of the features. -/
theorem decoder3_row (x0 : (⟨S65536x2048, .f32⟩ : BufTy).Contents (Elt Ideal)) (x20 : (⟨S2048x128, .f32⟩ : BufTy).Contents (Elt Ideal))
    (x21 : (⟨S128, .f32⟩ : BufTy).Contents (Elt Ideal)) (x22 : (⟨S128x64, .f32⟩ : BufTy).Contents (Elt Ideal))
    (x23 : (⟨S64, .f32⟩ : BufTy).Contents (Elt Ideal)) (x24 : (⟨S64x1, .f32⟩ : BufTy).Contents (Elt Ideal))
    (x25 : (⟨S1, .f32⟩ : BufTy).Contents (Elt Ideal)) (r : Fin 65536) :
    val_main_v55 (F := Ideal) x0 x20 x21 x22 x23 x24 x25 (ix2 r 0)
      = expert (fun d => x0 (ix2 r d)) (mat x20) (vec x21) (mat x22) (vec x23) (col x24) (x25 (ix1 0)) := by
  simp only [val_main_v55_apply, val_main_v52_apply, d3_l3, d3_r3, val_main_v51_apply, val_main_v50_apply, val_main_v47_apply,
    d3_l2, d3_r2, val_main_v46_apply, val_main_v45_apply, val_main_v42_apply, d3_l1, d3_r1, val_main_v44_apply, val_main_v43_apply,
    d3_b1, val_main_v49_apply, val_main_v48_apply, d3_b2, val_main_v54_apply, val_main_v53_apply, d3_b3,
    val_main_call6_v0_apply, val_main_call6_cst_apply, val_main_call7_v0_apply, val_main_call7_cst_apply,
    Ideal.addf_def, Ideal.maximumf_def, Ideal.ofBits_def, Ideal.ofBits_zero_f32]
  rfl

/-! ## The label's side, one row at a time

The label of row `r` is clipped to 0 … 3; the row-wise take then wraps a negative index by adding four (the clipped
label is never negative, so nothing is added), asks whether the index is in range (it always is) and reads the column the
index names. Separately the validity bit asks whether the label itself was in 0 … 3. -/

/-- The column index of row `r` comes from entry `r` of the label vector. -/
theorem lab_idx (r : Fin 65536) : idx_main_v58 (ix2 r 0) = ix1 r := by
  funext a; match a with | ⟨0, _⟩ => rfl
/-- The validity column of row `r` comes from entry `r` of the validity vector. -/
theorem valid_idx (r : Fin 65536) : idx_main_v65 (ix2 r 0) = ix1 r := by
  funext a; match a with | ⟨0, _⟩ => rfl
/-- Adding a unit axis does not move row `r`. -/
theorem unit_axis_idx (r : Fin 65536) : idx_main_call9_v5 (ix3 r 0 0) = ix2 r 0 := by
  funext a
  match a with
  | ⟨0, _⟩ => exact Fin.ext (by show ((r.val * 1 + 0) * 1 + 0) / 1 = r.val; omega)
  | ⟨1, _⟩ => rfl

/-- Row `r` of the clipped-label column is the clipped label of row `r`. -/
theorem clip_row (x1 : (⟨S65536, .i32⟩ : BufTy).Contents (Elt Ideal)) (r : Fin 65536) :
    val_main_v58 (F := Ideal) x1 (ix2 r 0) = clipWord (x1 (ix1 r)) := by
  rw [val_main_v58_apply, lab_idx, val_main_v57_apply, val_main_call8_v4_apply, val_main_call8_v3_apply, val_main_c_0_apply,
    val_main_call8_v2_apply, val_main_call8_v1_apply, val_main_call8_v0_apply, val_main_c_apply]
  rfl

/-- Row `r` of the validity column is the validity bit of the label of row `r`. -/
theorem valid_row (x1 : (⟨S65536, .i32⟩ : BufTy).Contents (Elt Ideal)) (r : Fin 65536) :
    val_main_v65 (F := Ideal) x1 (ix2 r 0) = validBit (x1 (ix1 r)) := by
  rw [val_main_v65_apply, valid_idx, val_main_v64_apply, val_main_v61_apply, val_main_v63_apply, val_main_v60_apply,
    val_main_c_1_apply, val_main_v62_apply, val_main_c_2_apply]
  rfl

/-- The wrapped index of row `r` is the clipped label itself: it is not negative, so four is not added. -/
theorem wrapped_row (x1 : (⟨S65536, .i32⟩ : BufTy).Contents (Elt Ideal)) (r : Fin 65536) :
    val_main_call9_v5 (F := Ideal) x1 (ix3 r 0 0) = clipWord (x1 (ix1 r)) := by
  rw [val_main_call9_v5_apply, unit_axis_idx, val_main_call9_v4_apply, val_main_call9_v1_apply, val_main_call9_v0_apply,
    val_main_call9_c_apply, clip_row, clipWord_not_slt_zero, select_zero]

/-- The in-range mask of row `r` is one: the clipped label is at least zero and at most three. -/
theorem inrange_row (x1 : (⟨S65536, .i32⟩ : BufTy).Contents (Elt Ideal)) (r : Fin 65536) :
    val_main_call9_v11 (F := Ideal) x1 (ix3 r 0 0) = 1#1 := by
  rw [val_main_call9_v11_apply, val_main_call9_v7_apply, val_main_call9_v10_apply, wrapped_row, val_main_call9_v6_apply,
    val_main_call9_c_2_apply, val_main_call9_v9_apply, val_main_call9_v8_apply, val_main_call9_c_1_apply,
    clipWord_sge_zero, clipWord_sle_three]
  rfl

/-! ## The four columns side by side, the take, and the result -/

/-- Column `e` of the four output columns laid side by side is expert `e` on row `r`. -/
theorem joined_row
    (x0 : (⟨S65536x2048, .f32⟩ : BufTy).Contents (Elt Ideal)) (x2 : (⟨S2048x64, .f32⟩ : BufTy).Contents (Elt Ideal))
    (x3 : (⟨S64, .f32⟩ : BufTy).Contents (Elt Ideal)) (x4 : (⟨S64x32, .f32⟩ : BufTy).Contents (Elt Ideal))
    (x5 : (⟨S32, .f32⟩ : BufTy).Contents (Elt Ideal)) (x6 : (⟨S32x1, .f32⟩ : BufTy).Contents (Elt Ideal))
    (x7 : (⟨S1, .f32⟩ : BufTy).Contents (Elt Ideal)) (x8 : (⟨S2048x64, .f32⟩ : BufTy).Contents (Elt Ideal))
    (x9 : (⟨S64, .f32⟩ : BufTy).Contents (Elt Ideal)) (x10 : (⟨S64x32, .f32⟩ : BufTy).Contents (Elt Ideal))
    (x11 : (⟨S32, .f32⟩ : BufTy).Contents (Elt Ideal)) (x12 : (⟨S32x1, .f32⟩ : BufTy).Contents (Elt Ideal))
    (x13 : (⟨S1, .f32⟩ : BufTy).Contents (Elt Ideal)) (x14 : (⟨S2048x128, .f32⟩ : BufTy).Contents (Elt Ideal))
    (x15 : (⟨S128, .f32⟩ : BufTy).Contents (Elt Ideal)) (x16 : (⟨S128x64, .f32⟩ : BufTy).Contents (Elt Ideal))
    (x17 : (⟨S64, .f32⟩ : BufTy).Contents (Elt Ideal)) (x18 : (⟨S64x1, .f32⟩ : BufTy).Contents (Elt Ideal))
    (x19 : (⟨S1, .f32⟩ : BufTy).Contents (Elt Ideal)) (x20 : (⟨S2048x128, .f32⟩ : BufTy).Contents (Elt Ideal))
    (x21 : (⟨S128, .f32⟩ : BufTy).Contents (Elt Ideal)) (x22 : (⟨S128x64, .f32⟩ : BufTy).Contents (Elt Ideal))
    (x23 : (⟨S64, .f32⟩ : BufTy).Contents (Elt Ideal)) (x24 : (⟨S64x1, .f32⟩ : BufTy).Contents (Elt Ideal))
    (x25 : (⟨S1, .f32⟩ : BufTy).Contents (Elt Ideal))
    (r : Fin 65536) (e : Fin 4) :
    val_main_v56 (F := Ideal) x0 x2 x3 x4 x5 x6 x7 x8 x9 x10 x11 x12 x13 x14 x15 x16 x17 x18 x19 x20 x21 x22 x23 x24 x25 (ix2 r e)
      = experts (fun d => x0 (ix2 r d)) x2 x3 x4 x5 x6 x7 x8 x9 x10 x11 x12 x13 x14 x15 x16 x17 x18 x19 x20 x21 x22 x23 x24 x25 e := by
  unfold val_main_v56
  match e with
  | ⟨0, _⟩ =>
    refine (Concat4.cols_apply_0 (R := 65536) (n0 := 1) (n1 := 1) (n2 := 1) (n3 := 1) (N := 4) _ _ _ _ _ r _ (0 : Fin 1) ?_).trans ?_
    · rfl
    · rw [decoder0_row]; rfl
  | ⟨1, _⟩ =>
    refine (Concat4.cols_apply_1 (R := 65536) (n0 := 1) (n1 := 1) (n2 := 1) (n3 := 1) (N := 4) _ _ _ _ _ r _ (0 : Fin 1) ?_).trans ?_
    · rfl
    · rw [decoder1_row]; rfl
  | ⟨2, _⟩ =>
    refine (Concat4.cols_apply_2 (R := 65536) (n0 := 1) (n1 := 1) (n2 := 1) (n3 := 1) (N := 4) _ _ _ _ _ r _ (0 : Fin 1) ?_).trans ?_
    · rfl
    · rw [decoder2_row]; rfl
  | ⟨3, _⟩ =>
    refine (Concat4.cols_apply_3 (R := 65536) (n0 := 1) (n1 := 1) (n2 := 1) (n3 := 1) (N := 4) _ _ _ _ _ r _ (0 : Fin 1) ?_).trans ?_
    · rfl
    · rw [decoder3_row]; rfl

/-- Row `r` of the reference's result: the in-range mask is one, so the take's value is kept; the take reads the column
    the clipped label names; and the outer selection keeps it exactly when the label is valid. -/
theorem ref_row
    (x0 : (⟨S65536x2048, .f32⟩ : BufTy).Contents (Elt Ideal)) (x1 : (⟨S65536, .i32⟩ : BufTy).Contents (Elt Ideal))
    (x2 : (⟨S2048x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal))
    (x6 : (⟨S32x1, .f32⟩ : BufTy).Contents (Elt Ideal)) (x7 : (⟨S1, .f32⟩ : BufTy).Contents (Elt Ideal))
    (x8 : (⟨S2048x64, .f32⟩ : BufTy).Contents (Elt Ideal)) (x9 : (⟨S64, .f32⟩ : BufTy).Contents (Elt Ideal))
    (x10 : (⟨S64x32, .f32⟩ : BufTy).Contents (Elt Ideal)) (x11 : (⟨S32, .f32⟩ : BufTy).Contents (Elt Ideal))
    (x12 : (⟨S32x1, .f32⟩ : BufTy).Contents (Elt Ideal)) (x13 : (⟨S1, .f32⟩ : BufTy).Contents (Elt Ideal))
    (x14 : (⟨S2048x128, .f32⟩ : BufTy).Contents (Elt Ideal)) (x15 : (⟨S128, .f32⟩ : BufTy).Contents (Elt Ideal))
    (x16 : (⟨S128x64, .f32⟩ : BufTy).Contents (Elt Ideal)) (x17 : (⟨S64, .f32⟩ : BufTy).Contents (Elt Ideal))
    (x18 : (⟨S64x1, .f32⟩ : BufTy).Contents (Elt Ideal)) (x19 : (⟨S1, .f32⟩ : BufTy).Contents (Elt Ideal))
    (x20 : (⟨S2048x128, .f32⟩ : BufTy).Contents (Elt Ideal)) (x21 : (⟨S128, .f32⟩ : BufTy).Contents (Elt Ideal))
    (x22 : (⟨S128x64, .f32⟩ : BufTy).Contents (Elt Ideal)) (x23 : (⟨S64, .f32⟩ : BufTy).Contents (Elt Ideal))
    (x24 : (⟨S64x1, .f32⟩ : BufTy).Contents (Elt Ideal)) (x25 : (⟨S1, .f32⟩ : BufTy).Contents (Elt Ideal))
    (r : Fin 65536) :
    val_main_v67 (F := Ideal) x0 x1 x2 x3 x4 x5 x6 x7 x8 x9 x10 x11 x12 x13 x14 x15 x16 x17 x18 x19 x20 x21 x22 x23 x24 x25 (ix2 r 0)
      = result (experts (fun d => x0 (ix2 r d)) x2 x3 x4 x5 x6 x7 x8 x9 x10 x11 x12 x13 x14 x15 x16 x17 x18 x19 x20 x21 x22 x23 x24 x25) (x1 (ix1 r)) := by
  rw [val_main_v67_apply, valid_row, val_main_v66_apply, val_main_cst_apply, val_main_v59_apply]
  unfold val_main_call9_v12 val_main_call9_c_3 val_main_call9_v13
  rw [RefOps.reduce_and_apply, inrange_row, select_one,
    RefOps.gather_apply _ _ r (by rw [wrapped_row]; exact clipWord_toInt_range _)]
  have hs : (⟨(val_main_call9_v5 (F := Ideal) x1 (ix3 r 0 0)).toNat % 4, Nat.mod_lt _ (by decide)⟩ : Fin 4)
      = slot (x1 (ix1 r)) := Fin.ext (by show _ % 4 = (slot _).val; rw [wrapped_row]; rfl)
  rw [hs, joined_row, Ideal.ofBits_def, Ideal.ofBits_zero_f32]
  rfl

/-- THE REFERENCE'S RESULT IS THE SPECIFICATION: whatever the memory at launch, the composed term of the reference's
    result buffer is `G` of the twenty-six argument arrays. -/
theorem ref_result_eq (m : (ℓ : Loc nD τ sig) → Buf (Elt Ideal) ℓ) (c : Dev nD) :
    Cert.ReferenceIdeal.ValueP.res_main_v67 (F := Ideal) m c
      = Cert.Decoders.G
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19)) (m ((c.tc : Thread nD τ).loc main_arg20))
        (m ((c.tc : Thread nD τ).loc main_arg21)) (m ((c.tc : Thread nD τ).loc main_arg22)) (m ((c.tc : Thread nD τ).loc main_arg23))
        (m ((c.tc : Thread nD τ).loc main_arg24)) (m ((c.tc : Thread nD τ).loc main_arg25)) := by
  rw [ReadP.val_main_v67_eq]
  funext i
  obtain ⟨r, rfl⟩ : ∃ r : Fin 65536, i = ix2 r 0 :=
    ⟨i 0, (eq_ix2 i).trans (congrArg (ix2 (i 0)) (Subsingleton.elim (α := Fin 1) (i 1) 0))⟩
  exact ref_row _ _ _ _ _ _ _ _ _ _ _ _ _ _ _ _ _ _ _ _ _ _ _ _ _ _ r

end Cert.ReferenceIdeal.RefValue

end
-- ==== Proof.lean ====
/-
  The five claims for the fused expert decoders.

  Both programs compute, for every row `r` of the 65536 × 2048 feature array, the output of the three-layer decoder that
  the row's label picks among four, and zero when the label lies outside 0 … 3 (`Cert.Decoders.G`, Proof/Spec.lean).
  The reference evaluates the four decoders one after the other, concatenates their outputs, takes the column the clipped
  label names and masks the rows whose label is out of range.  The kernel program evaluates ONE fused network — the
  first-layer weights side by side, the second and third layers block diagonal, built from the same argument arrays —,
  multiplies its four outputs by the one-hot of the clipped label, sums them and multiplies by the validity flag.  On the
  extended reals the two agree entry by entry: a product with a zero weight or a zero one-hot entry vanishes whatever the
  other factor is, and sums may be regrouped freely; no finiteness of the inputs is used.

  The frames of the two kernel programs (they run to the end, fault nowhere and leave their twenty-six argument arrays as
  launched) come from the launch of the one pipeline over its 32 grid points, each point's body loading its nine input
  blocks and storing one output block (Proof/FrameK.lean at the word level, Proof/FrameKI.lean at the extended reals); the
  reference's frame is its run with the result dropped.  Nothing was rewritten by the idealization, so the fourth claim is
  trivial.
-/
import proofs.«426415_j40561671143598_2_alg».proof.Defs
import proofs.«426415_j40561671143598_2_alg».proof.Proof.Gen.Kernel
import proofs.«426415_j40561671143598_2_alg».proof.Proof.Gen.KernelIdeal
import proofs.«426415_j40561671143598_2_alg».proof.Proof.Gen.ReferenceIdeal
import proofs.«426415_j40561671143598_2_alg».proof.Proof.Gen.Pre_finite_inputs
import proofs.«426415_j40561671143598_2_alg».proof.Proof.FrameK
import proofs.«426415_j40561671143598_2_alg».proof.Proof.FrameKI
import proofs.«426415_j40561671143598_2_alg».proof.Proof.KernelValue
import proofs.«426415_j40561671143598_2_alg».proof.Proof.RefRun
import proofs.«426415_j40561671143598_2_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

set_option maxHeartbeats 1000000 in
/-- Run from memories that agree on the arguments, both idealized programs end with the result array at `G` of the
    arguments: the kernel program by the blocks its 32 points write back, the reference by its operations read at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Decoders.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.ref_result_eq m' c).trans ?_
  obtain ⟨h0, h1, h2, h3, h4, h5, h6, h7, h8, h9, h10, h11, h12, h13, h14, h15, h16, h17, h18, h19, h20, h21, h22, h23, h24, h25⟩ := hagree c
  show Cert.Decoders.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = Cert.Decoders.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))
  rw [h0, h1, h2, h3, h4, h5, h6, h7, h8, h9, h10, h11, h12, h13, h14, h15, h16, h17, h18, h19, h20, h21, h22, h23, h24, h25]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
